-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x64 : Shape := ⟨2, ![256, 64]⟩
abbrev S256x128 : Shape := ⟨2, ![256, 128]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x64 : S_.BroadcastsInDim S256x64 (![] : Fin 0 → Fin S256x64.rank)
  reducesTo_S256x64_S_d0_1 : S256x64.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  main_v18

def fn {F : FTy → Type} [FloatOps F] (main_arg0 : FVec F S4x4096x256 .f32) (main_arg1 : FVec F S4x4096x256 .f32) (main_arg2 : FVec F S256x64 .f32) (main_arg3 : FVec F S256x128 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_v13 main_v16
-- ==== Kernel.lean ====
abbrev S4x4096x256 : Shape := ⟨3, ![4, 4096, 256]⟩
abbrev S256x64 : Shape := ⟨2, ![256, 64]⟩
abbrev S256x128 : Shape := ⟨2, ![256, 128]⟩
abbrev S4x4096x128 : Shape := ⟨3, ![4, 4096, 128]⟩
abbrev S1x1024x256 : Shape := ⟨3, ![1, 1024, 256]⟩
abbrev S1x1024x128 : Shape := ⟨3, ![1, 1024, 128]⟩
abbrev S1024x256 : Shape := ⟨2, ![1024, 256]⟩
abbrev S1024x128 : Shape := ⟨2, ![1024, 128]⟩
abbrev S_ : Shape := ⟨0, ![]⟩
abbrev S4x4096x64 : Shape := ⟨3, ![4, 4096, 64]⟩
abbrev S1x4096x128 : Shape := ⟨3, ![1, 4096, 128]⟩
abbrev S1x1024x64 : Shape := ⟨3, ![1, 1024, 64]⟩
abbrev S1024x1 : Shape := ⟨2, ![1024, 1]⟩
abbrev S1024x1024 : Shape := ⟨2, ![1024, 1024]⟩
abbrev S1024 : Shape := ⟨1, ![1024]⟩
abbrev S1024x64 : Shape := ⟨2, ![1024, 64]⟩

abbrev nBuf : Space → Nat
  | .hbm => 9
  | .vmem => 16
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S256x64, .f32⟩
  | .hbm, ⟨3, _⟩ => ⟨S256x128, .f32⟩
  | .hbm, ⟨4, _⟩ => ⟨S4x4096x128, .bf16⟩
  | .hbm, ⟨5, _⟩ => ⟨S_, .i32⟩
  | .hbm, ⟨6, _⟩ => ⟨S_, .f32⟩
  | .hbm, ⟨7, _⟩ => ⟨S256x128, .f32⟩
  | .hbm, ⟨8, _⟩ => ⟨S4x4096x64, .f32⟩
  | .local _ .vmem, ⟨0, _⟩ => ⟨S1x1024x256, .f32⟩
  | .local _ .vmem, ⟨1, _⟩ => ⟨S1x1024x256, .f32⟩
  | .local _ .vmem, ⟨2, _⟩ => ⟨S256x128, .f32⟩
  | .local _ .vmem, ⟨3, _⟩ => ⟨S1x1024x128, .bf16⟩
  | .local _ .vmem, ⟨4, _⟩ => ⟨S1x1024x128, .bf16⟩
  | .local _ .vmem, ⟨5, _⟩ => ⟨S1x1024x256, .f32⟩
  | .local _ .vmem, ⟨6, _⟩ => ⟨S1x1024x256, .f32⟩
  | .local _ .vmem, ⟨7, _⟩ => ⟨S256x128, .f32⟩
  | .local _ .vmem, ⟨8, _⟩ => ⟨S1x4096x128, .bf16⟩
  | .local _ .vmem, ⟨9, _⟩ => ⟨S1x4096x128, .bf16⟩
  | .local _ .vmem, ⟨10, _⟩ => ⟨S1x1024x64, .f32⟩
  | .local _ .vmem, ⟨11, _⟩ => ⟨S1x1024x64, .f32⟩
  | .local _ .vmem, ⟨12, _⟩ => ⟨S1024x128, .bf16⟩
  | .local _ .vmem, ⟨13, _⟩ => ⟨S1024x1, .f32⟩
  | .local _ .vmem, ⟨14, _⟩ => ⟨S1024x1, .f32⟩
  | .local _ .vmem, ⟨15, _⟩ => ⟨S1024x128, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc1_scratch1 : Ref sig .tc := ⟨.vmem, 13, rfl⟩
abbrev cc1_scratch2 : Ref sig .tc := ⟨.vmem, 14, rfl⟩
abbrev cc1_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![4, 4, 4], ![false, false, false]⟩

def k1_mult1 (i : grid1.Coords) : BitVec 32 :=
  let arg2 : BitVec 32 := BitVec.ofNat 32 (i 2).val
  let c1024_i32 : BitVec 32 := 1024#32
  let v3 : BitVec 32 := Scalar.muli arg2 c1024_i32
  v3
def k1_off1 (i : grid1.Coords) : Fin 3 → Nat :=
  let c0 : Index := 0#32
  let arg2 : BitVec 32 := BitVec.ofNat 32 (i 2).val
  let c1024_i32 : BitVec 32 := 1024#32
  let v3 : BitVec 32 := Scalar.muli arg2 c1024_i32
  let v4 : BitVec 32 := v3
  let v5 : Index := Scalar.indexCast v4
  let c0_1 : Index := 0#32
  ![0, v5.toNat, 0]
def k1_cond2 (i : grid1.Coords) : BitVec 1 :=
  let arg2 : BitVec 32 := BitVec.ofNat 32 (i 2).val
  let c3_i32 : BitVec 32 := 3#32
  let v39 : BitVec 1 := Scalar.cmpi .eq arg2 c3_i32
  let v40 : BitVec 32 := Scalar.extui v39
  let c0_i32_19 : BitVec 32 := 0#32
  let v41 : BitVec 1 := Scalar.cmpi .ne v40 c0_i32_19
  v41

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S1x4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  pads_S256x64_S256x128_000_0640 : S256x64.Pads (![0, 0] : Fin 2 → Nat) ![0, 64] ![0, 0] S256x128
  h_S_ : 0 < S_.numel
  shapeCasts_S256x128_S256x128 : S256x128.ShapeCasts S256x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  packedbf16_S1024x128_S1024x128_0_0 : (Rect.unit (s := S1024x128) ![0, 0] S1024x128.size inb_S1024x128_S1024x128_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  slices_S1024x128_o0_64_S1024x64 : S1024x128.Slices ![0, 64] S1024x64
  broadcasts_S1024x1_S1024x64 : S1024x1.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  dot_S1024x256_S256x128_S1024x128_1_0_0_1_n_n_wf : DotDims.WF S1024x256 S256x128 S1024x128 [1] [0] [0] [1] [] []
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S4x4096x256.size a
  hwx0_0 : ∀ i : grid0.Coords, EltTy.bits .f32 = 32 ∨ (Rect.block (s := S4x4096x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S4x4096x128.size a
  hwx0_2 : ∀ i : grid0.Coords, EltTy.bits .bf16 = 32 ∨ (Rect.block (s := S4x4096x128) S1x1024x128.size (cc0_transform_2 i) (hinb0_2 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1x1024x128.size a ≤ S1x4096x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S4x4096x256.size a
  hwx1_0 : ∀ i : grid1.Coords, EltTy.bits .f32 = 32 ∨ (Rect.block (s := S4x4096x256) S1x1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x128.size a ≤ S4x4096x128.size a
  hwx1_2 : ∀ i : grid1.Coords, EltTy.bits .bf16 = 32 ∨ (Rect.block (s := S4x4096x128) S1x4096x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S4x4096x64.size a
  hwx1_3 : ∀ i : grid1.Coords, EltTy.bits .f32 = 32 ∨ (Rect.block (s := S4x4096x64) S1x1024x64.size (cc1_transform_3 i) (hinb1_3 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg1) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x256 : Shape := ⟨3, ![4, 4096, 256]⟩
abbrev S256x64 : Shape := ⟨2, ![256, 64]⟩
abbrev S256x128 : Shape := ⟨2, ![256, 128]⟩
abbrev S4x4096x64 : Shape := ⟨3, ![4, 4096, 64]⟩
abbrev S4x4096x128 : Shape := ⟨3, ![4, 4096, 128]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S256x64, .f32⟩
  | .hbm, ⟨3, _⟩ => ⟨S256x128, .f32⟩
  | .hbm, ⟨4, _⟩ => ⟨S4x4096x64, .f32⟩
  | .hbm, ⟨5, _⟩ => ⟨S4x4096x128, .f32⟩
  | .hbm, ⟨6, _⟩ => ⟨S4x4096x64, .f32⟩
  | .hbm, ⟨7, _⟩ => ⟨S4x4096x64, .f32⟩
  | .hbm, ⟨8, _⟩ => ⟨S4x4096x4096, .f32⟩
  | .hbm, ⟨9, _⟩ => ⟨S_, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x4096, .f32⟩
  | .hbm, ⟨26, _⟩ => ⟨S4x4096x4096, .f32⟩
  | .hbm, ⟨27, _⟩ => ⟨S4x4096x64, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  slices_S4x4096x128_S4x4096x64_0_0_0 : S4x4096x128.Slices ![0, 0, 0] S4x4096x64
  slices_S4x4096x128_S4x4096x64_0_0_64 : S4x4096x128.Slices ![0, 0, 64] S4x4096x64
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S256x64_S4x4096x64_2_0_01_1_n_n_wf : DotDims.WF S4x4096x256 S256x64 S4x4096x64 [2] [0] [0, 1] [1] [] []
  dot_S4x4096x256_S256x128_S4x4096x128_2_0_01_1_n_n_wf : DotDims.WF S4x4096x256 S256x128 S4x4096x128 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x256_S256x64_S4x4096x64_2_0_01_1_n_n : DotDims S4x4096x256 S256x64 S4x4096x64 where
  lhsContracting := [2]
  rhsContracting := [0]
  lhsNonContracting := [0, 1]
  rhsNonContracting := [1]
  lhsBatch := []
  rhsBatch := []
  wf := dot_S4x4096x256_S256x64_S4x4096x64_2_0_01_1_n_n_wf
def dot_S4x4096x256_S256x128_S4x4096x128_2_0_01_1_n_n : DotDims S4x4096x256 S256x128 S4x4096x128 where
  lhsContracting := [2]
  rhsContracting := [0]
  lhsNonContracting := [0, 1]
  rhsNonContracting := [1]
  lhsBatch := []
  rhsBatch := []
  wf := dot_S4x4096x256_S256x128_S4x4096x128_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.BitsRegion0.lean ====
/-
  The first kernel region: the joint key|value projection. At each of the 16 grid points the body loads a
  1024-row block of `cond` and the whole of `Wkv`, multiplies them into a zero accumulator and stores the product as
  the point's 1024 x 128 block of the result. Nothing is carried between points, so what the result window's staging
  buffer holds after the body is one function of the two input blocks, and the pipeline's proof data states the inputs'
  buffers at their blocks, the output's at that function, the invariant the scoped rest and the generator register.
  Everything here is stated at the contents `V` the core's buffers hold when the region is entered, and at any float
  instance.
-/
import proofs.«423627_j86199993631020_3_alg».proof.Proof.Gen.Kernel.Launch
import proofs.«423627_j86199993631020_3_alg».proof.Proof.Gen.Kernel.Skeleton
import proofs.«423627_j86199993631020_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The `cond` window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer, fetched once, holds the whole weight at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rc0 : Rect S1x1024x256 := Rect.unit (s := S1x1024x256) ![0, 0, 0] S1x1024x256.size inb_S1x1024x256_S1x1024x256_0_0_0
abbrev rw0 : Rect S256x128 := Rect.unit (s := S256x128) ![0, 0] S256x128.size inb_S256x128_S256x128_0_0
abbrev ro0 : Rect S1x1024x128 := Rect.unit (s := S1x1024x128) ![0, 0, 0] S1x1024x128.size inb_S1x1024x128_S1x1024x128_0_0_0

/-- The result window's staging buffer after the body: its one whole-block store of the product. -/
def out0_2 (x0 : Vec F S1x1024x256 .f32) (x1 : Vec F S256x128 .f32) : Vec F S1x1024x128 .bf16 :=
  View.canon [⟨ro0, k0_pay1 (View.ld x0 rc0) (View.ld x1 rw0)⟩]

/-- The one store covers the buffer. -/
theorem cover0_2 (p0 : Vec F S1x1024x128 .bf16) (y : S1x1024x128.Idx) :
    ∃ pc ∈ ([⟨ro0, p0⟩] : List (View.Piece (Elt F) S1x1024x128 .bf16)), y ∈ pc.1.set :=
  View.cover_of_tiled [⟨ro0, p0⟩] S1x1024x128.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords)
    (arg2 : Memref sig .tc .vmem S1x1024x256 .f32) (harg2 : arg2.IsWhole) (arg3 : Memref sig .tc .vmem S256x128 .f32) (harg3 : arg3.IsWhole)
    (arg4 : Memref sig .tc .vmem S1x1024x128 .bf16) (harg4 : arg4.IsWhole)
    (x0 : Vec F S1x1024x256 .f32) (x1 : Vec F S256x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__kernel i arg2 harg2 arg3 harg3 arg4 harg4) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first pipeline on core `c`: the arrays as the region finds them; after the body at point `t`
    each input's buffer at its block and the output's at the product of the two blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1Defs.lean ====
/-
  The second kernel region: the query projection fused with attention, one query tile of 1024 rows at a time, the 4096
  keys and values taken in four tiles of 1024 along the innermost grid axis `j`.
  Four scratch buffers live across the four points of a query tile: the scaled query `q`, the running shift `m`, the
  running normaliser `l` and the running numerator `a`. At `j = 0` the body first resets them (`q` to the projected and
  scaled query block, `m` to a large negative constant, `l` and `a` to zero); at every `j` it folds the `j`-th tile of the
  resident key|value block into `m`, `l`, `a`; at `j = 3` it also stores `a`'s value half times the reciprocal of `l` into
  the output block. This module names those updates as functions of what the body loads, for the body's three
  triples (first, middle, last point of a query tile) to be stated over.
-/
import proofs.«423627_j86199993631020_3_alg».proof.Proof.Gen.Kernel.Launch
import proofs.«423627_j86199993631020_3_alg».proof.Proof.Gen.Kernel.Skeleton
import proofs.«423627_j86199993631020_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev rx1 : Rect S1x1024x256 := Rect.unit (s := S1x1024x256) ![0, 0, 0] S1x1024x256.size inb_S1x1024x256_S1x1024x256_0_0_0
abbrev rwq1 : Rect S256x128 := Rect.unit (s := S256x128) ![0, 0] S256x128.size inb_S256x128_S256x128_0_0
abbrev rq1 : Rect S1024x128 := Rect.unit (s := S1024x128) ![0, 0] S1024x128.size inb_S1024x128_S1024x128_0_0
abbrev rm1 : Rect S1024x1 := Rect.unit (s := S1024x1) ![0, 0] S1024x1.size inb_S1024x1_S1024x1_0_0
abbrev ro1 : Rect S1x1024x64 := Rect.unit (s := S1x1024x64) ![0, 0, 0] S1x1024x64.size inb_S1x1024x64_S1x1024x64_0_0_0
/-- The `j`-th tile of 1024 rows of the resident key|value block, `j` the point's innermost coordinate. -/
abbrev rkv1 (i : grid1.Coords) : Rect S1x4096x128 := Rect.unit (s := S1x4096x128) (k1_off1 i) S1x1024x128.size (k1_off1_inb i)

/-! ## The updates, as functions of what the body loads -/

/-- The scratch contents carried between the points of a query tile. -/
structure Scr (F : FTy → Type) [FloatOps F] where
  q : Vec F S1024x128 .bf16
  m : Vec F S1024x1 .f32
  l : Vec F S1024x1 .f32
  a : Vec F S1024x128 .f32

/-- The reset of `q`: the query block times the padded query weight, scaled by 1/8. -/
def stepQ (xb : Vec F S1x1024x256 .f32) (wq : Vec F S256x128 .f32) : Vec F S1024x128 .bf16 :=
  k1_pay4 (View.ld xb rx1) (View.ld wq rwq1)

/-- The new running shift: the old one against the tile's row maxima of the scores. -/
def stepM (i : grid1.Coords) (kvb : Vec F S1x4096x128 .bf16) (q : Vec F S1024x128 .bf16) (m : Vec F S1024x1 .f32) : Vec F S1024x1 .f32 :=
  k1_pay2 (k1_pay10 (View.ld kvb (rkv1 i)) (View.ld q rq1) (View.ld m rm1))

/-- The new running normaliser. -/
def stepL (i : grid1.Coords) (kvb : Vec F S1x4096x128 .bf16) (q : Vec F S1024x128 .bf16) (m l : Vec F S1024x1 .f32) : Vec F S1024x1 .f32 :=
  k1_pay13 (View.ld kvb (rkv1 i)) (View.ld q rq1) (View.ld m rm1) (View.ld l rm1)

/-- The new running numerator. -/
def stepA (i : grid1.Coords) (kvb : Vec F S1x4096x128 .bf16) (q : Vec F S1024x128 .bf16) (m : Vec F S1024x1 .f32) (a : Vec F S1024x128 .f32) : Vec F S1024x128 .f32 :=
  k1_pay1 (k1_pay14 (View.ld kvb (rkv1 i)) (View.ld q rq1) (View.ld m rm1) (View.ld a rq1))

/-- The output block: the numerator's value half times the reciprocal of the normaliser. -/
def stepO (a : Vec F S1024x128 .f32) (l : Vec F S1024x1 .f32) : Vec F S1x1024x64 .f32 :=
  k1_pay3 (View.ld a rq1) (View.ld l rm1)

/-- One point's update of the scratch: at `j = 0` from the reset values, else from what the point before left. -/
def stepScr (i : grid1.Coords) (xb : Vec F S1x1024x256 .f32) (wq : Vec F S256x128 .f32) (kvb : Vec F S1x4096x128 .bf16)
    (s : Scr F) : Scr F :=
  if (i 2).val = 0 then
    ⟨stepQ xb wq, stepM i kvb (stepQ xb wq) (k1_pay5 (F := F)), stepL i kvb (stepQ xb wq) (k1_pay5 (F := F)) (k1_pay6 (F := F)),
      stepA i kvb (stepQ xb wq) (k1_pay5 (F := F)) (k1_pay7 (F := F))⟩
  else ⟨s.q, stepM i kvb s.q s.m, stepL i kvb s.q s.m s.l, stepA i kvb s.q s.m s.a⟩

end Cert.Kernel.Hand

end
-- ==== Proof.BitsRegion1First.lean ====
/-
  The attention body at the first point of a query tile (innermost coordinate 0): both branches' conditions are decided
  by the coordinate, the scratch buffers are reset whatever they held, the first key|value tile is folded in, and the
  output block's staging buffer is not touched.
-/
import proofs.«423627_j86199993631020_3_alg».proof.Proof.BitsRegion1Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer stores

Every store of the body goes through the rectangle of the whole buffer at zero offsets, so the last store into a buffer
covers it and what the buffer then reads is that store's payload, whatever it held and whatever was stored before. -/

/-- The zero offsets of a rank-two buffer, as the constant function. -/
private theorem first_hz : (![0, 0] : Fin 2 → Nat) = fun _ => 0 := funext fun a => by fin_cases a <;> rfl

/-- A store through the whole 1024 x 128 rectangle, last in a list of stores, covers the buffer. -/
private theorem first_cover_q {e : EltTy} (w : Vec F S1024x128 e) (L : List (View.Piece (Elt F) S1024x128 e))
    (y : S1024x128.Idx) : ∃ pc ∈ ((⟨rq1, w⟩ : View.Piece (Elt F) S1024x128 e) :: L), y ∈ pc.1.set :=
  ⟨_, List.Mem.head _, View.mem_set_unit_zero first_hz inb_S1024x128_S1024x128_0_0 y⟩

/-- A store through the whole 1024 x 1 rectangle, last in a list of stores, covers the buffer. -/
private theorem first_cover_m {e : EltTy} (w : Vec F S1024x1 e) (L : List (View.Piece (Elt F) S1024x1 e))
    (y : S1024x1.Idx) : ∃ pc ∈ ((⟨rm1, w⟩ : View.Piece (Elt F) S1024x1 e) :: L), y ∈ pc.1.set :=
  ⟨_, List.Mem.head _, View.mem_set_unit_zero first_hz inb_S1024x1_S1024x1_0_0 y⟩

/-! ## The body's triple at the first point -/

set_option maxHeartbeats 4000000 in
/-- The first point of a query tile (`j = 0`): the scratch buffers are reset, whatever they held, and the first tile
    folded in; the output block's staging buffer is left as found. -/
theorem sound_kernel1_first (c : Dev nD) (E : Set ℕ) (i : grid1.Coords) (hj : (i 2).val = 0)
    (arg3 : Memref sig .tc .vmem S1x1024x256 .f32) (harg3 : arg3.IsWhole) (arg4 : Memref sig .tc .vmem S256x128 .f32) (harg4 : arg4.IsWhole)
    (arg5 : Memref sig .tc .vmem S1x4096x128 .bf16) (harg5 : arg5.IsWhole) (arg6 : Memref sig .tc .vmem S1x1024x64 .f32) (harg6 : arg6.IsWhole)
    (arg7 : Memref sig .tc .vmem S1024x128 .bf16) (harg7 : arg7.IsWhole) (arg8 : Memref sig .tc .vmem S1024x1 .f32) (harg8 : arg8.IsWhole)
    (arg9 : Memref sig .tc .vmem S1024x1 .f32) (harg9 : arg9.IsWhole) (arg10 : Memref sig .tc .vmem S1024x128 .f32) (harg10 : arg10.IsWhole)
    (xb : Vec F S1x1024x256 .f32) (wq : Vec F S256x128 .f32) (kvb : Vec F S1x4096x128 .bf16) (y : Vec F S1x1024x64 .f32)
    (K : PUnit → sProp 𝕄) :
    iprop(owns (c : Thread nD τ) arg3 fullShare xb ∗ owns (c : Thread nD τ) arg4 fullShare wq ∗ owns (c : Thread nD τ) arg5 fullShare kvb
        ∗ owns (c : Thread nD τ) arg6 fullShare y
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare xb ∗ owns (c : Thread nD τ) arg4 fullShare wq ∗ owns (c : Thread nD τ) arg5 fullShare kvb
            ∗ owns (c : Thread nD τ) arg6 fullShare y
            ∗ owns (c : Thread nD τ) arg7 fullShare (stepQ xb wq)
            ∗ owns (c : Thread nD τ) arg8 fullShare (stepM i kvb (stepQ xb wq) (k1_pay5 (F := F)))
            ∗ owns (c : Thread nD τ) arg9 fullShare (stepL i kvb (stepQ xb wq) (k1_pay5 (F := F)) (k1_pay6 (F := F)))
            ∗ owns (c : Thread nD τ) arg10 fullShare (stepA i kvb (stepQ xb wq) (k1_pay5 (F := F)) (k1_pay7 (F := F)))) -∗ K ⟨⟩))
      ⊢ wp frame (wpE (defs₀ (F := F)) Variants.none c none) E
          (cc1_kernel i arg3 harg3 arg4 harg4 arg5 harg5 arg6 harg6 arg7 harg7 arg8 harg8 arg9 harg9 arg10 harg10) K := by
  -- the two conditions at innermost coordinate 0: the reset branch is taken, the output branch is not
  have hc0 : (Scalar.cmpi .ne (Scalar.extui (Scalar.cmpi .eq (BitVec.ofNat 32 (i 2).val) 0#32)) 0#32) = 1#1 := by
    rw [hj]; decide
  have hc1 : ¬ k1_cond2 i = 1#1 := by
    unfold k1_cond2; rw [hj]; decide
  simp only [cc1_kernel_eq_skeleton]; unfold cc1_kernel_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩,
    ⟨%d9, %f9, -, H9⟩, ⟨%d10, %f10, -, H10⟩, Hk⟩
  subst hf3; subst hf4; subst hf5; subst hf6
  sl_exec (disch := first | exact hc0 | exact hc1)
  sl_step
  iapply Hk
  -- the three input blocks and the output block's buffer are as they were
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  -- q: the one store of the reset value
  isplitl [H7]
  · iexists _; isplitr
    swap; · iexact H7
    ipureintro
    sl_unfold_run_names
    refine (View.read_writes_eq_canon _ _ _ (first_cover_q _ _)).trans
      ((View.canon_cons_unit_zero first_hz inb_S1024x128_S1024x128_0_0 _ _).trans ?_)
    unfold stepQ
    simp only [View.readAt_eq_ld, View.readCov_unit_zero (S := S1024x128) _ first_hz,
      View.readCov_unit_zero (S := S1024x1) _ first_hz, View.ld_unit_zero (S := S1024x128) first_hz,
      View.ld_unit_zero (S := S1024x1) first_hz]
  -- m: the reset, then the fold of the first tile, which loads q and m back as the reset left them
  isplitl [H8]
  · iexists _; isplitr
    swap; · iexact H8
    ipureintro
    sl_unfold_run_names
    refine (View.read_writes_eq_canon _ _ _ (first_cover_m _ _)).trans
      ((View.canon_cons_unit_zero first_hz inb_S1024x1_S1024x1_0_0 _ _).trans ?_)
    unfold stepM stepQ
    simp only [View.readAt_eq_ld, View.readCov_unit_zero (S := S1024x128) _ first_hz,
      View.readCov_unit_zero (S := S1024x1) _ first_hz, View.ld_unit_zero (S := S1024x128) first_hz,
      View.ld_unit_zero (S := S1024x1) first_hz]
  -- l: likewise, loading q, m and l back
  isplitl [H9]
  · iexists _; isplitr
    swap; · iexact H9
    ipureintro
    sl_unfold_run_names
    refine (View.read_writes_eq_canon _ _ _ (first_cover_m _ _)).trans
      ((View.canon_cons_unit_zero first_hz inb_S1024x1_S1024x1_0_0 _ _).trans ?_)
    unfold stepL stepQ
    simp only [View.readAt_eq_ld, View.readCov_unit_zero (S := S1024x128) _ first_hz,
      View.readCov_unit_zero (S := S1024x1) _ first_hz, View.ld_unit_zero (S := S1024x128) first_hz,
      View.ld_unit_zero (S := S1024x1) first_hz]
  -- a: likewise, loading q, m and a back
  iexists _; isplitr
  swap; · iexact H10
  ipureintro
  sl_unfold_run_names
  refine (View.read_writes_eq_canon _ _ _ (first_cover_q _ _)).trans
    ((View.canon_cons_unit_zero first_hz inb_S1024x128_S1024x128_0_0 _ _).trans ?_)
  unfold stepA stepQ
  simp only [View.readAt_eq_ld, View.readCov_unit_zero (S := S1024x128) _ first_hz,
    View.readCov_unit_zero (S := S1024x1) _ first_hz, View.ld_unit_zero (S := S1024x128) first_hz,
    View.ld_unit_zero (S := S1024x1) first_hz]

end Cert.Kernel.Hand

end
-- ==== Proof.BitsRegion1Mid.lean ====
/-
  The attention body at a middle point of a query tile (innermost coordinate 1 or 2): neither branch is taken; the
  point's key|value tile is folded into the scratch the point before left; the output block's staging buffer is not touched.
-/
import proofs.«423627_j86199993631020_3_alg».proof.Proof.BitsRegion1Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, as the constant function. -/
private theorem mid_zero_offsets : (![0, 0] : Fin 2 → Nat) = fun _ => 0 := funext fun a => by fin_cases a <;> rfl

/-- One whole-buffer store covers a 1024 x 1 scratch. -/
private theorem mid_cover_col (p0 : Vec F S1024x1 .f32) (y : S1024x1.Idx) :
    ∃ pc ∈ ([⟨rm1, p0⟩] : List (View.Piece (Elt F) S1024x1 .f32)), y ∈ pc.1.set :=
  ⟨_, List.mem_singleton_self _, View.mem_set_unit_zero mid_zero_offsets inb_S1024x1_S1024x1_0_0 y⟩

/-- One whole-buffer store covers the 1024 x 128 numerator scratch. -/
private theorem mid_cover_acc (p0 : Vec F S1024x128 .f32) (y : S1024x128.Idx) :
    ∃ pc ∈ ([⟨rq1, p0⟩] : List (View.Piece (Elt F) S1024x128 .f32)), y ∈ pc.1.set :=
  ⟨_, List.mem_singleton_self _, View.mem_set_unit_zero mid_zero_offsets inb_S1024x128_S1024x128_0_0 y⟩

set_option maxHeartbeats 4000000 in
/-- A middle point (`j = 1` or `j = 2`): the tile folded into the scratch the point before left; the output block's
    staging buffer left as found. -/
theorem sound_kernel1_mid (c : Dev nD) (E : Set ℕ) (i : grid1.Coords) (hj0 : (i 2).val ≠ 0) (hj3 : (i 2).val ≠ 3)
    (arg3 : Memref sig .tc .vmem S1x1024x256 .f32) (harg3 : arg3.IsWhole) (arg4 : Memref sig .tc .vmem S256x128 .f32) (harg4 : arg4.IsWhole)
    (arg5 : Memref sig .tc .vmem S1x4096x128 .bf16) (harg5 : arg5.IsWhole) (arg6 : Memref sig .tc .vmem S1x1024x64 .f32) (harg6 : arg6.IsWhole)
    (arg7 : Memref sig .tc .vmem S1024x128 .bf16) (harg7 : arg7.IsWhole) (arg8 : Memref sig .tc .vmem S1024x1 .f32) (harg8 : arg8.IsWhole)
    (arg9 : Memref sig .tc .vmem S1024x1 .f32) (harg9 : arg9.IsWhole) (arg10 : Memref sig .tc .vmem S1024x128 .f32) (harg10 : arg10.IsWhole)
    (xb : Vec F S1x1024x256 .f32) (wq : Vec F S256x128 .f32) (kvb : Vec F S1x4096x128 .bf16) (y : Vec F S1x1024x64 .f32)
    (q : Vec F S1024x128 .bf16) (m l : Vec F S1024x1 .f32) (a : Vec F S1024x128 .f32)
    (K : PUnit → sProp 𝕄) :
    iprop(owns (c : Thread nD τ) arg3 fullShare xb ∗ owns (c : Thread nD τ) arg4 fullShare wq ∗ owns (c : Thread nD τ) arg5 fullShare kvb
        ∗ owns (c : Thread nD τ) arg6 fullShare y
        ∗ owns (c : Thread nD τ) arg7 fullShare q ∗ owns (c : Thread nD τ) arg8 fullShare m
        ∗ owns (c : Thread nD τ) arg9 fullShare l ∗ owns (c : Thread nD τ) arg10 fullShare a
        ∗ (iprop(owns (c : Thread nD τ) arg3 fullShare xb ∗ owns (c : Thread nD τ) arg4 fullShare wq ∗ owns (c : Thread nD τ) arg5 fullShare kvb
            ∗ owns (c : Thread nD τ) arg6 fullShare y
            ∗ owns (c : Thread nD τ) arg7 fullShare q
            ∗ owns (c : Thread nD τ) arg8 fullShare (stepM i kvb q m)
            ∗ owns (c : Thread nD τ) arg9 fullShare (stepL i kvb q m l)
            ∗ owns (c : Thread nD τ) arg10 fullShare (stepA i kvb q m a)) -∗ K ⟨⟩))
      ⊢ wp frame (wpE (defs₀ (F := F)) Variants.none c none) E
          (cc1_kernel i arg3 harg3 arg4 harg4 arg5 harg5 arg6 harg6 arg7 harg7 arg8 harg8 arg9 harg9 arg10 harg10) K := by
  have h1 : ¬ (Scalar.cmpi .ne (Scalar.extui (Scalar.cmpi .eq (BitVec.ofNat 32 (i 2).val) 0#32)) 0#32 = 1#1) :=
    (by decide +kernel : ∀ v : Fin 4, v.val ≠ 0 → ¬ (Scalar.cmpi .ne (Scalar.extui (Scalar.cmpi .eq (BitVec.ofNat 32 v.val) 0#32)) 0#32 = 1#1)) (i 2) hj0
  have h2 : ¬ (k1_cond2 i = 1#1) := by
    unfold k1_cond2
    exact (by decide +kernel : ∀ v : Fin 4, v.val ≠ 3 → ¬ (Scalar.cmpi .ne (Scalar.extui (Scalar.cmpi .eq (BitVec.ofNat 32 v.val) 3#32)) 0#32 = 1#1)) (i 2) hj3
  simp only [cc1_kernel_eq_skeleton]; unfold cc1_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf3; subst hf4; subst hf5; subst hf6; subst hf7; subst hf8; subst hf9; subst hf10
  sl_exec (disch := first | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (mid_cover_col _)).trans ((View.canon_unit_zero mid_zero_offsets inb_S1024x1_S1024x1_0_0 _).trans ?_)
    unfold stepM
    sl_unfold_run_names
    rfl
  isplitl [H9]
  · iexists _; isplitr
    swap; · iexact H9
    ipureintro
    refine (View.read_writes_eq_canon _ _ _ (mid_cover_col _)).trans ((View.canon_unit_zero mid_zero_offsets inb_S1024x1_S1024x1_0_0 _).trans ?_)
    unfold stepL
    rfl
  iexists _; isplitr
  swap; · iexact H10
  ipureintro
  refine (View.read_writes_eq_canon _ _ _ (mid_cover_acc _)).trans ((View.canon_unit_zero mid_zero_offsets inb_S1024x128_S1024x128_0_0 _).trans ?_)
  unfold stepA
  sl_unfold_run_names
  rfl

end Cert.Kernel.Hand

end
-- ==== Proof.BitsRegion1Last.lean ====
/-
  The attention body at the last point of a query tile (innermost coordinate 3): the reset branch is skipped, the last
  key|value tile is folded in, and the finishing branch stores the numerator's value half times the reciprocal of the
  normaliser into the output block's staging buffer.
-/
import proofs.«423627_j86199993631020_3_alg».proof.Proof.BitsRegion1Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last point of a query tile (`j = 3`): the last tile folded in, and the output block's staging buffer, whatever it
    held, set to the finished quotient. -/
theorem sound_kernel1_last (c : Dev nD) (E : Set ℕ) (i : grid1.Coords) (hj : (i 2).val = 3)
    (arg3 : Memref sig .tc .vmem S1x1024x256 .f32) (harg3 : arg3.IsWhole) (arg4 : Memref sig .tc .vmem S256x128 .f32) (harg4 : arg4.IsWhole)
    (arg5 : Memref sig .tc .vmem S1x4096x128 .bf16) (harg5 : arg5.IsWhole) (arg6 : Memref sig .tc .vmem S1x1024x64 .f32) (harg6 : arg6.IsWhole)
    (arg7 : Memref sig .tc .vmem S1024x128 .bf16) (harg7 : arg7.IsWhole) (arg8 : Memref sig .tc .vmem S1024x1 .f32) (harg8 : arg8.IsWhole)
    (arg9 : Memref sig .tc .vmem S1024x1 .f32) (harg9 : arg9.IsWhole) (arg10 : Memref sig .tc .vmem S1024x128 .f32) (harg10 : arg10.IsWhole)
    (xb : Vec F S1x1024x256 .f32) (wq : Vec F S256x128 .f32) (kvb : Vec F S1x4096x128 .bf16)
    (q : Vec F S1024x128 .bf16) (m l : Vec F S1024x1 .f32) (a : Vec F S1024x128 .f32)
    (K : PUnit → sProp 𝕄) :
    iprop(owns (c : Thread nD τ) arg3 fullShare xb ∗ owns (c : Thread nD τ) arg4 fullShare wq ∗ owns (c : Thread nD τ) arg5 fullShare kvb
        ∗ (∃ d, owns (c : Thread nD τ) arg6 fullShare d)
        ∗ owns (c : Thread nD τ) arg7 fullShare q ∗ owns (c : Thread nD τ) arg8 fullShare m
        ∗ owns (c : Thread nD τ) arg9 fullShare l ∗ owns (c : Thread nD τ) arg10 fullShare a
        ∗ (iprop(owns (c : Thread nD τ) arg3 fullShare xb ∗ owns (c : Thread nD τ) arg4 fullShare wq ∗ owns (c : Thread nD τ) arg5 fullShare kvb
            ∗ owns (c : Thread nD τ) arg6 fullShare (stepO (stepA i kvb q m a) (stepL i kvb q m l))
            ∗ owns (c : Thread nD τ) arg7 fullShare q
            ∗ owns (c : Thread nD τ) arg8 fullShare (stepM i kvb q m)
            ∗ owns (c : Thread nD τ) arg9 fullShare (stepL i kvb q m l)
            ∗ owns (c : Thread nD τ) arg10 fullShare (stepA i kvb q m a)) -∗ K ⟨⟩))
      ⊢ wp frame (wpE (defs₀ (F := F)) Variants.none c none) E
          (cc1_kernel i arg3 harg3 arg4 harg4 arg5 harg5 arg6 harg6 arg7 harg7 arg8 harg8 arg9 harg9 arg10 harg10) K := by
  -- The innermost coordinate is 3: the reset branch's condition is false, the finishing branch's is true.
  have hc0 : ¬ (Scalar.cmpi .ne (Scalar.extui (Scalar.cmpi .eq (BitVec.ofNat 32 (i 2).val) 0#32)) 0#32 = 1#1) := by
    rw [hj]; decide
  have hc1 : k1_cond2 i = 1#1 := by
    unfold k1_cond2; rw [hj]; decide
  -- Zero offsets, however spelt.
  have hz2 : (![0, 0] : Fin 2 → Nat) = fun _ => 0 := funext fun a => by fin_cases a <;> rfl
  have hz3 : (![0, 0, 0] : Fin 3 → Nat) = fun _ => 0 := funext fun a => by fin_cases a <;> rfl
  simp only [cc1_kernel_eq_skeleton]; unfold cc1_kernel_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  subst hf3; subst hf4; subst hf5; subst hf7; subst hf8; subst hf9; subst hf10
  sl_exec (disch := first | exact hc0 | exact hc1)
  sl_step
  iapply Hk
  -- The query block, the weight and the key|value block are only read.
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- The output block: its one store covers the buffer and leaves its payload, whose two operands are the new
  -- numerator and the new normaliser read back whole after their own covering stores.
  isplitl [H6]
  · iexists _; isplitr
    swap; · iexact H6
    ipureintro
    sl_unfold_run_names
    refine (View.read_writes_eq_canon _ _ _ fun y => ?_).trans ?_
    · exact ⟨_, List.mem_singleton_self _, View.mem_set_unit_zero hz3 inb_S1x1024x64_S1x1024x64_0_0_0 y⟩
    rw [View.canon_unit_zero (S := S1x1024x64) hz3]
    rw [View.readCov_unit_zero (S := S1024x128) _ hz2, View.readCov_unit_zero (S := S1024x1) _ hz2]
    unfold stepO
    rw [View.ld_unit_zero (S := S1024x128) hz2, View.ld_unit_zero (S := S1024x1) hz2]
    rfl
  -- The scaled query is only read.
  isplitl [H7]
  · iexists f7; isplitr; · ipureintro; rfl
    iexact H7
  -- The running shift: one covering store, its payload over what the point was handed.
  isplitl [H8]
  · iexists _; isplitr
    swap; · iexact H8
    ipureintro
    sl_unfold_run_names
    refine (View.read_writes_eq_canon _ _ _ fun y => ?_).trans ?_
    · exact ⟨_, List.mem_singleton_self _, View.mem_set_unit_zero hz2 inb_S1024x1_S1024x1_0_0 y⟩
    rw [View.canon_unit_zero (S := S1024x1) hz2]
    rfl
  -- The running normaliser, likewise.
  isplitl [H9]
  · iexists _; isplitr
    swap; · iexact H9
    ipureintro
    sl_unfold_run_names
    refine (View.read_writes_eq_canon _ _ _ fun y => ?_).trans ?_
    · exact ⟨_, List.mem_singleton_self _, View.mem_set_unit_zero hz2 inb_S1024x1_S1024x1_0_0 y⟩
    rw [View.canon_unit_zero (S := S1024x1) hz2]
    rfl
  -- The running numerator, likewise.
  iexists _; isplitr
  swap; · iexact H10
  ipureintro
  sl_unfold_run_names
  refine (View.read_writes_eq_canon _ _ _ fun y => ?_).trans ?_
  · exact ⟨_, List.mem_singleton_self _, View.mem_set_unit_zero hz2 inb_S1024x128_S1024x128_0_0 y⟩
  rw [View.canon_unit_zero (S := S1024x128) hz2]
  rfl

end Cert.Kernel.Hand

end
-- ==== Proof.BitsRegion1.lean ====
/-
  The second kernel region's proof data. Along the 64 grid points (batch, query tile, key|value tile `j` innermost) the
  four scratch buffers hold, after point `n`, the fold `scrAt` of the points' updates: reset at each `j = 0`, so from the
  second point on independent of what the scratch held when the region was entered. The invariant before point `n` is
  the scratch at `scrAt … n` (for some entry contents), the other scoped buffers at anything and the generator register
  at some state. The input windows' staging buffers hold their blocks at every point; the output window's holds, after
  the last point of a query tile, the finished quotient, and is left as found at the other points.
-/
import proofs.«423627_j86199993631020_3_alg».proof.Proof.BitsRegion1First
import proofs.«423627_j86199993631020_3_alg».proof.Proof.BitsRegion1Mid
import proofs.«423627_j86199993631020_3_alg».proof.Proof.BitsRegion1Last

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block, the padded query weight and the batch's key|value block at point `t`, at their literal types. -/
abbrev xblk1 (c : Dev nD) (t : Fin cfg1.N) : Vec F S1x1024x256 .f32 := iblk1 V c 0 t
abbrev wblk1 (c : Dev nD) (t : Fin cfg1.N) : Vec F S256x128 .f32 := iblk1 V c 1 t
abbrev kvblk1 (c : Dev nD) (t : Fin cfg1.N) : Vec F S1x4096x128 .bf16 := iblk1 V c 2 t

/-! ## The scratch along the grid -/

/-- The scratch after the first `n` points, entered at `d`. -/
def scrAt (c : Dev nD) (d : Scr F) : ℕ → Scr F
  | 0 => d
  | n + 1 => if h : n < cfg1.N then
      stepScr (grid1.coords ⟨n, h⟩) (xblk1 V c ⟨n, h⟩) (wblk1 V c ⟨n, h⟩) (kvblk1 V c ⟨n, h⟩) (scrAt c d n)
    else scrAt c d n

theorem scrAt_step (c : Dev nD) (d : Scr F) (n : ℕ) (h : n < cfg1.N) :
    scrAt V c d (n + 1)
      = stepScr (grid1.coords ⟨n, h⟩) (xblk1 V c ⟨n, h⟩) (wblk1 V c ⟨n, h⟩) (kvblk1 V c ⟨n, h⟩) (scrAt V c d n) := by
  rw [scrAt, dif_pos h]

theorem scrAt_stay (c : Dev nD) (d : Scr F) (n : ℕ) (h : ¬ n < cfg1.N) : scrAt V c d (n + 1) = scrAt V c d n := by
  rw [scrAt, dif_neg h]

theorem scrAt_succ (c : Dev nD) (d : Scr F) (t : Fin cfg1.N) :
    scrAt V c d (t.val + 1) = stepScr (grid1.coords t) (xblk1 V c t) (wblk1 V c t) (kvblk1 V c t) (scrAt V c d t.val) :=
  scrAt_step V c d t.val t.isLt

/-- The innermost grid coordinate of point `t` is `t mod 4`. -/
theorem coordJ : ∀ t : Fin cfg1.N, (grid1.coords t 2).val = t.val % 4 :=
  (by decide +kernel : ∀ t : Fin grid1.N, (grid1.coords t 2).val = t.val % 4)

/-- Some scratch contents, to name what no point reads. -/
def scr0 : Scr F := ⟨constant S1024x128 .bf16 0#16, k1_pay5 (F := F), k1_pay6 (F := F), k1_pay7 (F := F)⟩

/-- From the second point on the scratch does not depend on what it held at entry: the first point resets it. -/
theorem scrAt_indep (c : Dev nD) (d d' : Scr F) (n : ℕ) : scrAt V c d (n + 1) = scrAt V c d' (n + 1) := by
  induction n with
  | zero =>
    have hN : 0 < cfg1.N := lt_of_lt_of_eq (by omega : 0 < 64) N_1.symm
    have hj : (grid1.coords (⟨0, hN⟩ : Fin cfg1.N) 2).val = 0 := (coordJ ⟨0, hN⟩).trans rfl
    rw [scrAt_step V c d 0 hN, scrAt_step V c d' 0 hN]
    unfold stepScr
    rw [if_pos hj, if_pos hj]
  | succ n ih =>
    by_cases h : n + 1 < cfg1.N
    · rw [scrAt_step V c d (n + 1) h, scrAt_step V c d' (n + 1) h, ih]
    · rw [scrAt_stay V c d (n + 1) h, scrAt_stay V c d' (n + 1) h, ih]

/-! ## The invariant -/

abbrev scM1_0 : Memref sig .tc .vmem S1024x128 .bf16 := Memref.whole cc1_scratch0
abbrev scM1_1 : Memref sig .tc .vmem S1024x1 .f32 := Memref.whole cc1_scratch1
abbrev scM1_2 : Memref sig .tc .vmem S1024x1 .f32 := Memref.whole cc1_scratch2
abbrev scM1_3 : Memref sig .tc .vmem S1024x128 .f32 := Memref.whole cc1_scratch3

/-- The first pipeline's staging buffers, idle during this region, each whole at some contents. -/
def otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The four scratch buffers at the contents `s`. -/
def scrOwns (c : Dev nD) (s : Scr F) : sProp 𝕄 :=
  iprop(owns (c : Thread nD τ) scM1_0 fullShare s.q ∗ owns (c : Thread nD τ) scM1_1 fullShare s.m
    ∗ owns (c : Thread nD τ) scM1_2 fullShare s.l ∗ owns (c : Thread nD τ) scM1_3 fullShare s.a)

/-- The invariant before point `n`: the scratch at the fold of the first `n` points from some entry contents, the other
    scoped buffers at anything, the generator register at some state. -/
def Phi1 (c : Dev nD) (n : ℕ) : sProp 𝕄 :=
  iprop((∃ d : Scr F, scrOwns c (scrAt V c d n)) ∗ otherStaging (F := F) c ∗ (∃ r, prngReg c r))

/-- The class's invariant (every scoped buffer that is no staging buffer of this pipeline at anything, the generator
    register at some state) with the scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ d, owns (c : Thread nD τ) scM1_0 fullShare d) ∗ (∃ d, owns (c : Thread nD τ) scM1_1 fullShare d)
        ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

/-! ## The pipeline's proof data -/

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => stepO (scrAt V c (scr0 (F := F)) (t.val + 1)).a (scrAt V c (scr0 (F := F)) (t.val + 1)).l
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = stepO (scrAt V c (scr0 (F := F)) (t.val + 1)).a (scrAt V c (scr0 (F := F)) (t.val + 1)).l := by
  dsimp only [dat1]

/-- What the launch hands the region is the invariant before the first point. -/
theorem Phi_in1 (c : Dev nD) : Pipeline.ΦA spec1 c ⊢ (dat1 V c).Φ 0 := by
  rw [show (dat1 V c).Φ 0 = Phi1 V c 0 from rfl, PhiA1_eq]
  unfold Phi1 otherStaging scrOwns
  iintro ⟨⟨A, B, C, D, E, ⟨%d0, S0⟩, ⟨%d1, S1⟩, ⟨%d2, S2⟩, ⟨%d3, S3⟩⟩, Hg⟩
  isplitl [S0 S1 S2 S3]
  · iexists (⟨d0, d1, d2, d3⟩ : Scr F)
    isplitl [S0]; · iexact S0
    isplitl [S1]; · iexact S1
    isplitl [S2]; · iexact S2
    iexact S3
  isplitl [A B C D E]
  · isplitl [A]; · iexact A
    isplitl [B]; · iexact B
    isplitl [C]; · iexact C
    isplitl [D]; · iexact D
    iexact E
  iexact Hg

/-- After the last point the invariant gives the class's back: the scratch's named contents are forgotten. -/
theorem Phi_out1 (c : Dev nD) : (dat1 V c).Φ (Fin.last cfg1.N) ⊢ Pipeline.ΦA spec1 c := by
  rw [show (dat1 V c).Φ (Fin.last cfg1.N) = Phi1 V c (Fin.last cfg1.N).val from rfl, PhiA1_eq]
  unfold Phi1 otherStaging scrOwns
  iintro ⟨⟨%d, S0, S1, S2, S3⟩, ⟨A, B, C, D, E⟩, Hg⟩
  isplitl [A B C D E S0 S1 S2 S3]
  · isplitl [A]; · iexact A
    isplitl [B]; · iexact B
    isplitl [C]; · iexact C
    isplitl [D]; · iexact D
    isplitl [E]; · iexact E
    isplitl [S0]; · iexists _; iexact S0
    isplitl [S1]; · iexists _; iexact S1
    isplitl [S2]; · iexists _; iexact S2
    iexists _; iexact S3
  iexact Hg

/-! ## The inputs' staging buffers hold their blocks at every point -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last point of a query tile the body stores nothing into the output block's staging buffer, -/
theorem idleAt1_3 : ∀ t : Fin cfg1.N, t.val % 4 ≠ 3 → cfg1.idle 3 (grid1.coords t) = true :=
  (by decide +kernel : ∀ t : Fin grid1.N, t.val % 4 ≠ 3 → cfg1.idle 3 (grid1.coords t) = true)
/-- at it, it does, -/
theorem liveAt1_3 : ∀ t : Fin cfg1.N, t.val % 4 = 3 → cfg1.idle 3 (grid1.coords t) = false :=
  (by decide +kernel : ∀ t : Fin grid1.N, t.val % 4 = 3 → cfg1.idle 3 (grid1.coords t) = false)
/-- and only there is the block written back. -/
theorem noFlush1_3 (t : Fin cfg1.N) (h : t.val % 4 ≠ 3) : (cfg1.win 3).flush t = false := by
  cases hf : (cfg1.win 3).flush t with
  | false => rfl
  | true => exact absurd ((flush1_3 t).mp hf) h

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' memrefs hold their blocks; the point's innermost coordinate says which of the
    three triples applies; the invariant hands the body the scratch at the fold of the points before and takes it back at
    the fold through this point; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  rw [show (dat1 V c).Φ t.castSucc = Phi1 V c t.val from rfl, show (dat1 V c).Φ t.succ = Phi1 V c (t.val + 1) from rfl]
  unfold Phi1 scrOwns
  have hj := coordJ t
  by_cases h0 : t.val % 4 = 0
  · -- the first point of a query tile
    rw [Dat.leavesExact_idle (dat1 V c) 3 t (idleAt1_3 t (by omega)) (noFlush1_3 t (by omega))]
    iintro ⟨⟨⟨%d, S0, S1, S2, S3⟩, Hos, Hg⟩, Ho, ⟨%d0, H0⟩, ⟨%d1, H1⟩, ⟨%d2, H2⟩, ⟨%d3, H3⟩⟩
    iapply (sound_kernel1_first c Set.univ (grid1.coords t) (hj.trans h0) _ _ _ _ _ _ _ _ _ _ _ _ _ _ _ _
      (xblk1 V c t) (wblk1 V c t) (kvblk1 V c t) ((dat1 V c).before 3 t d3) _)
    isplitl [H0]; · iexact H0
    isplitl [H1]; · iexact H1
    isplitl [H2]; · iexact H2
    isplitl [H3]; · iexact H3
    isplitl [S0]; · iexists _; iexact S0
    isplitl [S1]; · iexists _; iexact S1
    isplitl [S2]; · iexists _; iexact S2
    isplitl [S3]; · iexists _; iexact S3
    iintro ⟨H0, H1, H2, H3, S0, S1, S2, S3⟩
    isplitl [S0 S1 S2 S3 Hos Hg]
    · isplitl [S0 S1 S2 S3]
      · iexists d
        rw [scrAt_succ V c d t]
        unfold stepScr
        rw [if_pos (hj.trans h0)]
        isplitl [S0]; · iexact S0
        isplitl [S1]; · iexact S1
        isplitl [S2]; · iexact S2
        iexact S3
      isplitl [Hos]; · iexact Hos
      iexact Hg
    isplitl [Ho]; · iexact Ho
    isplitl [H0]; · iexact H0
    isplitl [H1]; · iexact H1
    isplitl [H2]; · iexact H2
    iexists _; iexact H3
  · by_cases h3 : t.val % 4 = 3
    · -- the last point of a query tile
      rw [show (dat1 V c).leavesExact 3 t = owns (c : Thread nD τ) (st1_3 t) fullShare ((dat1 V c).after 3 t) from by
          unfold Dat.leavesExact; rw [liveAt1_3 t h3], after1_3]
      iintro ⟨⟨⟨%d, S0, S1, S2, S3⟩, Hos, Hg⟩, Ho, ⟨%d0, H0⟩, ⟨%d1, H1⟩, ⟨%d2, H2⟩, ⟨%d3, H3⟩⟩
      iapply (sound_kernel1_last c Set.univ (grid1.coords t) (hj.trans h3) _ _ _ _ _ _ _ _ _ _ _ _ _ _ _ _
        (xblk1 V c t) (wblk1 V c t) (kvblk1 V c t) (scrAt V c d t.val).q (scrAt V c d t.val).m (scrAt V c d t.val).l (scrAt V c d t.val).a _)
      isplitl [H0]; · iexact H0
      isplitl [H1]; · iexact H1
      isplitl [H2]; · iexact H2
      isplitl [H3]; · iexists _; iexact H3
      isplitl [S0]; · iexact S0
      isplitl [S1]; · iexact S1
      isplitl [S2]; · iexact S2
      isplitl [S3]; · iexact S3
      iintro ⟨H0, H1, H2, H3, S0, S1, S2, S3⟩
      have hne : ¬ (grid1.coords t 2).val = 0 := by rw [hj]; exact h0
      have hs : scrAt V c d (t.val + 1)
          = ⟨(scrAt V c d t.val).q, stepM (grid1.coords t) (kvblk1 V c t) (scrAt V c d t.val).q (scrAt V c d t.val).m,
              stepL (grid1.coords t) (kvblk1 V c t) (scrAt V c d t.val).q (scrAt V c d t.val).m (scrAt V c d t.val).l,
              stepA (grid1.coords t) (kvblk1 V c t) (scrAt V c d t.val).q (scrAt V c d t.val).m (scrAt V c d t.val).a⟩ := by
        rw [scrAt_succ V c d t]; unfold stepScr; rw [if_neg hne]
      isplitl [S0 S1 S2 S3 Hos Hg]
      · isplitl [S0 S1 S2 S3]
        · iexists d
          rw [hs]
          isplitl [S0]; · iexact S0
          isplitl [S1]; · iexact S1
          isplitl [S2]; · iexact S2
          iexact S3
        isplitl [Hos]; · iexact Hos
        iexact Hg
      isplitl [Ho]; · iexact Ho
      isplitl [H0]; · iexact H0
      isplitl [H1]; · iexact H1
      isplitl [H2]; · iexact H2
      rw [scrAt_indep V c (scr0 (F := F)) d t.val, hs]
      iexact H3
    · -- a middle point
      rw [Dat.leavesExact_idle (dat1 V c) 3 t (idleAt1_3 t h3) (noFlush1_3 t h3)]
      iintro ⟨⟨⟨%d, S0, S1, S2, S3⟩, Hos, Hg⟩, Ho, ⟨%d0, H0⟩, ⟨%d1, H1⟩, ⟨%d2, H2⟩, ⟨%d3, H3⟩⟩
      iapply (sound_kernel1_mid c Set.univ (grid1.coords t) (by rw [hj]; exact h0) (by rw [hj]; exact h3) _ _ _ _ _ _ _ _ _ _ _ _ _ _ _ _
        (xblk1 V c t) (wblk1 V c t) (kvblk1 V c t) ((dat1 V c).before 3 t d3)
        (scrAt V c d t.val).q (scrAt V c d t.val).m (scrAt V c d t.val).l (scrAt V c d t.val).a _)
      isplitl [H0]; · iexact H0
      isplitl [H1]; · iexact H1
      isplitl [H2]; · iexact H2
      isplitl [H3]; · iexact H3
      isplitl [S0]; · iexact S0
      isplitl [S1]; · iexact S1
      isplitl [S2]; · iexact S2
      isplitl [S3]; · iexact S3
      iintro ⟨H0, H1, H2, H3, S0, S1, S2, S3⟩
      have hne : ¬ (grid1.coords t 2).val = 0 := by rw [hj]; exact h0
      isplitl [S0 S1 S2 S3 Hos Hg]
      · isplitl [S0 S1 S2 S3]
        · iexists d
          rw [scrAt_succ V c d t]
          unfold stepScr
          rw [if_neg hne]
          isplitl [S0]; · iexact S0
          isplitl [S1]; · iexact S1
          isplitl [S2]; · iexact S2
          iexact S3
        isplitl [Hos]; · iexact Hos
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsFold.lean ====
/-
  What core `c`'s unscoped buffers hold at each boundary between the items of @main: at launch the memory; after the
  first region its arrays at what its write-backs leave and everything else unchanged; after each of the two host
  stretches (a zero constant; its conversion and the padding of the query weight with 64 zero columns) the stretch's
  results written; after the second region again its arrays at what its write-backs leave. The arguments are written by
  no item, so they end as launched; the result array ends at what the second region's write-backs leave.
-/
import proofs.«423627_j86199993631020_3_alg».proof.Proof.BitsRegion0
import proofs.«423627_j86199993631020_3_alg».proof.Proof.BitsRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)
/-- The same read at the TensorCore's references: what the first region's proof data take. -/
abbrev VE0 : (c : Dev nD) → (b : Ref sig .tc) → Buf (Elt F) ((c : Thread nD τ).loc b) := fun c b => W0 m c b

/-- After the first region: its arrays at what the pipeline leaves, every other buffer as entered. -/
def W1 (c : Dev nD) : Valuation τ sig (Elt F) :=
  Pipeline.withArrays spec0 c (W0 m c) fun w => (dat0 (VE0 m) c).arrAt w cfg0.N
theorem W1_arr (c : Dev nD) (w : Fin cfg0.W) :
    W1 m c (Proc.devRef .tc (Pipeline.arrRef spec0 w)) = (dat0 (VE0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev VX0 : (c : Dev nD) → (b : Ref sig .tc) → Buf (Elt F) ((c : Thread nD τ).loc b) := fun c b => W1 m c b
theorem hF0 (c : Dev nD) (w : Fin cfg0.W) : (dat0 (VE0 m) c).arrAt w cfg0.N = VX0 m c (Pipeline.arrRef spec0 w) :=
  (W1_arr m c w).symm
theorem hrest0 (c : Dev nD) : ∀ b, b ∉ Finset.univ.image (Pipeline.arrRef spec0) → VX0 m c b = VE0 m c b :=
  fun b hb => W1_of_ne m c b fun w e => hb (Finset.mem_image.mpr ⟨w, Finset.mem_univ _, e⟩)

/-- After the first host stretch (the zero constant). -/
abbrev W2 : Dev nD → Valuation τ sig (Elt F) := fun c => StableHlo.after hostOps1 (W1 m c)
/-- After the second host stretch (the conversion and the padding): the second region's entry. -/
abbrev W3 : Dev nD → Valuation τ sig (Elt F) := fun c => StableHlo.after hostOps1_1 (W2 m c)
/-- The same read at the TensorCore's references: what the second region's proof data take. -/
abbrev VE1 : (c : Dev nD) → (b : Ref sig .tc) → Buf (Elt F) ((c : Thread nD τ).loc b) := fun c b => W3 m c b

/-- After the second region: its arrays at what the pipeline leaves, every other buffer as entered. -/
def W4 (c : Dev nD) : Valuation τ sig (Elt F) :=
  Pipeline.withArrays spec1 c (W3 m c) fun w => (dat1 (VE1 m) c).arrAt w cfg1.N
theorem W4_arr (c : Dev nD) (w : Fin cfg1.W) :
    W4 m c (Proc.devRef .tc (Pipeline.arrRef spec1 w)) = (dat1 (VE1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev VX1 : (c : Dev nD) → (b : Ref sig .tc) → Buf (Elt F) ((c : Thread nD τ).loc b) := fun c b => W4 m c b
theorem hF1 (c : Dev nD) (w : Fin cfg1.W) : (dat1 (VE1 m) c).arrAt w cfg1.N = VX1 m c (Pipeline.arrRef spec1 w) :=
  (W4_arr m c w).symm
theorem hrest1 (c : Dev nD) : ∀ b, b ∉ Finset.univ.image (Pipeline.arrRef spec1) → VX1 m c b = VE1 m c b :=
  fun b hb => W4_of_ne m c b fun w e => hb (Finset.mem_image.mpr ⟨w, Finset.mem_univ _, e⟩)

/-- The result array ends at what the second region's write-backs leave. -/
theorem W4_main_v2 (c : Dev nD) : W4 m c (Proc.devRef .tc main_v2) = (dat1 (VE1 m) c).arrAt 3 cfg1.N :=
  W4_arr m c 3

end Cert.Kernel.Hand

end
-- ==== Proof.BitsRun.lean ====
/-
  The run of the idealized program's text at any float instance: @main is the first kernel region, a host stretch of
  one constant, a host stretch that converts it and pads the query weight, and the second kernel region. Each region is
  entered from the core's unscoped buffers at the contents the item before left, runs its pipeline under its proof data,
  and leaves its arrays at what its write-backs leave; the generator register and the core's (empty) dues ride along.
  Every weakly fair execution terminates without a fault; at the end the result array holds what the second region's
  write-backs leave and each argument array what it held at launch.
-/
import proofs.«423627_j86199993631020_3_alg».proof.Proof.BitsFold
import proofs.«423627_j86199993631020_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched

No host operation writes an argument and no region has one as an output window, so the contents of an argument's
buffer at the last boundary walk back, item by item, to the launch memory. -/

/-- A buffer that neither host stretch writes holds after both what it held before them. -/
theorem W3_of (c : Dev nD) (r : Ref sig .tc) (h1 : r ∉ (hostOps1_W : List (Ref sig .tc))) (h2 : r ∉ (hostOps1_1_W : List (Ref sig .tc))) :
    W3 m c (Proc.devRef .tc r) = W1 m c (Proc.devRef .tc r) :=
  (StableHlo.after_of_writes_sub hostOps1_1 _ hostOps1_1_writes h2).trans
    (StableHlo.after_of_writes_sub hostOps1 _ hostOps1_writes h1)

/-- The query array: the second region reads it through its first window, nothing before that touches it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) :=
        (W4_arr m c 0).trans (((dat1 (VE1 m) c).arrAt_in 0 rfl _).trans (A_eq1 (VE1 m) c 0))
    _ = W1 m c (Proc.devRef .tc main_arg0) := W3_of m c main_arg0 (by decide) (by decide)
    _ = W0 m c (Proc.devRef .tc main_arg0) := W1_of_ne m c main_arg0 (by decide)
    _ = m ((c : Thread nD τ).loc main_arg0) := rfl

/-- The conditioning array: the first region reads it through its first window, nothing after that touches it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W1 m c (Proc.devRef .tc main_arg1) := W3_of m c main_arg1 (by decide) (by decide)
    _ = W0 m c (Proc.devRef .tc main_arg1) :=
        (W1_arr m c 0).trans (((dat0 (VE0 m) c).arrAt_in 0 rfl _).trans (A_eq0 (VE0 m) c 0))
    _ = m ((c : Thread nD τ).loc main_arg1) := rfl

/-- The query weight: the padding reads it, no item writes it, no region has it as a window. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W1 m c (Proc.devRef .tc main_arg2) := W3_of m c main_arg2 (by decide) (by decide)
    _ = W0 m c (Proc.devRef .tc main_arg2) := W1_of_ne m c main_arg2 (by decide)
    _ = m ((c : Thread nD τ).loc main_arg2) := rfl

/-- The key|value weight: the first region reads it through its second window, nothing after that touches it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W1 m c (Proc.devRef .tc main_arg3) := W3_of m c main_arg3 (by decide) (by decide)
    _ = W0 m c (Proc.devRef .tc main_arg3) :=
        (W1_arr m c 1).trans (((dat0 (VE0 m) c).arrAt_in 1 rfl _).trans (A_eq0 (VE0 m) c 1))
    _ = m ((c : Thread nD τ).loc main_arg3) := rfl

/-! ## The proof data family and the thread state -/

/-- Each pipeline's proof data at the contents its region is entered from. -/
def pdats : (p : Fin 2) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE1 m) c
abbrev 𝒱₀ : Variants := Variants.none
/-- No core waits on another: no level is assigned. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
/-- A host stretch over the unscoped buffers held whole at the contents W, with R beside them: it leaves them at the
    stretch's results over W, which is the next boundary's contents by definition. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at the launch contents, left with its
    three arrays at what the pipeline leaves and every other buffer unchanged. At entry its arrays are split off the
    unscoped buffers and at exit put back; the generator register passes through the pipeline's invariant; nothing is
    owed at any point; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the contents the padding left, left
    with its four arrays at what the pipeline leaves (the last thread state). Its invariant is not the scoped rest as
    such but the scratch along the grid: what the launch hands it (the scoped rest and the generator register) gives the
    invariant before the first point, and the invariant after the last point gives that back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (VE1 m) c).Φ 0 from rfl]
    refine BIBase.Entails.trans ?_ (Phi_in1 (VE1 m) c)
    unfold Pipeline.ΦA
    iintro ⟨Hp, -, Hr⟩
    isplitl [Hr]; · iexact Hr
    iexact Hp
  hout c := by
    rw [Pipeline.ownSems0_none, show (pdats m 1 c).Φ (Fin.last _) = (dat1 (VE1 m) c).Φ (Fin.last cfg1.N) from rfl]
    refine (Phi_out1 (VE1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four items in order: the first region, the two host stretches each from the contents of the boundary before
    it, the second region. -/
abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .region (reg1 m) ]
/-- @main is the run of these segments: it is the chain of its items, and so is the segments' run. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting; the
    result array ends at what the second region's write-backs leave, the four argument arrays as launched. -/
theorem run : θ_run defs (onTc (τ := τ) (main (F := F))) ⟨m, fun _ => 0, ρ⟩ (fun r => ∀ c : Dev nD,
      r.2.mem ((c.tc : Thread nD τ).loc main_v2) = (dat1 (VE1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v2 (by decide))).trans (W4_main_v2 m c),
        (h c _ (mem_uc main_arg0 (by decide))).trans (W4_main_arg0 m c),
        (h c _ (mem_uc main_arg1 (by decide))).trans (W4_main_arg1 m c),
        (h c _ (mem_uc main_arg2 (by decide))).trans (W4_main_arg2 m c),
        (h c _ (mem_uc main_arg3 (by decide))).trans (W4_main_arg3 m c)⟩)

end Cert.Kernel.Hand

end
-- ==== Proof.Region0.lean ====
/-
  The first kernel region: the joint key|value projection. At each of the 16 grid points the body loads a
  1024-row block of `cond` and the whole of `Wkv`, multiplies them into a zero accumulator and stores the product as
  the point's 1024 x 128 block of the result. Nothing is carried between points, so what the result window's staging
  buffer holds after the body is one function of the two input blocks, and the pipeline's proof data states the inputs'
  buffers at their blocks, the output's at that function, the invariant the scoped rest and the generator register.
  Everything here is stated at the contents `V` the core's buffers hold when the region is entered, and at any float
  instance.
-/
import proofs.«423627_j86199993631020_3_alg».proof.Proof.Gen.KernelIdeal.Launch
import proofs.«423627_j86199993631020_3_alg».proof.Proof.Gen.KernelIdeal.Skeleton
import proofs.«423627_j86199993631020_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The `cond` window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer, fetched once, holds the whole weight at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rc0 : Rect S1x1024x256 := Rect.unit (s := S1x1024x256) ![0, 0, 0] S1x1024x256.size inb_S1x1024x256_S1x1024x256_0_0_0
abbrev rw0 : Rect S256x128 := Rect.unit (s := S256x128) ![0, 0] S256x128.size inb_S256x128_S256x128_0_0
abbrev ro0 : Rect S1x1024x128 := Rect.unit (s := S1x1024x128) ![0, 0, 0] S1x1024x128.size inb_S1x1024x128_S1x1024x128_0_0_0

/-- The result window's staging buffer after the body: its one whole-block store of the product. -/
def out0_2 (x0 : Vec F S1x1024x256 .f32) (x1 : Vec F S256x128 .f32) : Vec F S1x1024x128 .bf16 :=
  View.canon [⟨ro0, k0_pay1 (View.ld x0 rc0) (View.ld x1 rw0)⟩]

/-- The one store covers the buffer. -/
theorem cover0_2 (p0 : Vec F S1x1024x128 .bf16) (y : S1x1024x128.Idx) :
    ∃ pc ∈ ([⟨ro0, p0⟩] : List (View.Piece (Elt F) S1x1024x128 .bf16)), y ∈ pc.1.set :=
  View.cover_of_tiled [⟨ro0, p0⟩] S1x1024x128.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords)
    (arg2 : Memref sig .tc .vmem S1x1024x256 .f32) (harg2 : arg2.IsWhole) (arg3 : Memref sig .tc .vmem S256x128 .f32) (harg3 : arg3.IsWhole)
    (arg4 : Memref sig .tc .vmem S1x1024x128 .bf16) (harg4 : arg4.IsWhole)
    (x0 : Vec F S1x1024x256 .f32) (x1 : Vec F S256x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__kernel i arg2 harg2 arg3 harg3 arg4 harg4) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first pipeline on core `c`: the arrays as the region finds them; after the body at point `t`
    each input's buffer at its block and the output's at the product of the two blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1Defs.lean ====
/-
  The second kernel region: the query projection fused with attention, one query tile of 1024 rows at a time, the 4096
  keys and values taken in four tiles of 1024 along the innermost grid axis `j`.
  Four scratch buffers live across the four points of a query tile: the scaled query `q`, the running shift `m`, the
  running normaliser `l` and the running numerator `a`. At `j = 0` the body first resets them (`q` to the projected and
  scaled query block, `m` to a large negative constant, `l` and `a` to zero); at every `j` it folds the `j`-th tile of the
  resident key|value block into `m`, `l`, `a`; at `j = 3` it also stores `a`'s value half times the reciprocal of `l` into
  the output block. This module names those updates as functions of what the body loads, for the body's three
  triples (first, middle, last point of a query tile) to be stated over.
-/
import proofs.«423627_j86199993631020_3_alg».proof.Proof.Gen.KernelIdeal.Launch
import proofs.«423627_j86199993631020_3_alg».proof.Proof.Gen.KernelIdeal.Skeleton
import proofs.«423627_j86199993631020_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev rx1 : Rect S1x1024x256 := Rect.unit (s := S1x1024x256) ![0, 0, 0] S1x1024x256.size inb_S1x1024x256_S1x1024x256_0_0_0
abbrev rwq1 : Rect S256x128 := Rect.unit (s := S256x128) ![0, 0] S256x128.size inb_S256x128_S256x128_0_0
abbrev rq1 : Rect S1024x128 := Rect.unit (s := S1024x128) ![0, 0] S1024x128.size inb_S1024x128_S1024x128_0_0
abbrev rm1 : Rect S1024x1 := Rect.unit (s := S1024x1) ![0, 0] S1024x1.size inb_S1024x1_S1024x1_0_0
abbrev ro1 : Rect S1x1024x64 := Rect.unit (s := S1x1024x64) ![0, 0, 0] S1x1024x64.size inb_S1x1024x64_S1x1024x64_0_0_0
/-- The `j`-th tile of 1024 rows of the resident key|value block, `j` the point's innermost coordinate. -/
abbrev rkv1 (i : grid1.Coords) : Rect S1x4096x128 := Rect.unit (s := S1x4096x128) (k1_off1 i) S1x1024x128.size (k1_off1_inb i)

/-! ## The updates, as functions of what the body loads -/

/-- The scratch contents carried between the points of a query tile. -/
structure Scr (F : FTy → Type) [FloatOps F] where
  q : Vec F S1024x128 .bf16
  m : Vec F S1024x1 .f32
  l : Vec F S1024x1 .f32
  a : Vec F S1024x128 .f32

/-- The reset of `q`: the query block times the padded query weight, scaled by 1/8. -/
def stepQ (xb : Vec F S1x1024x256 .f32) (wq : Vec F S256x128 .f32) : Vec F S1024x128 .bf16 :=
  k1_pay4 (View.ld xb rx1) (View.ld wq rwq1)

/-- The new running shift: the old one against the tile's row maxima of the scores. -/
def stepM (i : grid1.Coords) (kvb : Vec F S1x4096x128 .bf16) (q : Vec F S1024x128 .bf16) (m : Vec F S1024x1 .f32) : Vec F S1024x1 .f32 :=
  k1_pay2 (k1_pay10 (View.ld kvb (rkv1 i)) (View.ld q rq1) (View.ld m rm1))

/-- The new running normaliser. -/
def stepL (i : grid1.Coords) (kvb : Vec F S1x4096x128 .bf16) (q : Vec F S1024x128 .bf16) (m l : Vec F S1024x1 .f32) : Vec F S1024x1 .f32 :=
  k1_pay13 (View.ld kvb (rkv1 i)) (View.ld q rq1) (View.ld m rm1) (View.ld l rm1)

/-- The new running numerator. -/
def stepA (i : grid1.Coords) (kvb : Vec F S1x4096x128 .bf16) (q : Vec F S1024x128 .bf16) (m : Vec F S1024x1 .f32) (a : Vec F S1024x128 .f32) : Vec F S1024x128 .f32 :=
  k1_pay1 (k1_pay14 (View.ld kvb (rkv1 i)) (View.ld q rq1) (View.ld m rm1) (View.ld a rq1))

/-- The output block: the numerator's value half times the reciprocal of the normaliser. -/
def stepO (a : Vec F S1024x128 .f32) (l : Vec F S1024x1 .f32) : Vec F S1x1024x64 .f32 :=
  k1_pay3 (View.ld a rq1) (View.ld l rm1)

/-- One point's update of the scratch: at `j = 0` from the reset values, else from what the point before left. -/
def stepScr (i : grid1.Coords) (xb : Vec F S1x1024x256 .f32) (wq : Vec F S256x128 .f32) (kvb : Vec F S1x4096x128 .bf16)
    (s : Scr F) : Scr F :=
  if (i 2).val = 0 then
    ⟨stepQ xb wq, stepM i kvb (stepQ xb wq) (k1_pay5 (F := F)), stepL i kvb (stepQ xb wq) (k1_pay5 (F := F)) (k1_pay6 (F := F)),
      stepA i kvb (stepQ xb wq) (k1_pay5 (F := F)) (k1_pay7 (F := F))⟩
  else ⟨s.q, stepM i kvb s.q s.m, stepL i kvb s.q s.m s.l, stepA i kvb s.q s.m s.a⟩

end Cert.KernelIdeal.Hand

end
-- ==== Proof.Region1First.lean ====
/-
  The attention body at the first point of a query tile (innermost coordinate 0): both branches' conditions are decided
  by the coordinate, the scratch buffers are reset whatever they held, the first key|value tile is folded in, and the
  output block's staging buffer is not touched.
-/
import proofs.«423627_j86199993631020_3_alg».proof.Proof.Region1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer stores

Every store of the body goes through the rectangle of the whole buffer at zero offsets, so the last store into a buffer
covers it and what the buffer then reads is that store's payload, whatever it held and whatever was stored before. -/

/-- The zero offsets of a rank-two buffer, as the constant function. -/
private theorem first_hz : (![0, 0] : Fin 2 → Nat) = fun _ => 0 := funext fun a => by fin_cases a <;> rfl

/-- A store through the whole 1024 x 128 rectangle, last in a list of stores, covers the buffer. -/
private theorem first_cover_q {e : EltTy} (w : Vec F S1024x128 e) (L : List (View.Piece (Elt F) S1024x128 e))
    (y : S1024x128.Idx) : ∃ pc ∈ ((⟨rq1, w⟩ : View.Piece (Elt F) S1024x128 e) :: L), y ∈ pc.1.set :=
  ⟨_, List.Mem.head _, View.mem_set_unit_zero first_hz inb_S1024x128_S1024x128_0_0 y⟩

/-- A store through the whole 1024 x 1 rectangle, last in a list of stores, covers the buffer. -/
private theorem first_cover_m {e : EltTy} (w : Vec F S1024x1 e) (L : List (View.Piece (Elt F) S1024x1 e))
    (y : S1024x1.Idx) : ∃ pc ∈ ((⟨rm1, w⟩ : View.Piece (Elt F) S1024x1 e) :: L), y ∈ pc.1.set :=
  ⟨_, List.Mem.head _, View.mem_set_unit_zero first_hz inb_S1024x1_S1024x1_0_0 y⟩

/-! ## The body's triple at the first point -/

set_option maxHeartbeats 4000000 in
/-- The first point of a query tile (`j = 0`): the scratch buffers are reset, whatever they held, and the first tile
    folded in; the output block's staging buffer is left as found. -/
theorem sound_kernel1_first (c : Dev nD) (E : Set ℕ) (i : grid1.Coords) (hj : (i 2).val = 0)
    (arg3 : Memref sig .tc .vmem S1x1024x256 .f32) (harg3 : arg3.IsWhole) (arg4 : Memref sig .tc .vmem S256x128 .f32) (harg4 : arg4.IsWhole)
    (arg5 : Memref sig .tc .vmem S1x4096x128 .bf16) (harg5 : arg5.IsWhole) (arg6 : Memref sig .tc .vmem S1x1024x64 .f32) (harg6 : arg6.IsWhole)
    (arg7 : Memref sig .tc .vmem S1024x128 .bf16) (harg7 : arg7.IsWhole) (arg8 : Memref sig .tc .vmem S1024x1 .f32) (harg8 : arg8.IsWhole)
    (arg9 : Memref sig .tc .vmem S1024x1 .f32) (harg9 : arg9.IsWhole) (arg10 : Memref sig .tc .vmem S1024x128 .f32) (harg10 : arg10.IsWhole)
    (xb : Vec F S1x1024x256 .f32) (wq : Vec F S256x128 .f32) (kvb : Vec F S1x4096x128 .bf16) (y : Vec F S1x1024x64 .f32)
    (K : PUnit → sProp 𝕄) :
    iprop(owns (c : Thread nD τ) arg3 fullShare xb ∗ owns (c : Thread nD τ) arg4 fullShare wq ∗ owns (c : Thread nD τ) arg5 fullShare kvb
        ∗ owns (c : Thread nD τ) arg6 fullShare y
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare xb ∗ owns (c : Thread nD τ) arg4 fullShare wq ∗ owns (c : Thread nD τ) arg5 fullShare kvb
            ∗ owns (c : Thread nD τ) arg6 fullShare y
            ∗ owns (c : Thread nD τ) arg7 fullShare (stepQ xb wq)
            ∗ owns (c : Thread nD τ) arg8 fullShare (stepM i kvb (stepQ xb wq) (k1_pay5 (F := F)))
            ∗ owns (c : Thread nD τ) arg9 fullShare (stepL i kvb (stepQ xb wq) (k1_pay5 (F := F)) (k1_pay6 (F := F)))
            ∗ owns (c : Thread nD τ) arg10 fullShare (stepA i kvb (stepQ xb wq) (k1_pay5 (F := F)) (k1_pay7 (F := F)))) -∗ K ⟨⟩))
      ⊢ wp frame (wpE (defs₀ (F := F)) Variants.none c none) E
          (cc1_kernel i arg3 harg3 arg4 harg4 arg5 harg5 arg6 harg6 arg7 harg7 arg8 harg8 arg9 harg9 arg10 harg10) K := by
  -- the two conditions at innermost coordinate 0: the reset branch is taken, the output branch is not
  have hc0 : (Scalar.cmpi .ne (Scalar.extui (Scalar.cmpi .eq (BitVec.ofNat 32 (i 2).val) 0#32)) 0#32) = 1#1 := by
    rw [hj]; decide
  have hc1 : ¬ k1_cond2 i = 1#1 := by
    unfold k1_cond2; rw [hj]; decide
  simp only [cc1_kernel_eq_skeleton]; unfold cc1_kernel_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩,
    ⟨%d9, %f9, -, H9⟩, ⟨%d10, %f10, -, H10⟩, Hk⟩
  subst hf3; subst hf4; subst hf5; subst hf6
  sl_exec (disch := first | exact hc0 | exact hc1)
  sl_step
  iapply Hk
  -- the three input blocks and the output block's buffer are as they were
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  -- q: the one store of the reset value
  isplitl [H7]
  · iexists _; isplitr
    swap; · iexact H7
    ipureintro
    sl_unfold_run_names
    refine (View.read_writes_eq_canon _ _ _ (first_cover_q _ _)).trans
      ((View.canon_cons_unit_zero first_hz inb_S1024x128_S1024x128_0_0 _ _).trans ?_)
    unfold stepQ
    simp only [View.readAt_eq_ld, View.readCov_unit_zero (S := S1024x128) _ first_hz,
      View.readCov_unit_zero (S := S1024x1) _ first_hz, View.ld_unit_zero (S := S1024x128) first_hz,
      View.ld_unit_zero (S := S1024x1) first_hz]
  -- m: the reset, then the fold of the first tile, which loads q and m back as the reset left them
  isplitl [H8]
  · iexists _; isplitr
    swap; · iexact H8
    ipureintro
    sl_unfold_run_names
    refine (View.read_writes_eq_canon _ _ _ (first_cover_m _ _)).trans
      ((View.canon_cons_unit_zero first_hz inb_S1024x1_S1024x1_0_0 _ _).trans ?_)
    unfold stepM stepQ
    simp only [View.readAt_eq_ld, View.readCov_unit_zero (S := S1024x128) _ first_hz,
      View.readCov_unit_zero (S := S1024x1) _ first_hz, View.ld_unit_zero (S := S1024x128) first_hz,
      View.ld_unit_zero (S := S1024x1) first_hz]
  -- l: likewise, loading q, m and l back
  isplitl [H9]
  · iexists _; isplitr
    swap; · iexact H9
    ipureintro
    sl_unfold_run_names
    refine (View.read_writes_eq_canon _ _ _ (first_cover_m _ _)).trans
      ((View.canon_cons_unit_zero first_hz inb_S1024x1_S1024x1_0_0 _ _).trans ?_)
    unfold stepL stepQ
    simp only [View.readAt_eq_ld, View.readCov_unit_zero (S := S1024x128) _ first_hz,
      View.readCov_unit_zero (S := S1024x1) _ first_hz, View.ld_unit_zero (S := S1024x128) first_hz,
      View.ld_unit_zero (S := S1024x1) first_hz]
  -- a: likewise, loading q, m and a back
  iexists _; isplitr
  swap; · iexact H10
  ipureintro
  sl_unfold_run_names
  refine (View.read_writes_eq_canon _ _ _ (first_cover_q _ _)).trans
    ((View.canon_cons_unit_zero first_hz inb_S1024x128_S1024x128_0_0 _ _).trans ?_)
  unfold stepA stepQ
  simp only [View.readAt_eq_ld, View.readCov_unit_zero (S := S1024x128) _ first_hz,
    View.readCov_unit_zero (S := S1024x1) _ first_hz, View.ld_unit_zero (S := S1024x128) first_hz,
    View.ld_unit_zero (S := S1024x1) first_hz]

end Cert.KernelIdeal.Hand

end
-- ==== Proof.Region1Mid.lean ====
/-
  The attention body at a middle point of a query tile (innermost coordinate 1 or 2): neither branch is taken; the
  point's key|value tile is folded into the scratch the point before left; the output block's staging buffer is not touched.
-/
import proofs.«423627_j86199993631020_3_alg».proof.Proof.Region1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, as the constant function. -/
private theorem mid_zero_offsets : (![0, 0] : Fin 2 → Nat) = fun _ => 0 := funext fun a => by fin_cases a <;> rfl

/-- One whole-buffer store covers a 1024 x 1 scratch. -/
private theorem mid_cover_col (p0 : Vec F S1024x1 .f32) (y : S1024x1.Idx) :
    ∃ pc ∈ ([⟨rm1, p0⟩] : List (View.Piece (Elt F) S1024x1 .f32)), y ∈ pc.1.set :=
  ⟨_, List.mem_singleton_self _, View.mem_set_unit_zero mid_zero_offsets inb_S1024x1_S1024x1_0_0 y⟩

/-- One whole-buffer store covers the 1024 x 128 numerator scratch. -/
private theorem mid_cover_acc (p0 : Vec F S1024x128 .f32) (y : S1024x128.Idx) :
    ∃ pc ∈ ([⟨rq1, p0⟩] : List (View.Piece (Elt F) S1024x128 .f32)), y ∈ pc.1.set :=
  ⟨_, List.mem_singleton_self _, View.mem_set_unit_zero mid_zero_offsets inb_S1024x128_S1024x128_0_0 y⟩

set_option maxHeartbeats 4000000 in
/-- A middle point (`j = 1` or `j = 2`): the tile folded into the scratch the point before left; the output block's
    staging buffer left as found. -/
theorem sound_kernel1_mid (c : Dev nD) (E : Set ℕ) (i : grid1.Coords) (hj0 : (i 2).val ≠ 0) (hj3 : (i 2).val ≠ 3)
    (arg3 : Memref sig .tc .vmem S1x1024x256 .f32) (harg3 : arg3.IsWhole) (arg4 : Memref sig .tc .vmem S256x128 .f32) (harg4 : arg4.IsWhole)
    (arg5 : Memref sig .tc .vmem S1x4096x128 .bf16) (harg5 : arg5.IsWhole) (arg6 : Memref sig .tc .vmem S1x1024x64 .f32) (harg6 : arg6.IsWhole)
    (arg7 : Memref sig .tc .vmem S1024x128 .bf16) (harg7 : arg7.IsWhole) (arg8 : Memref sig .tc .vmem S1024x1 .f32) (harg8 : arg8.IsWhole)
    (arg9 : Memref sig .tc .vmem S1024x1 .f32) (harg9 : arg9.IsWhole) (arg10 : Memref sig .tc .vmem S1024x128 .f32) (harg10 : arg10.IsWhole)
    (xb : Vec F S1x1024x256 .f32) (wq : Vec F S256x128 .f32) (kvb : Vec F S1x4096x128 .bf16) (y : Vec F S1x1024x64 .f32)
    (q : Vec F S1024x128 .bf16) (m l : Vec F S1024x1 .f32) (a : Vec F S1024x128 .f32)
    (K : PUnit → sProp 𝕄) :
    iprop(owns (c : Thread nD τ) arg3 fullShare xb ∗ owns (c : Thread nD τ) arg4 fullShare wq ∗ owns (c : Thread nD τ) arg5 fullShare kvb
        ∗ owns (c : Thread nD τ) arg6 fullShare y
        ∗ owns (c : Thread nD τ) arg7 fullShare q ∗ owns (c : Thread nD τ) arg8 fullShare m
        ∗ owns (c : Thread nD τ) arg9 fullShare l ∗ owns (c : Thread nD τ) arg10 fullShare a
        ∗ (iprop(owns (c : Thread nD τ) arg3 fullShare xb ∗ owns (c : Thread nD τ) arg4 fullShare wq ∗ owns (c : Thread nD τ) arg5 fullShare kvb
            ∗ owns (c : Thread nD τ) arg6 fullShare y
            ∗ owns (c : Thread nD τ) arg7 fullShare q
            ∗ owns (c : Thread nD τ) arg8 fullShare (stepM i kvb q m)
            ∗ owns (c : Thread nD τ) arg9 fullShare (stepL i kvb q m l)
            ∗ owns (c : Thread nD τ) arg10 fullShare (stepA i kvb q m a)) -∗ K ⟨⟩))
      ⊢ wp frame (wpE (defs₀ (F := F)) Variants.none c none) E
          (cc1_kernel i arg3 harg3 arg4 harg4 arg5 harg5 arg6 harg6 arg7 harg7 arg8 harg8 arg9 harg9 arg10 harg10) K := by
  have h1 : ¬ (Scalar.cmpi .ne (Scalar.extui (Scalar.cmpi .eq (BitVec.ofNat 32 (i 2).val) 0#32)) 0#32 = 1#1) :=
    (by decide +kernel : ∀ v : Fin 4, v.val ≠ 0 → ¬ (Scalar.cmpi .ne (Scalar.extui (Scalar.cmpi .eq (BitVec.ofNat 32 v.val) 0#32)) 0#32 = 1#1)) (i 2) hj0
  have h2 : ¬ (k1_cond2 i = 1#1) := by
    unfold k1_cond2
    exact (by decide +kernel : ∀ v : Fin 4, v.val ≠ 3 → ¬ (Scalar.cmpi .ne (Scalar.extui (Scalar.cmpi .eq (BitVec.ofNat 32 v.val) 3#32)) 0#32 = 1#1)) (i 2) hj3
  simp only [cc1_kernel_eq_skeleton]; unfold cc1_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf3; subst hf4; subst hf5; subst hf6; subst hf7; subst hf8; subst hf9; subst hf10
  sl_exec (disch := first | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (mid_cover_col _)).trans ((View.canon_unit_zero mid_zero_offsets inb_S1024x1_S1024x1_0_0 _).trans ?_)
    unfold stepM
    sl_unfold_run_names
    rfl
  isplitl [H9]
  · iexists _; isplitr
    swap; · iexact H9
    ipureintro
    refine (View.read_writes_eq_canon _ _ _ (mid_cover_col _)).trans ((View.canon_unit_zero mid_zero_offsets inb_S1024x1_S1024x1_0_0 _).trans ?_)
    unfold stepL
    rfl
  iexists _; isplitr
  swap; · iexact H10
  ipureintro
  refine (View.read_writes_eq_canon _ _ _ (mid_cover_acc _)).trans ((View.canon_unit_zero mid_zero_offsets inb_S1024x128_S1024x128_0_0 _).trans ?_)
  unfold stepA
  sl_unfold_run_names
  rfl

end Cert.KernelIdeal.Hand

end
-- ==== Proof.Region1Last.lean ====
/-
  The attention body at the last point of a query tile (innermost coordinate 3): the reset branch is skipped, the last
  key|value tile is folded in, and the finishing branch stores the numerator's value half times the reciprocal of the
  normaliser into the output block's staging buffer.
-/
import proofs.«423627_j86199993631020_3_alg».proof.Proof.Region1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last point of a query tile (`j = 3`): the last tile folded in, and the output block's staging buffer, whatever it
    held, set to the finished quotient. -/
theorem sound_kernel1_last (c : Dev nD) (E : Set ℕ) (i : grid1.Coords) (hj : (i 2).val = 3)
    (arg3 : Memref sig .tc .vmem S1x1024x256 .f32) (harg3 : arg3.IsWhole) (arg4 : Memref sig .tc .vmem S256x128 .f32) (harg4 : arg4.IsWhole)
    (arg5 : Memref sig .tc .vmem S1x4096x128 .bf16) (harg5 : arg5.IsWhole) (arg6 : Memref sig .tc .vmem S1x1024x64 .f32) (harg6 : arg6.IsWhole)
    (arg7 : Memref sig .tc .vmem S1024x128 .bf16) (harg7 : arg7.IsWhole) (arg8 : Memref sig .tc .vmem S1024x1 .f32) (harg8 : arg8.IsWhole)
    (arg9 : Memref sig .tc .vmem S1024x1 .f32) (harg9 : arg9.IsWhole) (arg10 : Memref sig .tc .vmem S1024x128 .f32) (harg10 : arg10.IsWhole)
    (xb : Vec F S1x1024x256 .f32) (wq : Vec F S256x128 .f32) (kvb : Vec F S1x4096x128 .bf16)
    (q : Vec F S1024x128 .bf16) (m l : Vec F S1024x1 .f32) (a : Vec F S1024x128 .f32)
    (K : PUnit → sProp 𝕄) :
    iprop(owns (c : Thread nD τ) arg3 fullShare xb ∗ owns (c : Thread nD τ) arg4 fullShare wq ∗ owns (c : Thread nD τ) arg5 fullShare kvb
        ∗ (∃ d, owns (c : Thread nD τ) arg6 fullShare d)
        ∗ owns (c : Thread nD τ) arg7 fullShare q ∗ owns (c : Thread nD τ) arg8 fullShare m
        ∗ owns (c : Thread nD τ) arg9 fullShare l ∗ owns (c : Thread nD τ) arg10 fullShare a
        ∗ (iprop(owns (c : Thread nD τ) arg3 fullShare xb ∗ owns (c : Thread nD τ) arg4 fullShare wq ∗ owns (c : Thread nD τ) arg5 fullShare kvb
            ∗ owns (c : Thread nD τ) arg6 fullShare (stepO (stepA i kvb q m a) (stepL i kvb q m l))
            ∗ owns (c : Thread nD τ) arg7 fullShare q
            ∗ owns (c : Thread nD τ) arg8 fullShare (stepM i kvb q m)
            ∗ owns (c : Thread nD τ) arg9 fullShare (stepL i kvb q m l)
            ∗ owns (c : Thread nD τ) arg10 fullShare (stepA i kvb q m a)) -∗ K ⟨⟩))
      ⊢ wp frame (wpE (defs₀ (F := F)) Variants.none c none) E
          (cc1_kernel i arg3 harg3 arg4 harg4 arg5 harg5 arg6 harg6 arg7 harg7 arg8 harg8 arg9 harg9 arg10 harg10) K := by
  -- The innermost coordinate is 3: the reset branch's condition is false, the finishing branch's is true.
  have hc0 : ¬ (Scalar.cmpi .ne (Scalar.extui (Scalar.cmpi .eq (BitVec.ofNat 32 (i 2).val) 0#32)) 0#32 = 1#1) := by
    rw [hj]; decide
  have hc1 : k1_cond2 i = 1#1 := by
    unfold k1_cond2; rw [hj]; decide
  -- Zero offsets, however spelt.
  have hz2 : (![0, 0] : Fin 2 → Nat) = fun _ => 0 := funext fun a => by fin_cases a <;> rfl
  have hz3 : (![0, 0, 0] : Fin 3 → Nat) = fun _ => 0 := funext fun a => by fin_cases a <;> rfl
  simp only [cc1_kernel_eq_skeleton]; unfold cc1_kernel_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
  subst hf3; subst hf4; subst hf5; subst hf7; subst hf8; subst hf9; subst hf10
  sl_exec (disch := first | exact hc0 | exact hc1)
  sl_step
  iapply Hk
  -- The query block, the weight and the key|value block are only read.
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- The output block: its one store covers the buffer and leaves its payload, whose two operands are the new
  -- numerator and the new normaliser read back whole after their own covering stores.
  isplitl [H6]
  · iexists _; isplitr
    swap; · iexact H6
    ipureintro
    sl_unfold_run_names
    refine (View.read_writes_eq_canon _ _ _ fun y => ?_).trans ?_
    · exact ⟨_, List.mem_singleton_self _, View.mem_set_unit_zero hz3 inb_S1x1024x64_S1x1024x64_0_0_0 y⟩
    rw [View.canon_unit_zero (S := S1x1024x64) hz3]
    rw [View.readCov_unit_zero (S := S1024x128) _ hz2, View.readCov_unit_zero (S := S1024x1) _ hz2]
    unfold stepO
    rw [View.ld_unit_zero (S := S1024x128) hz2, View.ld_unit_zero (S := S1024x1) hz2]
    rfl
  -- The scaled query is only read.
  isplitl [H7]
  · iexists f7; isplitr; · ipureintro; rfl
    iexact H7
  -- The running shift: one covering store, its payload over what the point was handed.
  isplitl [H8]
  · iexists _; isplitr
    swap; · iexact H8
    ipureintro
    sl_unfold_run_names
    refine (View.read_writes_eq_canon _ _ _ fun y => ?_).trans ?_
    · exact ⟨_, List.mem_singleton_self _, View.mem_set_unit_zero hz2 inb_S1024x1_S1024x1_0_0 y⟩
    rw [View.canon_unit_zero (S := S1024x1) hz2]
    rfl
  -- The running normaliser, likewise.
  isplitl [H9]
  · iexists _; isplitr
    swap; · iexact H9
    ipureintro
    sl_unfold_run_names
    refine (View.read_writes_eq_canon _ _ _ fun y => ?_).trans ?_
    · exact ⟨_, List.mem_singleton_self _, View.mem_set_unit_zero hz2 inb_S1024x1_S1024x1_0_0 y⟩
    rw [View.canon_unit_zero (S := S1024x1) hz2]
    rfl
  -- The running numerator, likewise.
  iexists _; isplitr
  swap; · iexact H10
  ipureintro
  sl_unfold_run_names
  refine (View.read_writes_eq_canon _ _ _ fun y => ?_).trans ?_
  · exact ⟨_, List.mem_singleton_self _, View.mem_set_unit_zero hz2 inb_S1024x128_S1024x128_0_0 y⟩
  rw [View.canon_unit_zero (S := S1024x128) hz2]
  rfl

end Cert.KernelIdeal.Hand

end
-- ==== Proof.Region1.lean ====
/-
  The second kernel region's proof data. Along the 64 grid points (batch, query tile, key|value tile `j` innermost) the
  four scratch buffers hold, after point `n`, the fold `scrAt` of the points' updates: reset at each `j = 0`, so from the
  second point on independent of what the scratch held when the region was entered. The invariant before point `n` is
  the scratch at `scrAt … n` (for some entry contents), the other scoped buffers at anything and the generator register
  at some state. The input windows' staging buffers hold their blocks at every point; the output window's holds, after
  the last point of a query tile, the finished quotient, and is left as found at the other points.
-/
import proofs.«423627_j86199993631020_3_alg».proof.Proof.Region1First
import proofs.«423627_j86199993631020_3_alg».proof.Proof.Region1Mid
import proofs.«423627_j86199993631020_3_alg».proof.Proof.Region1Last

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block, the padded query weight and the batch's key|value block at point `t`, at their literal types. -/
abbrev xblk1 (c : Dev nD) (t : Fin cfg1.N) : Vec F S1x1024x256 .f32 := iblk1 V c 0 t
abbrev wblk1 (c : Dev nD) (t : Fin cfg1.N) : Vec F S256x128 .f32 := iblk1 V c 1 t
abbrev kvblk1 (c : Dev nD) (t : Fin cfg1.N) : Vec F S1x4096x128 .bf16 := iblk1 V c 2 t

/-! ## The scratch along the grid -/

/-- The scratch after the first `n` points, entered at `d`. -/
def scrAt (c : Dev nD) (d : Scr F) : ℕ → Scr F
  | 0 => d
  | n + 1 => if h : n < cfg1.N then
      stepScr (grid1.coords ⟨n, h⟩) (xblk1 V c ⟨n, h⟩) (wblk1 V c ⟨n, h⟩) (kvblk1 V c ⟨n, h⟩) (scrAt c d n)
    else scrAt c d n

theorem scrAt_step (c : Dev nD) (d : Scr F) (n : ℕ) (h : n < cfg1.N) :
    scrAt V c d (n + 1)
      = stepScr (grid1.coords ⟨n, h⟩) (xblk1 V c ⟨n, h⟩) (wblk1 V c ⟨n, h⟩) (kvblk1 V c ⟨n, h⟩) (scrAt V c d n) := by
  rw [scrAt, dif_pos h]

theorem scrAt_stay (c : Dev nD) (d : Scr F) (n : ℕ) (h : ¬ n < cfg1.N) : scrAt V c d (n + 1) = scrAt V c d n := by
  rw [scrAt, dif_neg h]

theorem scrAt_succ (c : Dev nD) (d : Scr F) (t : Fin cfg1.N) :
    scrAt V c d (t.val + 1) = stepScr (grid1.coords t) (xblk1 V c t) (wblk1 V c t) (kvblk1 V c t) (scrAt V c d t.val) :=
  scrAt_step V c d t.val t.isLt

/-- The innermost grid coordinate of point `t` is `t mod 4`. -/
theorem coordJ : ∀ t : Fin cfg1.N, (grid1.coords t 2).val = t.val % 4 :=
  (by decide +kernel : ∀ t : Fin grid1.N, (grid1.coords t 2).val = t.val % 4)

/-- Some scratch contents, to name what no point reads. -/
def scr0 : Scr F := ⟨constant S1024x128 .bf16 0#16, k1_pay5 (F := F), k1_pay6 (F := F), k1_pay7 (F := F)⟩

/-- From the second point on the scratch does not depend on what it held at entry: the first point resets it. -/
theorem scrAt_indep (c : Dev nD) (d d' : Scr F) (n : ℕ) : scrAt V c d (n + 1) = scrAt V c d' (n + 1) := by
  induction n with
  | zero =>
    have hN : 0 < cfg1.N := lt_of_lt_of_eq (by omega : 0 < 64) N_1.symm
    have hj : (grid1.coords (⟨0, hN⟩ : Fin cfg1.N) 2).val = 0 := (coordJ ⟨0, hN⟩).trans rfl
    rw [scrAt_step V c d 0 hN, scrAt_step V c d' 0 hN]
    unfold stepScr
    rw [if_pos hj, if_pos hj]
  | succ n ih =>
    by_cases h : n + 1 < cfg1.N
    · rw [scrAt_step V c d (n + 1) h, scrAt_step V c d' (n + 1) h, ih]
    · rw [scrAt_stay V c d (n + 1) h, scrAt_stay V c d' (n + 1) h, ih]

/-! ## The invariant -/

abbrev scM1_0 : Memref sig .tc .vmem S1024x128 .bf16 := Memref.whole cc1_scratch0
abbrev scM1_1 : Memref sig .tc .vmem S1024x1 .f32 := Memref.whole cc1_scratch1
abbrev scM1_2 : Memref sig .tc .vmem S1024x1 .f32 := Memref.whole cc1_scratch2
abbrev scM1_3 : Memref sig .tc .vmem S1024x128 .f32 := Memref.whole cc1_scratch3

/-- The first pipeline's staging buffers, idle during this region, each whole at some contents. -/
def otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The four scratch buffers at the contents `s`. -/
def scrOwns (c : Dev nD) (s : Scr F) : sProp 𝕄 :=
  iprop(owns (c : Thread nD τ) scM1_0 fullShare s.q ∗ owns (c : Thread nD τ) scM1_1 fullShare s.m
    ∗ owns (c : Thread nD τ) scM1_2 fullShare s.l ∗ owns (c : Thread nD τ) scM1_3 fullShare s.a)

/-- The invariant before point `n`: the scratch at the fold of the first `n` points from some entry contents, the other
    scoped buffers at anything, the generator register at some state. -/
def Phi1 (c : Dev nD) (n : ℕ) : sProp 𝕄 :=
  iprop((∃ d : Scr F, scrOwns c (scrAt V c d n)) ∗ otherStaging (F := F) c ∗ (∃ r, prngReg c r))

/-- The class's invariant (every scoped buffer that is no staging buffer of this pipeline at anything, the generator
    register at some state) with the scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ d, owns (c : Thread nD τ) scM1_0 fullShare d) ∗ (∃ d, owns (c : Thread nD τ) scM1_1 fullShare d)
        ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

/-! ## The pipeline's proof data -/

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => stepO (scrAt V c (scr0 (F := F)) (t.val + 1)).a (scrAt V c (scr0 (F := F)) (t.val + 1)).l
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = stepO (scrAt V c (scr0 (F := F)) (t.val + 1)).a (scrAt V c (scr0 (F := F)) (t.val + 1)).l := by
  dsimp only [dat1]

/-- What the launch hands the region is the invariant before the first point. -/
theorem Phi_in1 (c : Dev nD) : Pipeline.ΦA spec1 c ⊢ (dat1 V c).Φ 0 := by
  rw [show (dat1 V c).Φ 0 = Phi1 V c 0 from rfl, PhiA1_eq]
  unfold Phi1 otherStaging scrOwns
  iintro ⟨⟨A, B, C, D, E, ⟨%d0, S0⟩, ⟨%d1, S1⟩, ⟨%d2, S2⟩, ⟨%d3, S3⟩⟩, Hg⟩
  isplitl [S0 S1 S2 S3]
  · iexists (⟨d0, d1, d2, d3⟩ : Scr F)
    isplitl [S0]; · iexact S0
    isplitl [S1]; · iexact S1
    isplitl [S2]; · iexact S2
    iexact S3
  isplitl [A B C D E]
  · isplitl [A]; · iexact A
    isplitl [B]; · iexact B
    isplitl [C]; · iexact C
    isplitl [D]; · iexact D
    iexact E
  iexact Hg

/-- After the last point the invariant gives the class's back: the scratch's named contents are forgotten. -/
theorem Phi_out1 (c : Dev nD) : (dat1 V c).Φ (Fin.last cfg1.N) ⊢ Pipeline.ΦA spec1 c := by
  rw [show (dat1 V c).Φ (Fin.last cfg1.N) = Phi1 V c (Fin.last cfg1.N).val from rfl, PhiA1_eq]
  unfold Phi1 otherStaging scrOwns
  iintro ⟨⟨%d, S0, S1, S2, S3⟩, ⟨A, B, C, D, E⟩, Hg⟩
  isplitl [A B C D E S0 S1 S2 S3]
  · isplitl [A]; · iexact A
    isplitl [B]; · iexact B
    isplitl [C]; · iexact C
    isplitl [D]; · iexact D
    isplitl [E]; · iexact E
    isplitl [S0]; · iexists _; iexact S0
    isplitl [S1]; · iexists _; iexact S1
    isplitl [S2]; · iexists _; iexact S2
    iexists _; iexact S3
  iexact Hg

/-! ## The inputs' staging buffers hold their blocks at every point -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last point of a query tile the body stores nothing into the output block's staging buffer, -/
theorem idleAt1_3 : ∀ t : Fin cfg1.N, t.val % 4 ≠ 3 → cfg1.idle 3 (grid1.coords t) = true :=
  (by decide +kernel : ∀ t : Fin grid1.N, t.val % 4 ≠ 3 → cfg1.idle 3 (grid1.coords t) = true)
/-- at it, it does, -/
theorem liveAt1_3 : ∀ t : Fin cfg1.N, t.val % 4 = 3 → cfg1.idle 3 (grid1.coords t) = false :=
  (by decide +kernel : ∀ t : Fin grid1.N, t.val % 4 = 3 → cfg1.idle 3 (grid1.coords t) = false)
/-- and only there is the block written back. -/
theorem noFlush1_3 (t : Fin cfg1.N) (h : t.val % 4 ≠ 3) : (cfg1.win 3).flush t = false := by
  cases hf : (cfg1.win 3).flush t with
  | false => rfl
  | true => exact absurd ((flush1_3 t).mp hf) h

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' memrefs hold their blocks; the point's innermost coordinate says which of the
    three triples applies; the invariant hands the body the scratch at the fold of the points before and takes it back at
    the fold through this point; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  rw [show (dat1 V c).Φ t.castSucc = Phi1 V c t.val from rfl, show (dat1 V c).Φ t.succ = Phi1 V c (t.val + 1) from rfl]
  unfold Phi1 scrOwns
  have hj := coordJ t
  by_cases h0 : t.val % 4 = 0
  · -- the first point of a query tile
    rw [Dat.leavesExact_idle (dat1 V c) 3 t (idleAt1_3 t (by omega)) (noFlush1_3 t (by omega))]
    iintro ⟨⟨⟨%d, S0, S1, S2, S3⟩, Hos, Hg⟩, Ho, ⟨%d0, H0⟩, ⟨%d1, H1⟩, ⟨%d2, H2⟩, ⟨%d3, H3⟩⟩
    iapply (sound_kernel1_first c Set.univ (grid1.coords t) (hj.trans h0) _ _ _ _ _ _ _ _ _ _ _ _ _ _ _ _
      (xblk1 V c t) (wblk1 V c t) (kvblk1 V c t) ((dat1 V c).before 3 t d3) _)
    isplitl [H0]; · iexact H0
    isplitl [H1]; · iexact H1
    isplitl [H2]; · iexact H2
    isplitl [H3]; · iexact H3
    isplitl [S0]; · iexists _; iexact S0
    isplitl [S1]; · iexists _; iexact S1
    isplitl [S2]; · iexists _; iexact S2
    isplitl [S3]; · iexists _; iexact S3
    iintro ⟨H0, H1, H2, H3, S0, S1, S2, S3⟩
    isplitl [S0 S1 S2 S3 Hos Hg]
    · isplitl [S0 S1 S2 S3]
      · iexists d
        rw [scrAt_succ V c d t]
        unfold stepScr
        rw [if_pos (hj.trans h0)]
        isplitl [S0]; · iexact S0
        isplitl [S1]; · iexact S1
        isplitl [S2]; · iexact S2
        iexact S3
      isplitl [Hos]; · iexact Hos
      iexact Hg
    isplitl [Ho]; · iexact Ho
    isplitl [H0]; · iexact H0
    isplitl [H1]; · iexact H1
    isplitl [H2]; · iexact H2
    iexists _; iexact H3
  · by_cases h3 : t.val % 4 = 3
    · -- the last point of a query tile
      rw [show (dat1 V c).leavesExact 3 t = owns (c : Thread nD τ) (st1_3 t) fullShare ((dat1 V c).after 3 t) from by
          unfold Dat.leavesExact; rw [liveAt1_3 t h3], after1_3]
      iintro ⟨⟨⟨%d, S0, S1, S2, S3⟩, Hos, Hg⟩, Ho, ⟨%d0, H0⟩, ⟨%d1, H1⟩, ⟨%d2, H2⟩, ⟨%d3, H3⟩⟩
      iapply (sound_kernel1_last c Set.univ (grid1.coords t) (hj.trans h3) _ _ _ _ _ _ _ _ _ _ _ _ _ _ _ _
        (xblk1 V c t) (wblk1 V c t) (kvblk1 V c t) (scrAt V c d t.val).q (scrAt V c d t.val).m (scrAt V c d t.val).l (scrAt V c d t.val).a _)
      isplitl [H0]; · iexact H0
      isplitl [H1]; · iexact H1
      isplitl [H2]; · iexact H2
      isplitl [H3]; · iexists _; iexact H3
      isplitl [S0]; · iexact S0
      isplitl [S1]; · iexact S1
      isplitl [S2]; · iexact S2
      isplitl [S3]; · iexact S3
      iintro ⟨H0, H1, H2, H3, S0, S1, S2, S3⟩
      have hne : ¬ (grid1.coords t 2).val = 0 := by rw [hj]; exact h0
      have hs : scrAt V c d (t.val + 1)
          = ⟨(scrAt V c d t.val).q, stepM (grid1.coords t) (kvblk1 V c t) (scrAt V c d t.val).q (scrAt V c d t.val).m,
              stepL (grid1.coords t) (kvblk1 V c t) (scrAt V c d t.val).q (scrAt V c d t.val).m (scrAt V c d t.val).l,
              stepA (grid1.coords t) (kvblk1 V c t) (scrAt V c d t.val).q (scrAt V c d t.val).m (scrAt V c d t.val).a⟩ := by
        rw [scrAt_succ V c d t]; unfold stepScr; rw [if_neg hne]
      isplitl [S0 S1 S2 S3 Hos Hg]
      · isplitl [S0 S1 S2 S3]
        · iexists d
          rw [hs]
          isplitl [S0]; · iexact S0
          isplitl [S1]; · iexact S1
          isplitl [S2]; · iexact S2
          iexact S3
        isplitl [Hos]; · iexact Hos
        iexact Hg
      isplitl [Ho]; · iexact Ho
      isplitl [H0]; · iexact H0
      isplitl [H1]; · iexact H1
      isplitl [H2]; · iexact H2
      rw [scrAt_indep V c (scr0 (F := F)) d t.val, hs]
      iexact H3
    · -- a middle point
      rw [Dat.leavesExact_idle (dat1 V c) 3 t (idleAt1_3 t h3) (noFlush1_3 t h3)]
      iintro ⟨⟨⟨%d, S0, S1, S2, S3⟩, Hos, Hg⟩, Ho, ⟨%d0, H0⟩, ⟨%d1, H1⟩, ⟨%d2, H2⟩, ⟨%d3, H3⟩⟩
      iapply (sound_kernel1_mid c Set.univ (grid1.coords t) (by rw [hj]; exact h0) (by rw [hj]; exact h3) _ _ _ _ _ _ _ _ _ _ _ _ _ _ _ _
        (xblk1 V c t) (wblk1 V c t) (kvblk1 V c t) ((dat1 V c).before 3 t d3)
        (scrAt V c d t.val).q (scrAt V c d t.val).m (scrAt V c d t.val).l (scrAt V c d t.val).a _)
      isplitl [H0]; · iexact H0
      isplitl [H1]; · iexact H1
      isplitl [H2]; · iexact H2
      isplitl [H3]; · iexact H3
      isplitl [S0]; · iexact S0
      isplitl [S1]; · iexact S1
      isplitl [S2]; · iexact S2
      isplitl [S3]; · iexact S3
      iintro ⟨H0, H1, H2, H3, S0, S1, S2, S3⟩
      have hne : ¬ (grid1.coords t 2).val = 0 := by rw [hj]; exact h0
      isplitl [S0 S1 S2 S3 Hos Hg]
      · isplitl [S0 S1 S2 S3]
        · iexists d
          rw [scrAt_succ V c d t]
          unfold stepScr
          rw [if_neg hne]
          isplitl [S0]; · iexact S0
          isplitl [S1]; · iexact S1
          isplitl [S2]; · iexact S2
          iexact S3
        isplitl [Hos]; · iexact Hos
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Fold.lean ====
/-
  What core `c`'s unscoped buffers hold at each boundary between the items of @main: at launch the memory; after the
  first region its arrays at what its write-backs leave and everything else unchanged; after each of the two host
  stretches (a zero constant; its conversion and the padding of the query weight with 64 zero columns) the stretch's
  results written; after the second region again its arrays at what its write-backs leave. The arguments are written by
  no item, so they end as launched; the result array ends at what the second region's write-backs leave.
-/
import proofs.«423627_j86199993631020_3_alg».proof.Proof.Region0
import proofs.«423627_j86199993631020_3_alg».proof.Proof.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)
/-- The same read at the TensorCore's references: what the first region's proof data take. -/
abbrev VE0 : (c : Dev nD) → (b : Ref sig .tc) → Buf (Elt F) ((c : Thread nD τ).loc b) := fun c b => W0 m c b

/-- After the first region: its arrays at what the pipeline leaves, every other buffer as entered. -/
def W1 (c : Dev nD) : Valuation τ sig (Elt F) :=
  Pipeline.withArrays spec0 c (W0 m c) fun w => (dat0 (VE0 m) c).arrAt w cfg0.N
theorem W1_arr (c : Dev nD) (w : Fin cfg0.W) :
    W1 m c (Proc.devRef .tc (Pipeline.arrRef spec0 w)) = (dat0 (VE0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev VX0 : (c : Dev nD) → (b : Ref sig .tc) → Buf (Elt F) ((c : Thread nD τ).loc b) := fun c b => W1 m c b
theorem hF0 (c : Dev nD) (w : Fin cfg0.W) : (dat0 (VE0 m) c).arrAt w cfg0.N = VX0 m c (Pipeline.arrRef spec0 w) :=
  (W1_arr m c w).symm
theorem hrest0 (c : Dev nD) : ∀ b, b ∉ Finset.univ.image (Pipeline.arrRef spec0) → VX0 m c b = VE0 m c b :=
  fun b hb => W1_of_ne m c b fun w e => hb (Finset.mem_image.mpr ⟨w, Finset.mem_univ _, e⟩)

/-- After the first host stretch (the zero constant). -/
abbrev W2 : Dev nD → Valuation τ sig (Elt F) := fun c => StableHlo.after hostOps1 (W1 m c)
/-- After the second host stretch (the conversion and the padding): the second region's entry. -/
abbrev W3 : Dev nD → Valuation τ sig (Elt F) := fun c => StableHlo.after hostOps1_1 (W2 m c)
/-- The same read at the TensorCore's references: what the second region's proof data take. -/
abbrev VE1 : (c : Dev nD) → (b : Ref sig .tc) → Buf (Elt F) ((c : Thread nD τ).loc b) := fun c b => W3 m c b

/-- After the second region: its arrays at what the pipeline leaves, every other buffer as entered. -/
def W4 (c : Dev nD) : Valuation τ sig (Elt F) :=
  Pipeline.withArrays spec1 c (W3 m c) fun w => (dat1 (VE1 m) c).arrAt w cfg1.N
theorem W4_arr (c : Dev nD) (w : Fin cfg1.W) :
    W4 m c (Proc.devRef .tc (Pipeline.arrRef spec1 w)) = (dat1 (VE1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev VX1 : (c : Dev nD) → (b : Ref sig .tc) → Buf (Elt F) ((c : Thread nD τ).loc b) := fun c b => W4 m c b
theorem hF1 (c : Dev nD) (w : Fin cfg1.W) : (dat1 (VE1 m) c).arrAt w cfg1.N = VX1 m c (Pipeline.arrRef spec1 w) :=
  (W4_arr m c w).symm
theorem hrest1 (c : Dev nD) : ∀ b, b ∉ Finset.univ.image (Pipeline.arrRef spec1) → VX1 m c b = VE1 m c b :=
  fun b hb => W4_of_ne m c b fun w e => hb (Finset.mem_image.mpr ⟨w, Finset.mem_univ _, e⟩)

/-- The result array ends at what the second region's write-backs leave. -/
theorem W4_main_v2 (c : Dev nD) : W4 m c (Proc.devRef .tc main_v2) = (dat1 (VE1 m) c).arrAt 3 cfg1.N :=
  W4_arr m c 3

end Cert.KernelIdeal.Hand

end
-- ==== Proof.Run.lean ====
/-
  The run of the idealized program's text at any float instance: @main is the first kernel region, a host stretch of
  one constant, a host stretch that converts it and pads the query weight, and the second kernel region. Each region is
  entered from the core's unscoped buffers at the contents the item before left, runs its pipeline under its proof data,
  and leaves its arrays at what its write-backs leave; the generator register and the core's (empty) dues ride along.
  Every weakly fair execution terminates without a fault; at the end the result array holds what the second region's
  write-backs leave and each argument array what it held at launch.
-/
import proofs.«423627_j86199993631020_3_alg».proof.Proof.Fold
import proofs.«423627_j86199993631020_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched

No host operation writes an argument and no region has one as an output window, so the contents of an argument's
buffer at the last boundary walk back, item by item, to the launch memory. -/

/-- A buffer that neither host stretch writes holds after both what it held before them. -/
theorem W3_of (c : Dev nD) (r : Ref sig .tc) (h1 : r ∉ (hostOps1_W : List (Ref sig .tc))) (h2 : r ∉ (hostOps1_1_W : List (Ref sig .tc))) :
    W3 m c (Proc.devRef .tc r) = W1 m c (Proc.devRef .tc r) :=
  (StableHlo.after_of_writes_sub hostOps1_1 _ hostOps1_1_writes h2).trans
    (StableHlo.after_of_writes_sub hostOps1 _ hostOps1_writes h1)

/-- The query array: the second region reads it through its first window, nothing before that touches it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) :=
        (W4_arr m c 0).trans (((dat1 (VE1 m) c).arrAt_in 0 rfl _).trans (A_eq1 (VE1 m) c 0))
    _ = W1 m c (Proc.devRef .tc main_arg0) := W3_of m c main_arg0 (by decide) (by decide)
    _ = W0 m c (Proc.devRef .tc main_arg0) := W1_of_ne m c main_arg0 (by decide)
    _ = m ((c : Thread nD τ).loc main_arg0) := rfl

/-- The conditioning array: the first region reads it through its first window, nothing after that touches it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W1 m c (Proc.devRef .tc main_arg1) := W3_of m c main_arg1 (by decide) (by decide)
    _ = W0 m c (Proc.devRef .tc main_arg1) :=
        (W1_arr m c 0).trans (((dat0 (VE0 m) c).arrAt_in 0 rfl _).trans (A_eq0 (VE0 m) c 0))
    _ = m ((c : Thread nD τ).loc main_arg1) := rfl

/-- The query weight: the padding reads it, no item writes it, no region has it as a window. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W1 m c (Proc.devRef .tc main_arg2) := W3_of m c main_arg2 (by decide) (by decide)
    _ = W0 m c (Proc.devRef .tc main_arg2) := W1_of_ne m c main_arg2 (by decide)
    _ = m ((c : Thread nD τ).loc main_arg2) := rfl

/-- The key|value weight: the first region reads it through its second window, nothing after that touches it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W1 m c (Proc.devRef .tc main_arg3) := W3_of m c main_arg3 (by decide) (by decide)
    _ = W0 m c (Proc.devRef .tc main_arg3) :=
        (W1_arr m c 1).trans (((dat0 (VE0 m) c).arrAt_in 1 rfl _).trans (A_eq0 (VE0 m) c 1))
    _ = m ((c : Thread nD τ).loc main_arg3) := rfl

/-! ## The proof data family and the thread state -/

/-- Each pipeline's proof data at the contents its region is entered from. -/
def pdats : (p : Fin 2) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE1 m) c
abbrev 𝒱₀ : Variants := Variants.none
/-- No core waits on another: no level is assigned. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
/-- A host stretch over the unscoped buffers held whole at the contents W, with R beside them: it leaves them at the
    stretch's results over W, which is the next boundary's contents by definition. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at the launch contents, left with its
    three arrays at what the pipeline leaves and every other buffer unchanged. At entry its arrays are split off the
    unscoped buffers and at exit put back; the generator register passes through the pipeline's invariant; nothing is
    owed at any point; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the contents the padding left, left
    with its four arrays at what the pipeline leaves (the last thread state). Its invariant is not the scoped rest as
    such but the scratch along the grid: what the launch hands it (the scoped rest and the generator register) gives the
    invariant before the first point, and the invariant after the last point gives that back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (VE1 m) c).Φ 0 from rfl]
    refine BIBase.Entails.trans ?_ (Phi_in1 (VE1 m) c)
    unfold Pipeline.ΦA
    iintro ⟨Hp, -, Hr⟩
    isplitl [Hr]; · iexact Hr
    iexact Hp
  hout c := by
    rw [Pipeline.ownSems0_none, show (pdats m 1 c).Φ (Fin.last _) = (dat1 (VE1 m) c).Φ (Fin.last cfg1.N) from rfl]
    refine (Phi_out1 (VE1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four items in order: the first region, the two host stretches each from the contents of the boundary before
    it, the second region. -/
abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .region (reg1 m) ]
/-- @main is the run of these segments: it is the chain of its items, and so is the segments' run. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting; the
    result array ends at what the second region's write-backs leave, the four argument arrays as launched. -/
theorem run : θ_run defs (onTc (τ := τ) (main (F := F))) ⟨m, fun _ => 0, ρ⟩ (fun r => ∀ c : Dev nD,
      r.2.mem ((c.tc : Thread nD τ).loc main_v2) = (dat1 (VE1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v2 (by decide))).trans (W4_main_v2 m c),
        (h c _ (mem_uc main_arg0 (by decide))).trans (W4_main_arg0 m c),
        (h c _ (mem_uc main_arg1 (by decide))).trans (W4_main_arg1 m c),
        (h c _ (mem_uc main_arg2 (by decide))).trans (W4_main_arg2 m c),
        (h c _ (mem_uc main_arg3 (by decide))).trans (W4_main_arg3 m c)⟩)

end Cert.KernelIdeal.Hand

end
-- ==== Proof.LibOnlineSoftmax.lean ====
/-
  The exp-weighted mean of finitely many values, and two ways of computing it.

  For scores `s n` and values `v n` over a finite index type the exp-weighted mean is
  `(Σ n, exp (s n) · v n) / (Σ n, exp (s n))`: one row of softmax attention.
  * Shifted form: a softmax row computed with ANY real shift `M` (the row maximum in practice) and normalised term by term,
    times the values and summed, is the exp-weighted mean (`wmean_shift`).
  * Online form: the indices taken in four tiles, a running shift `m`, a running normaliser `l` and a running numerator `a`
    started from zero and rescaled by `exp (m_prev - m_new)` at each tile (`lnext`, `anext`); whatever reals the five running
    shifts are, numerator times the reciprocal of the normaliser is the exp-weighted mean over all four tiles (`online4`),
    and the normaliser is positive (`lnext_pos`).
  Both hold because `exp (s - M) = exp s · exp (-M)` with `exp (-M) ≠ 0`. Also here: a sum over 4096 indices is the sum over
  four tiles of 1024 (`tileCol`, `sum_tiles`).
-/
import Idealize.ShloMosaic.PureOps.Ideal
import Idealize.ShloMosaic.Lib.ValueIdx

noncomputable section

open scoped BigOperators

namespace Cert.Attn

/-- The exp-weighted mean of `v` under scores `s`. -/
def wmean {N : Type} [Fintype N] (s v : N → ℝ) : ℝ :=
  (∑ n, Real.exp (s n) * v n) / ∑ n, Real.exp (s n)

/-- Shifting the argument of `exp` by `M` multiplies the value by `exp (-M)`. -/
theorem exp_sub_shift (x M : ℝ) : Real.exp (x - M) = Real.exp x * Real.exp (-M) := by
  rw [sub_eq_add_neg, Real.exp_add]

/-- A softmax row computed with any shift `M`, times the values, is the exp-weighted mean. -/
theorem wmean_shift {N : Type} [Fintype N] [Nonempty N] (s v : N → ℝ) (M : ℝ) :
    ∑ n, (Real.exp (s n - M) / ∑ n', Real.exp (s n' - M)) * v n = wmean s v := by
  unfold wmean
  -- the shift is a common nonzero factor exp (-M) of every weight and of the normaliser
  have hE : Real.exp (-M) ≠ 0 := Real.exp_ne_zero _
  have hden : ∑ n', Real.exp (s n' - M) = (∑ n', Real.exp (s n')) * Real.exp (-M) := by
    rw [Finset.sum_mul]
    exact Finset.sum_congr rfl (fun n _ => exp_sub_shift _ _)
  rw [hden, Finset.sum_div]
  refine Finset.sum_congr rfl (fun n _ => ?_)
  rw [exp_sub_shift, mul_div_mul_right _ _ hE, div_mul_eq_mul_div]

/-- One tile's update of the running normaliser: rescale by the move of the shift, add the tile's weights. -/
def lnext {C : Type} [Fintype C] (mp mn l : ℝ) (srow : C → ℝ) : ℝ :=
  Real.exp (mp - mn) * l + ∑ c, Real.exp (srow c - mn)

/-- One tile's update of the running numerator. -/
def anext {C : Type} [Fintype C] (mp mn a : ℝ) (srow vrow : C → ℝ) : ℝ :=
  Real.exp (mp - mn) * a + ∑ c, Real.exp (srow c - mn) * vrow c

/-- Moving the shift from `mp` to `mn` turns the factor `exp (-mp)` into `exp (-mn)`. -/
theorem exp_move (mp mn S : ℝ) : Real.exp (mp - mn) * (Real.exp (-mp) * S) = Real.exp (-mn) * S := by
  have h : mp - mn + -mp = -mn := by ring
  rw [← mul_assoc, ← Real.exp_add, h]

/-- Invariant of the normaliser: if it is `exp (-mp)` times the plain sum `S` of the weights so far, then after one
    more tile it is `exp (-mn)` times the plain sum including that tile. -/
theorem lnext_scaled {C : Type} [Fintype C] (mp mn S : ℝ) (srow : C → ℝ) :
    lnext mp mn (Real.exp (-mp) * S) srow = Real.exp (-mn) * (S + ∑ c, Real.exp (srow c)) := by
  unfold lnext
  have h2 : ∑ c, Real.exp (srow c - mn) = Real.exp (-mn) * ∑ c, Real.exp (srow c) := by
    rw [Finset.mul_sum]
    refine Finset.sum_congr rfl (fun c _ => ?_)
    rw [exp_sub_shift, mul_comm]
  rw [exp_move, h2, mul_add]

/-- The first tile, started from zero. -/
theorem lnext_zero {C : Type} [Fintype C] (mp mn : ℝ) (srow : C → ℝ) :
    lnext mp mn 0 srow = Real.exp (-mn) * ∑ c, Real.exp (srow c) := by
  have h := lnext_scaled mp mn 0 srow
  rw [mul_zero, zero_add] at h
  exact h

/-- The same invariant for the numerator, with the value-weighted sums. -/
theorem anext_scaled {C : Type} [Fintype C] (mp mn S : ℝ) (srow vrow : C → ℝ) :
    anext mp mn (Real.exp (-mp) * S) srow vrow = Real.exp (-mn) * (S + ∑ c, Real.exp (srow c) * vrow c) := by
  unfold anext
  have h2 : ∑ c, Real.exp (srow c - mn) * vrow c = Real.exp (-mn) * ∑ c, Real.exp (srow c) * vrow c := by
    rw [Finset.mul_sum]
    refine Finset.sum_congr rfl (fun c _ => ?_)
    rw [exp_sub_shift, mul_comm (Real.exp (srow c)), mul_assoc]
  rw [exp_move, h2, mul_add]

theorem anext_zero {C : Type} [Fintype C] (mp mn : ℝ) (srow vrow : C → ℝ) :
    anext mp mn 0 srow vrow = Real.exp (-mn) * ∑ c, Real.exp (srow c) * vrow c := by
  have h := anext_scaled mp mn 0 srow vrow
  rw [mul_zero, zero_add] at h
  exact h

/-- Four tiles accumulated from zero under arbitrary running shifts `m0 … m4`, then numerator times the reciprocal
    of the normaliser: the exp-weighted mean over all four tiles. -/
theorem online4 {C : Type} [Fintype C] [Nonempty C] (s v : Fin 4 → C → ℝ) (m0 m1 m2 m3 m4 : ℝ) :
    anext m3 m4 (anext m2 m3 (anext m1 m2 (anext m0 m1 0 (s 0) (v 0)) (s 1) (v 1)) (s 2) (v 2)) (s 3) (v 3)
        * (1 / lnext m3 m4 (lnext m2 m3 (lnext m1 m2 (lnext m0 m1 0 (s 0)) (s 1)) (s 2)) (s 3))
      = (∑ j : Fin 4, ∑ c, Real.exp (s j c) * v j c) / ∑ j : Fin 4, ∑ c, Real.exp (s j c) := by
  -- after the last tile both running quantities carry the same factor exp (-m4), which cancels in the quotient
  have hE : Real.exp (-m4) ≠ 0 := Real.exp_ne_zero _
  rw [lnext_zero, lnext_scaled, lnext_scaled, lnext_scaled,
    anext_zero, anext_scaled, anext_scaled, anext_scaled,
    Fin.sum_univ_four, Fin.sum_univ_four, mul_one_div, mul_div_mul_left _ _ hE]

/-- The normaliser after any number of tiles is positive (so its reciprocal is the real one). -/
theorem lnext_pos {C : Type} [Fintype C] [Nonempty C] (mp mn l : ℝ) (hl : 0 ≤ l) (srow : C → ℝ) :
    0 < lnext mp mn l srow := by
  unfold lnext
  have h1 : 0 ≤ Real.exp (mp - mn) * l := mul_nonneg (Real.exp_pos _).le hl
  have h2 : 0 < ∑ c, Real.exp (srow c - mn) :=
    Finset.sum_pos (fun c _ => Real.exp_pos _) Finset.univ_nonempty
  exact add_pos_of_nonneg_of_pos h1 h2

/-- Column `n` of 4096 is place `c` of tile `j`: `n = 1024 · j + c`. -/
def tileCol (j : Fin 4) (c : Fin 1024) : Fin 4096 := ⟨1024 * j.val + c.val, by omega⟩

/-- A sum over 4096 columns is the sum over the four tiles of 1024. -/
theorem sum_tiles (g : Fin 4096 → ℝ) : ∑ n, g n = ∑ j : Fin 4, ∑ c : Fin 1024, g (tileCol j c) := by
  -- the pair (j, c) goes to the column c + 1024 · j under the standard bijection Fin 4 × Fin 1024 ≃ Fin 4096
  have hcol : ∀ (j : Fin 4) (c : Fin 1024),
      (finProdFinEquiv (j, c) : Fin (4 * 1024)) = tileCol j c := by
    intro j c
    apply Fin.ext
    show c.val + 1024 * j.val = 1024 * j.val + c.val
    omega
  calc ∑ n, g n = ∑ p : Fin 4 × Fin 1024, g (finProdFinEquiv p) :=
        (Equiv.sum_comp (finProdFinEquiv : Fin 4 × Fin 1024 ≃ Fin (4 * 1024)) g).symm
    _ = ∑ j : Fin 4, ∑ c : Fin 1024, g (finProdFinEquiv (j, c)) := Fintype.sum_prod_type _
    _ = ∑ j : Fin 4, ∑ c : Fin 1024, g (tileCol j c) :=
        Finset.sum_congr rfl (fun j _ => Finset.sum_congr rfl (fun c _ => by rw [hcol]))

end Cert.Attn

end
-- ==== Proof.Spec.lean ====
/-
  The attention both programs compute, over the reals: queries `q = x · Wq`, keys and values the two halves of the joint
  projection `cond · Wkv`, scores `(q · k) / 8` (8 the square root of the head width 64), and per batch, query row and channel
  the exp-weighted mean of the values under the scores.
-/
import proofs.«423627_j86199993631020_3_alg».proof.Proof.LibOnlineSoftmax

noncomputable section

open scoped BigOperators

namespace Cert.Attn

/-! ## The attention this certificate is about -/

/-- The query projection `x · Wq`. -/
def qv (x : Fin 4 → Fin 4096 → Fin 256 → ℝ) (wq : Fin 256 → Fin 64 → ℝ) (b : Fin 4) (r : Fin 4096) (h : Fin 64) : ℝ :=
  ∑ i, x b r i * wq i h

/-- The joint key|value projection `cond · Wkv`: columns 0–63 the keys, 64–127 the values. -/
def kvv (cd : Fin 4 → Fin 4096 → Fin 256 → ℝ) (wkv : Fin 256 → Fin 128 → ℝ) (b : Fin 4) (n : Fin 4096) (c : Fin 128) : ℝ :=
  ∑ i, cd b n i * wkv i c

/-- Key column `h` and value column `d` of the joint projection. -/
def keyCol (h : Fin 64) : Fin 128 := ⟨h.val, by omega⟩
def valCol (d : Fin 64) : Fin 128 := ⟨64 + d.val, by omega⟩

/-- The scaled score of query row `r` against key `n`: `(q · k) / 8`, 8 the square root of the head width 64. -/
def score (x cd : Fin 4 → Fin 4096 → Fin 256 → ℝ) (wq : Fin 256 → Fin 64 → ℝ) (wkv : Fin 256 → Fin 128 → ℝ)
    (b : Fin 4) (r n : Fin 4096) : ℝ :=
  (∑ h : Fin 64, qv x wq b r h * kvv cd wkv b n (keyCol h)) / 8

/-- The attention output: per batch `b`, query row `r` and channel `d`, the exp-weighted mean of the values. -/
def att (x cd : Fin 4 → Fin 4096 → Fin 256 → ℝ) (wq : Fin 256 → Fin 64 → ℝ) (wkv : Fin 256 → Fin 128 → ℝ)
    (b : Fin 4) (r : Fin 4096) (d : Fin 64) : ℝ :=
  wmean (fun n : Fin 4096 => score x cd wq wkv b r n) (fun n => kvv cd wkv b n (valCol d))

end Cert.Attn

end
-- ==== Proof.Entry1.lean ====
/-
  What the second region finds, at the ideal instance, every argument entry a real number: the first argument `x`
  untouched; the key|value array the first region wrote, entry `(b, n, c)` the real sum `Σ i, cond b n i · Wkv i c` (each
  grid point of the first region multiplies a 1024-row block of `cond` with the whole weight into a zero accumulator, the
  blocks tile the array); and the padded query weight, `Wq` in its lower 64 columns and the converted integer zero, that
  is 0, in its upper 64.
-/
import proofs.«423627_j86199993631020_3_alg».proof.Proof.Fold
import proofs.«423627_j86199993631020_3_alg».proof.Proof.Spec
import proofs.«423627_j86199993631020_3_alg».proof.Proof.Gen.KernelIdeal.Regions
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Attn
open scoped BigOperators

variable (m : (ℓ : Loc nD τ sig) → Buf (Elt Ideal) ℓ)

/-- The padded query weight over the reals. -/
def wpad (wq : Fin 256 → Fin 64 → ℝ) (i : Fin 256) (h : Fin 128) : ℝ := if hh : h.val < 64 then wq i ⟨h.val, hh⟩ else 0

theorem wpad_key (wq : Fin 256 → Fin 64 → ℝ) (i : Fin 256) (h : Fin 64) : wpad wq i (keyCol h) = wq i h := by
  unfold wpad
  have hh : (keyCol h).val < 64 := h.isLt
  rw [dif_pos hh]
  rfl

theorem wpad_upper (wq : Fin 256 → Fin 64 → ℝ) (i : Fin 256) (h : Fin 128) (hh : 64 ≤ h.val) : wpad wq i h = 0 := by
  unfold wpad
  rw [dif_neg (by omega)]

namespace Entry1

/-! ## Buffers the first region does not write -/

/-- A buffer that is no array of the first region and that neither host stretch writes is found as launched. -/
theorem entry_of_untouched (c : Dev nD) (r : Ref sig .tc) (h1 : r ∉ hostOps1_1_W) (h0 : r ∉ hostOps1_W)
    (hw : ∀ w, Pipeline.arrRef spec0 w ≠ r) : VE1 m c r = m ((c : Thread nD τ).loc r) :=
  (StableHlo.after_of_writes_sub hostOps1_1 _ hostOps1_1_writes h1).trans <|
    (StableHlo.after_of_writes_sub hostOps1 _ hostOps1_writes h0).trans <|
      (W1_of_ne m c r hw).trans rfl

/-! ## The padded query weight -/

/-- The second host stretch leaves in its result the query weight padded on the right of its second axis with the
    converted integer zero. -/
theorem entry_v1_term (c : Dev nD) :
    (VE1 m c main_v1 : S256x128.Idx → EReal)
      = pad S256x128 ![0, 0] ![0, 64] ![0, 0] (W1 m c (Proc.devRef .tc main_arg2) : S256x64.Idx → EReal)
          (sitofp (F := Ideal) .f32 (constantI S_ 32 0#32)) pads_S256x64_S256x128_000_0640 h_S_ := by
  show StableHlo.after hostOps1_1 (W2 m c) (Proc.devRef .tc main_v1) = _
  after_results
  rfl

/-! ## The first region's product at an index of its block -/

theorem kvdot_lhs_0 (j : S1024x128.Idx) (q : dot_S1024x256_S256x128_S1024x128_1_0_0_1_n_n.contr.Idx) :
    (dot_S1024x256_S256x128_S1024x128_1_0_0_1_n_n.lhsIdx j q 0).val = (j 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem kvdot_lhs_1 (j : S1024x128.Idx) (q : dot_S1024x256_S256x128_S1024x128_1_0_0_1_n_n.contr.Idx) :
    (dot_S1024x256_S256x128_S1024x128_1_0_0_1_n_n.lhsIdx j q 1).val = (q ⟨0, by decide⟩).val :=
  dot_S1024x256_S256x128_S1024x128_1_0_0_1_n_n.lhsIdx_val_of_single rfl j q
theorem kvdot_rhs_0 (j : S1024x128.Idx) (q : dot_S1024x256_S256x128_S1024x128_1_0_0_1_n_n.contr.Idx) :
    (dot_S1024x256_S256x128_S1024x128_1_0_0_1_n_n.rhsIdx j q 0).val = (q ⟨0, by decide⟩).val :=
  dot_S1024x256_S256x128_S1024x128_1_0_0_1_n_n.rhsIdx_val_of_single rfl j q
theorem kvdot_rhs_1 (j : S1024x128.Idx) (q : dot_S1024x256_S256x128_S1024x128_1_0_0_1_n_n.contr.Idx) :
    (dot_S1024x256_S256x128_S1024x128_1_0_0_1_n_n.rhsIdx j q 1).val = (j 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- The body's product at row `r`, column `cc` of its block: row `r` of the first block against column `cc` of the
    second, summed over the 256 contracted places (the changes of float format are the identity on the extended reals,
    the accumulator is zero, the two shape casts drop and add the unit axis). -/
theorem k0_pay1_apply (x0 : Vec Ideal S1x1024x256 .f32) (x1 : Vec Ideal S256x128 .f32) (z : Fin 1) (r : Fin 1024) (cc : Fin 128) :
    (k0_pay1 (F := Ideal) x0 x1 : S1x1024x128.Idx → EReal) (ix3 z r cc) = ∑ i : Fin 256, (x0 (ix3 (0 : Fin 1) r i) : EReal) * (x1 (ix2 i cc) : EReal) := by
  unfold k0_pay1
  refine (shapeCast_addUnit_apply ![1024, 128] _ _ (ix3 z r cc)).trans ?_
  have hj : (fun a : Fin 2 => ix3 z r cc a.succ) = ix2 r cc := funext fun a => by
    match a with
    | ⟨0, _⟩ => rfl
    | ⟨1, _⟩ => rfl
  rw [hj]
  refine (Ideal.matmul_constant_zero_apply dot_S1024x256_S256x128_S1024x128_1_0_0_1_n_n none _ _ (ix2 r cc)).trans ?_
  rw [← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx (ix2 r cc) ((ValueIdx.contrEquiv1 dot_S1024x256_S256x128_S1024x128_1_0_0_1_n_n 256 rfl rfl).symm k) = ix2 r k := funext fun a => Fin.ext (by
    match a with
    | ⟨0, _⟩ => exact kvdot_lhs_0 _ _
    | ⟨1, _⟩ => exact (kvdot_lhs_1 _ _).trans hk)
  have er : dot_S1024x256_S256x128_S1024x128_1_0_0_1_n_n.rhsIdx (ix2 r cc) ((ValueIdx.contrEquiv1 dot_S1024x256_S256x128_S1024x128_1_0_0_1_n_n 256 rfl rfl).symm k) = ix2 k cc := funext fun a => Fin.ext (by
    match a with
    | ⟨0, _⟩ => exact (kvdot_rhs_0 _ _).trans hk
    | ⟨1, _⟩ => exact kvdot_rhs_1 _ _)
  rw [el, er]
  show shapeCast S1024x256 x0 shapeCasts_S1x1024x256_S1024x256 (ix2 r k) * x1 (ix2 k cc) = _
  refine congrArg (· * x1 (ix2 k cc)) ?_
  refine (shapeCast_dropUnit_apply ![1024, 256] x0 shapeCasts_S1x1024x256_S1024x256 (ix2 r k)).trans ?_
  refine congrArg x0 (funext fun a => ?_)
  match a with
  | ⟨0, _⟩ => rfl
  | ⟨1, _⟩ => rfl
  | ⟨2, _⟩ => rfl

/-! ## The first region's blocks -/

section Blocks

variable (V : (c : Dev nD) → (b : Ref sig .tc) → Buf (Elt Ideal) ((c : Thread nD τ).loc b))

/-- The printed index maps over the 4 x 4 grid: point `t = 4 b + q` takes rows `1024 q …` of batch `b` of `cond`, the
    whole weight, and writes rows `1024 q …` of batch `b` of the result. -/
theorem kv_idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 3) = t.val / 4 ∧ win0_2.index t (1 : Fin 3) = t.val % 4 ∧ win0_2.index t (2 : Fin 3) = 0 :=
  (by decide +kernel : ∀ t : Fin grid0.N, _)

/-- The `cond` block at point `t` is rows `1024 (t % 4) …` of batch `t / 4`. -/
theorem cond_blk_apply (c : Dev nD) (t : Fin cfg0.N) (z : Fin 1) (r : Fin 1024) (i : Fin 256) (k : S4x4096x256.Idx)
    (hk0 : (k 0).val = t.val / 4) (hk1 : (k 1).val = 1024 * (t.val % 4) + r.val) (hk2 : (k 2).val = i.val) :
    (iblk0 V c 0 t : Vec Ideal S1x1024x256 .f32) (ix3 z r i) = (V c main_arg1 : S4x4096x256.Idx → EReal) k := by
  obtain ⟨e0, e1, e2, -⟩ := kv_idx_facts t
  unfold iblk0
  rw [View.read_apply]
  show V c main_arg1 _ = V c main_arg1 _
  congr 1
  funext a
  apply Fin.ext
  match a with
  | ⟨0, _⟩ => show win0_0.index t (0 : Fin 3) * 1 + 1 * z.val = (k 0).val; have := z.isLt; omega
  | ⟨1, _⟩ => show win0_0.index t (1 : Fin 3) * 1024 + 1 * r.val = (k 1).val; omega
  | ⟨2, _⟩ => show win0_0.index t (2 : Fin 3) * 256 + 1 * i.val = (k 2).val; omega

/-- The weight block at every point is the whole weight. -/
theorem wkv_blk_apply (c : Dev nD) (t : Fin cfg0.N) (i : Fin 256) (cc : Fin 128) :
    (iblk0 V c 1 t : Vec Ideal S256x128 .f32) (ix2 i cc) = (V c main_arg3 : S256x128.Idx → EReal) (ix2 i cc) := by
  obtain ⟨-, -, -, e0, e1, -⟩ := kv_idx_facts t
  unfold iblk0
  rw [View.read_apply]
  show V c main_arg3 _ = V c main_arg3 _
  congr 1
  funext a
  apply Fin.ext
  match a with
  | ⟨0, _⟩ => show win0_1.index t (0 : Fin 2) * 256 + 1 * i.val = i.val; omega
  | ⟨1, _⟩ => show win0_1.index t (1 : Fin 2) * 128 + 1 * cc.val = cc.val; omega

end Blocks

/-! ## From the blocks to the array -/

/-- A finite sum of coerced reals is the coerced sum. -/
theorem coe_sum_real {ι : Type} (s : Finset ι) (f : ι → ℝ) : ∑ i ∈ s, ((f i : ℝ) : EReal) = ((∑ i ∈ s, f i : ℝ) : EReal) := by
  classical
  refine Finset.induction_on s ?_ fun a s ha ih => ?_
  · simp
  · rw [Finset.sum_insert ha, Finset.sum_insert ha, ih, EReal.coe_add]

/-- The key|value projection as the contents of the first region's result array. -/
def kvArr (cr : Fin 4 → Fin 4096 → Fin 256 → ℝ) (wkvr : Fin 256 → Fin 128 → ℝ) : S4x4096x128.Idx → EReal :=
  fun k => ((kvv cr wkvr (k 0) (k 1) (k 2) : ℝ) : EReal)

theorem hz3 : (![0, 0, 0] : Fin 3 → Nat) = fun _ => 0 := funext fun a => by fin_cases a <;> rfl
theorem hz2 : (![0, 0] : Fin 2 → Nat) = fun _ => 0 := funext fun a => by fin_cases a <;> rfl

section Array

variable (V : (c : Dev nD) → (b : Ref sig .tc) → Buf (Elt Ideal) ((c : Thread nD τ).loc b))
variable (cr : Fin 4 → Fin 4096 → Fin 256 → ℝ) (wkvr : Fin 256 → Fin 128 → ℝ)

/-- What point `t` writes back is block `t` of the projection: entry `(0, r, cc)` of the product is the sum over the
    contracted places of row `1024 (t % 4) + r` of batch `t / 4` of `cond` against column `cc` of the weight, a sum of
    products of reals. -/
theorem kv_flushed (c : Dev nD) (t : Fin cfg0.N)
    (hc : ∀ b n i, (V c main_arg1 : S4x4096x256.Idx → EReal) (ix3 b n i) = ((cr b n i : ℝ) : EReal))
    (hkv : ∀ i cc, (V c main_arg3 : S256x128.Idx → EReal) (ix2 i cc) = ((wkvr i cc : ℝ) : EReal)) :
    (dat0 V c).flushed 2 t = ((cfg0.win 2).blk t).view.read (Elt Ideal) (kvArr cr wkvr) := by
  show (cfg0.win 2).cut (grid0.coords t) ((dat0 V c).after 2 t) = _
  rw [after0_2]
  unfold out0_2
  rw [View.canon_unit_zero hz3]
  simp only [View.ld_unit_zero (S := S1x1024x256) hz3, View.ld_unit_zero (S := S256x128) hz2]
  funext j
  obtain ⟨z, r, cc, rfl⟩ : ∃ (z : Fin 1) (r : Fin 1024) (cc : Fin 128), j = ix3 z r cc := ⟨j 0, j 1, j 2, eq_ix3 j⟩
  rw [View.read_apply]
  show (k0_pay1 (F := Ideal) (iblk0 V c 0 t) (iblk0 V c 1 t) : S1x1024x128.Idx → EReal) (ix3 z r cc)
    = kvArr cr wkvr (((cfg0.win 2).blk t).view.emb (ix3 z r cc))
  refine (k0_pay1_apply (iblk0 V c 0 t) (iblk0 V c 1 t) z r cc).trans ?_
  have hN : cfg0.N = 16 := N_0
  have ht : t.val < 16 := by have := t.isLt; omega
  obtain ⟨-, -, -, -, -, e0, e1, e2⟩ := kv_idx_facts t
  have hemb : ((cfg0.win 2).blk t).view.emb (ix3 z r cc)
      = ix3 (⟨t.val / 4, by omega⟩ : Fin 4) (⟨1024 * (t.val % 4) + r.val, by have := r.isLt; omega⟩ : Fin 4096) cc := by
    funext a
    apply Fin.ext
    match a with
    | ⟨0, _⟩ => show win0_2.index t (0 : Fin 3) * 1 + 1 * z.val = t.val / 4; have := z.isLt; omega
    | ⟨1, _⟩ => show win0_2.index t (1 : Fin 3) * 1024 + 1 * r.val = 1024 * (t.val % 4) + r.val; omega
    | ⟨2, _⟩ => show win0_2.index t (2 : Fin 3) * 128 + 1 * cc.val = cc.val; omega
  refine Eq.trans ?_ (congrArg (kvArr cr wkvr) hemb).symm
  show _ = ((kvv cr wkvr ⟨t.val / 4, _⟩ ⟨1024 * (t.val % 4) + r.val, _⟩ cc : ℝ) : EReal)
  unfold kvv
  rw [← coe_sum_real]
  refine Finset.sum_congr rfl fun i _ => ?_
  rw [EReal.coe_mul]
  refine congrArg₂ (· * ·) ?_ ?_
  · exact (cond_blk_apply V c t 0 r i (ix3 _ _ i) rfl rfl rfl).trans (hc _ _ i)
  · exact (wkv_blk_apply V c t i cc).trans (hkv i cc)

/-- An index of the result array is in point `t`'s block iff each coordinate is in the block's range on its axis. -/
theorem kv_mem_blk (t : Fin cfg0.N) (k : S4x4096x128.Idx) :
    k ∈ ((cfg0.win 2).blk t).view.set ↔ ∀ a : Fin 3, win0_2.index t a * S1x1024x128.size a ≤ (k a).val
      ∧ (k a).val < win0_2.index t a * S1x1024x128.size a + S1x1024x128.size a := by
  show k ∈ ((View.whole main_v0).slice (win0_2.rect t)).set ↔ _
  rw [View.set_slice_whole, Rect.mem_set_unit]
  exact Iff.rfl

/-- Row `n` of batch `b` is written back by point `4 b + n / 1024`: the sixteen blocks tile the array. -/
theorem kv_cover (k : S4x4096x128.Idx) :
    ∃ t : Fin cfg0.N, (cfg0.win 2).flush t = true ∧ k ∈ ((cfg0.win 2).blk t).view.set := by
  have h0 : (k 0).val < 4 := (k 0).isLt
  have h1 : (k 1).val < 4096 := (k 1).isLt
  have h2 : (k 2).val < 128 := (k 2).isLt
  have hN : cfg0.N = 16 := N_0
  obtain ⟨t, ht⟩ : ∃ t : Fin cfg0.N, t.val = 4 * (k 0).val + (k 1).val / 1024 :=
    ⟨⟨4 * (k 0).val + (k 1).val / 1024, by rw [hN]; omega⟩, rfl⟩
  obtain ⟨-, -, -, -, -, e0, e1, e2⟩ := kv_idx_facts t
  refine ⟨t, flush0_2 t, ?_⟩
  rw [kv_mem_blk]
  intro a
  match a with
  | ⟨0, _⟩ => show win0_2.index t (0 : Fin 3) * 1 ≤ (k 0).val ∧ (k 0).val < win0_2.index t (0 : Fin 3) * 1 + 1; omega
  | ⟨1, _⟩ => show win0_2.index t (1 : Fin 3) * 1024 ≤ (k 1).val ∧ (k 1).val < win0_2.index t (1 : Fin 3) * 1024 + 1024; omega
  | ⟨2, _⟩ => show win0_2.index t (2 : Fin 3) * 128 ≤ (k 2).val ∧ (k 2).val < win0_2.index t (2 : Fin 3) * 128 + 128; omega

/-- The first region leaves the projection in its result array. -/
theorem kv_final (c : Dev nD)
    (hc : ∀ b n i, (V c main_arg1 : S4x4096x256.Idx → EReal) (ix3 b n i) = ((cr b n i : ℝ) : EReal))
    (hkv : ∀ i cc, (V c main_arg3 : S256x128.Idx → EReal) (ix2 i cc) = ((wkvr i cc : ℝ) : EReal)) :
    (dat0 V c).arrAt 2 cfg0.N = kvArr cr wkvr :=
  (dat0 V c).arrAt_eq_of_cover 2 (kvArr cr wkvr) (fun t _ => kv_flushed V cr wkvr c t hc hkv) kv_cover

end Array

end Entry1

open Entry1

/-- The second region finds the first argument as launched. -/
theorem VE1_main_arg0 (c : Dev nD) : VE1 m c main_arg0 = m ((c : Thread nD τ).loc main_arg0) :=
  entry_of_untouched m c main_arg0 (by decide) (by decide) (by decide)

/-- The second region finds the padded query weight. -/
theorem VE1_main_v1 (c : Dev nD) (wqr : Fin 256 → Fin 64 → ℝ)
    (hq : ∀ i h, (m ((c : Thread nD τ).loc main_arg2) : S256x64.Idx → EReal) (ix2 i h) = ((wqr i h : ℝ) : EReal))
    (i : Fin 256) (h : Fin 128) :
    (VE1 m c main_v1 : S256x128.Idx → EReal) (ix2 i h) = ((wpad wqr i h : ℝ) : EReal) := by
  refine (congrFun (entry_v1_term m c) (ix2 i h)).trans ?_
  by_cases hh : h.val < 64
  · -- a column of the weight itself
    refine (pad_apply_of_inside (s := S256x64) (t := S256x128) ![0, 0] ![0, 64] ![0, 0] _ _ pads_S256x64_S256x128_000_0640 h_S_ (ix2 i h)
      (ix2 i (⟨h.val, hh⟩ : Fin 64)) fun a => ?_).trans ?_
    · match a with
      | ⟨0, _⟩ => show i.val = 0 + i.val * (0 + 1); omega
      | ⟨1, _⟩ => show h.val = 0 + h.val * (0 + 1); omega
    · rw [W1_of_ne m c main_arg2 (by decide)]
      refine (hq i ⟨h.val, hh⟩).trans ?_
      unfold wpad
      rw [dif_pos hh]
  · -- a padding column: the integer zero converted
    refine (pad_apply_of_not_inside (s := S256x64) (t := S256x128) ![0, 0] ![0, 64] ![0, 0] _ _ pads_S256x64_S256x128_000_0640 h_S_ (ix2 i h) (1 : Fin 2)
      fun hin => hh ?_).trans ?_
    · have h3 : (h.val - 0) / (0 + 1) < 64 := hin.2.2
      omega
    · rw [wpad_upper wqr i h (by omega)]
      show ((((0#32 : BitVec 32).toInt : ℤ) : ℝ) : EReal) = ((0 : ℝ) : EReal)
      simp

/-- The second region finds the key|value projection the first region wrote. -/
theorem VE1_main_v0 (c : Dev nD) (cr : Fin 4 → Fin 4096 → Fin 256 → ℝ) (wkvr : Fin 256 → Fin 128 → ℝ)
    (hc : ∀ b n i, (m ((c : Thread nD τ).loc main_arg1) : S4x4096x256.Idx → EReal) (ix3 b n i) = ((cr b n i : ℝ) : EReal))
    (hkv : ∀ i cc, (m ((c : Thread nD τ).loc main_arg3) : S256x128.Idx → EReal) (ix2 i cc) = ((wkvr i cc : ℝ) : EReal))
    (b : Fin 4) (n : Fin 4096) (cc : Fin 128) :
    (VE1 m c main_v0 : S4x4096x128.Idx → EReal) (ix3 b n cc) = ((kvv cr wkvr b n cc : ℝ) : EReal) := by
  -- neither host stretch writes the array; after the first region it holds what the write-backs left
  have e1 : VE1 m c main_v0 = W1 m c (Proc.devRef .tc main_v0) :=
    (StableHlo.after_of_writes_sub hostOps1_1 _ hostOps1_1_writes (by decide)).trans
      (StableHlo.after_of_writes_sub hostOps1 _ hostOps1_writes (by decide))
  have e2 : W1 m c (Proc.devRef .tc main_v0) = (dat0 (VE0 m) c).arrAt 2 cfg0.N := W1_arr m c 2
  have e3 : (dat0 (VE0 m) c).arrAt 2 cfg0.N = kvArr cr wkvr := kv_final (VE0 m) cr wkvr c hc hkv
  exact congrFun (e1.trans (e2.trans e3)) (ix3 b n cc)

end Cert.KernelIdeal.Hand

end
-- ==== Proof.Out1Struct.lean ====
/-
  The second region's result array, structurally, at any float instance. The output window is written back at the last
  point of each query tile; its blocks (batch `b`, query tile `i1`) tile the result array, so entry `(b, 1024·i1 + r, d)`
  of the final array is entry `(0, r, d)` of what the last point `16·b + 4·i1 + 3` left in the staging buffer: the output
  function of the scratch after that point, which is the fold of the tile's four points' updates. And each window's
  block at a point of the tile reads the region's entry arrays: the query block rows `1024·i1 + r` of batch `b` of `x`, the
  weight block the whole padded weight, the key|value block batch `b` of the key|value array.
-/
import proofs.«423627_j86199993631020_3_alg».proof.Proof.Region1
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable {F : FTy → Type} [FloatOps F]

variable (V : (c : Dev nD) → (b : Ref sig .tc) → Buf (Elt F) ((c : Thread nD τ).loc b))

/-- Point `16·b + 4·i1 + j` of the grid: batch `b`, query tile `i1`, key|value tile `j`. -/
def pt (b i1 j : Fin 4) : Fin cfg1.N := ⟨16 * b.val + 4 * i1.val + j.val, lt_of_lt_of_eq (by omega : 16 * b.val + 4 * i1.val + j.val < 64) N_1.symm⟩
/-- Row `1024·i1 + r` of the 4096. -/
def rowOf (i1 : Fin 4) (r : Fin 1024) : Fin 4096 := ⟨1024 * i1.val + r.val, by omega⟩

/-- The number of point `pt b i1 j`. -/
theorem pt_val (b i1 j : Fin 4) : (pt b i1 j).val = 16 * b.val + 4 * i1.val + j.val := rfl

/-- The innermost coordinate of point `pt b i1 j` is `j`. -/
theorem coords_pt (b i1 j : Fin 4) : (grid1.coords (pt b i1 j) 2).val = j.val := by
  rw [coordJ, pt_val]; omega

/-- One step of the fold between two consecutive points. -/
theorem scrAt_next (c : Dev nD) (d : Scr F) (t t' : Fin cfg1.N) (h : t'.val = t.val + 1) :
    scrAt V c d (t'.val + 1)
      = stepScr (grid1.coords t') (xblk1 V c t') (wblk1 V c t') (kvblk1 V c t') (scrAt V c d (t.val + 1)) := by
  rw [scrAt_succ, h]

/-- The scratch after the last point of a query tile is the fold of the tile's four points from what the tile found. -/
theorem scrAt_tile (c : Dev nD) (d : Scr F) (b i1 : Fin 4) :
    scrAt V c d ((pt b i1 3).val + 1)
      = stepScr (grid1.coords (pt b i1 3)) (xblk1 V c (pt b i1 3)) (wblk1 V c (pt b i1 3)) (kvblk1 V c (pt b i1 3))
          (stepScr (grid1.coords (pt b i1 2)) (xblk1 V c (pt b i1 2)) (wblk1 V c (pt b i1 2)) (kvblk1 V c (pt b i1 2))
            (stepScr (grid1.coords (pt b i1 1)) (xblk1 V c (pt b i1 1)) (wblk1 V c (pt b i1 1)) (kvblk1 V c (pt b i1 1))
              (stepScr (grid1.coords (pt b i1 0)) (xblk1 V c (pt b i1 0)) (wblk1 V c (pt b i1 0)) (kvblk1 V c (pt b i1 0))
                (scrAt V c d (pt b i1 0).val)))) := by
  rw [scrAt_next V c d (pt b i1 2) (pt b i1 3) rfl, scrAt_next V c d (pt b i1 1) (pt b i1 2) rfl,
    scrAt_next V c d (pt b i1 0) (pt b i1 1) rfl, scrAt_succ V c d (pt b i1 0)]

/-- The windows' block indices at point `t`: the query and result windows move with the batch
    `t / 16` and the query tile `(t / 4) mod 4`, the key|value window with the batch only, the weight window not at all. -/
theorem idx1_0 : ∀ t : Fin cfg1.N, win1_0.index t (0 : Fin 3) = t.val / 16 ∧ win1_0.index t (1 : Fin 3) = t.val / 4 % 4
    ∧ win1_0.index t (2 : Fin 3) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 3) = t.val / 16 ∧ win1_2.index t (1 : Fin 3) = 0
    ∧ win1_2.index t (2 : Fin 3) = 0 :=
  (by decide +kernel : ∀ t : Fin grid1.N, _)
theorem idx1_3 : ∀ t : Fin cfg1.N, win1_3.index t (0 : Fin 3) = t.val / 16 ∧ win1_3.index t (1 : Fin 3) = t.val / 4 % 4
    ∧ win1_3.index t (2 : Fin 3) = 0 :=
  (by decide +kernel : ∀ t : Fin grid1.N, _)

/-- The query block at a point of tile `(b, i1)` reads rows `1024·i1 + r` of batch `b` of the region's first array. -/
theorem xblk1_apply (c : Dev nD) (b i1 j : Fin 4) (r : Fin 1024) (i : Fin 256) :
    xblk1 V c (pt b i1 j) (ix3 (0 : Fin 1) r i) = (V c main_arg0 : S4x4096x256.Idx → Elt F .f32) (ix3 b (rowOf i1 r) i) := by
  obtain ⟨e0, e1, e2⟩ := idx1_0 (pt b i1 j)
  have hp := pt_val b i1 j
  show (V c main_arg0 : S4x4096x256.Idx → Elt F .f32) (((cfg1.win 0).blk (pt b i1 j)).view.emb (ix3 (0 : Fin 1) r i)) = _
  refine congrArg _ ?_
  funext a
  apply Fin.ext
  match a with
  | ⟨0, _⟩ => show win1_0.index (pt b i1 j) (0 : Fin 3) * 1 + 1 * ((0 : Fin 1) : Nat) = b.val; rw [e0, hp]; simp only [Fin.val_zero]; omega
  | ⟨1, _⟩ => show win1_0.index (pt b i1 j) (1 : Fin 3) * 1024 + 1 * r.val = 1024 * i1.val + r.val; rw [e1, hp]; omega
  | ⟨2, _⟩ => show win1_0.index (pt b i1 j) (2 : Fin 3) * 256 + 1 * i.val = i.val; rw [e2]; omega

/-- The weight block at any point is the whole padded query weight. -/
theorem wblk1_apply (c : Dev nD) (t : Fin cfg1.N) (i : Fin 256) (h : Fin 128) :
    wblk1 V c t (ix2 i h) = (V c main_v1 : S256x128.Idx → Elt F .f32) (ix2 i h) := by
  obtain ⟨e0, e1⟩ := idx1_1 t
  show (V c main_v1 : S256x128.Idx → Elt F .f32) (((cfg1.win 1).blk t).view.emb (ix2 i h)) = _
  refine congrArg _ ?_
  funext a
  apply Fin.ext
  match a with
  | ⟨0, _⟩ => show win1_1.index t (0 : Fin 2) * 256 + 1 * i.val = i.val; rw [e0]; omega
  | ⟨1, _⟩ => show win1_1.index t (1 : Fin 2) * 128 + 1 * h.val = h.val; rw [e1]; omega

/-- The key|value block at a point of batch `b` is batch `b` of the key|value array. -/
theorem kvblk1_apply (c : Dev nD) (b i1 j : Fin 4) (n : Fin 4096) (cc : Fin 128) :
    kvblk1 V c (pt b i1 j) (ix3 (0 : Fin 1) n cc) = (V c main_v0 : S4x4096x128.Idx → Elt F .bf16) (ix3 b n cc) := by
  obtain ⟨e0, e1, e2⟩ := idx1_2 (pt b i1 j)
  have hp := pt_val b i1 j
  show (V c main_v0 : S4x4096x128.Idx → Elt F .bf16) (((cfg1.win 2).blk (pt b i1 j)).view.emb (ix3 (0 : Fin 1) n cc)) = _
  refine congrArg _ ?_
  funext a
  apply Fin.ext
  match a with
  | ⟨0, _⟩ => show win1_2.index (pt b i1 j) (0 : Fin 3) * 1 + 1 * ((0 : Fin 1) : Nat) = b.val; rw [e0, hp]; simp only [Fin.val_zero]; omega
  | ⟨1, _⟩ => show win1_2.index (pt b i1 j) (1 : Fin 3) * 4096 + 1 * n.val = n.val; rw [e1]; omega
  | ⟨2, _⟩ => show win1_2.index (pt b i1 j) (2 : Fin 3) * 128 + 1 * cc.val = cc.val; rw [e2]; omega

/-- Two different write-back points' blocks are disjoint: they differ in batch or in query tile. -/
theorem blk3_disjoint (t t' : Fin cfg1.N) (hf : (cfg1.win 3).flush t = true) (hf' : (cfg1.win 3).flush t' = true) (hne : t ≠ t') :
    Disjoint ((cfg1.win 3).blk t).view.set ((cfg1.win 3).blk t').view.set := by
  have h3 := (flush1_3 t).mp hf
  have h3' := (flush1_3 t').mp hf'
  have hv : t.val ≠ t'.val := fun e => hne (Fin.ext e)
  obtain ⟨e0, e1, e2⟩ := idx1_3 t
  obtain ⟨e0', e1', e2'⟩ := idx1_3 t'
  show Disjoint ((View.whole main_v2).slice (win1_3.rect t)).set ((View.whole main_v2).slice (win1_3.rect t')).set
  rw [View.set_slice_whole, View.set_slice_whole]
  by_cases hb : t.val / 16 = t'.val / 16
  · refine Rect.unit_disjoint (1 : Fin 3) ?_
    show win1_3.index t (1 : Fin 3) * 1024 + 1024 ≤ win1_3.index t' (1 : Fin 3) * 1024
      ∨ win1_3.index t' (1 : Fin 3) * 1024 + 1024 ≤ win1_3.index t (1 : Fin 3) * 1024
    rw [e1, e1']; omega
  · refine Rect.unit_disjoint (0 : Fin 3) ?_
    show win1_3.index t (0 : Fin 3) * 1 + 1 ≤ win1_3.index t' (0 : Fin 3) * 1
      ∨ win1_3.index t' (0 : Fin 3) * 1 + 1 ≤ win1_3.index t (0 : Fin 3) * 1
    rw [e0, e0']; omega

/-- The final result array at entry `(b, 1024·i1 + r, d)` is the output block the tile's last point left, at `(0, r, d)`. -/
theorem arrAt1_3_apply (c : Dev nD) (b i1 : Fin 4) (r : Fin 1024) (d : Fin 64) :
    ((dat1 V c).arrAt 3 cfg1.N : S4x4096x64.Idx → Elt F .f32) (ix3 b (rowOf i1 r) d)
      = stepO (scrAt V c (scr0 (F := F)) ((pt b i1 3).val + 1)).a (scrAt V c (scr0 (F := F)) ((pt b i1 3).val + 1)).l (ix3 (0 : Fin 1) r d) := by
  have hp := pt_val b i1 3
  have hf : (cfg1.win 3).flush (pt b i1 3) = true := (flush1_3 _).mpr (by show (16 * b.val + 4 * i1.val + 3) % 4 = 3; omega)
  obtain ⟨e0, e1, e2⟩ := idx1_3 (pt b i1 3)
  have hemb : ((cfg1.win 3).blk (pt b i1 3)).view.emb (ix3 (0 : Fin 1) r d) = (ix3 b (rowOf i1 r) d : S4x4096x64.Idx) := by
    funext a
    apply Fin.ext
    match a with
    | ⟨0, _⟩ => show win1_3.index (pt b i1 3) (0 : Fin 3) * 1 + 1 * ((0 : Fin 1) : Nat) = b.val; rw [e0, hp]; simp only [Fin.val_zero]; omega
    | ⟨1, _⟩ => show win1_3.index (pt b i1 3) (1 : Fin 3) * 1024 + 1 * r.val = 1024 * i1.val + r.val; rw [e1, hp]; omega
    | ⟨2, _⟩ => show win1_3.index (pt b i1 3) (2 : Fin 3) * 64 + 1 * d.val = d.val; rw [e2]; omega
  have h := (dat1 V c).arrAt_emb_eq_flushed 3 (blk3_disjoint) (pt b i1 3) hf (ix3 (0 : Fin 1) r d)
  rw [hemb] at h
  refine h.trans ?_
  show (cfg1.win 3).cut (grid1.coords (pt b i1 3)) ((dat1 V c).after 3 (pt b i1 3)) (ix3 (0 : Fin 1) r d) = _
  rw [after1_3]
  rfl

end Cert.KernelIdeal.Hand

end
-- ==== Proof.Out1Num.lean ====
/-
  The attention body's arithmetic at the ideal instance, for one query tile. Every entry of the query block, of the padded
  query weight (its upper 64 columns zero) and of the key|value block a real number: the reset makes the scaled query
  `q = (x · Wq) / 8` with upper 64 lanes zero, so the 128-lane contraction of `q` with a key|value row is the 64-lane score
  `(q · k) / 8`; each of the four tiles updates the running shift (a real, whatever it is), the running normaliser and the
  running numerator exactly as `Cert.Attn.lnext` / `anext` do, from zero; and the output is the numerator's value half
  times the reciprocal of the (positive) normaliser: by `Cert.Attn.online4` and `sum_tiles` the exp-weighted mean of the
  values over all 4096 keys.
-/
import proofs.«423627_j86199993631020_3_alg».proof.Proof.Region1Defs
import proofs.«423627_j86199993631020_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Attn
open scoped BigOperators

namespace Num

/-! ## The key|value tile without its unit axis -/

theorem pay8_apply (v6 : Vec Ideal S1x1024x128 .bf16) (n : Fin 1024) (c : Fin 128) :
    k1_pay8 v6 (ix2 n c) = v6 (ix3 (0 : Fin 1) n c) := by
  unfold k1_pay8
  exact shapeCast_1ab_ab_apply v6 shapeCasts_S1x1024x128_S1024x128 n c

/-! ## The scores: a contraction over axis 1 of both operands -/

theorem lhs_pay9_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_pay9_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem rhs_pay9_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_pay9_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- Entry `(r, n)` of the scores: the 128-lane contraction of query row `r` with key|value row `n` of the tile. -/
theorem pay9_apply (v6 : Vec Ideal S1x1024x128 .bf16) (v8 : Vec Ideal S1024x128 .bf16) (r n : Fin 1024) :
    k1_pay9 v6 v8 (ix2 r n) = ∑ dq : Fin 128, v8 (ix2 r dq) * v6 (ix3 (0 : Fin 1) n dq) := by
  unfold k1_pay9
  refine (Ideal.matmul_constant_zero_apply dot_S1024x128_S1024x128_S1024x1024_1_1_0_0_n_n none v8 (k1_pay8 v6) (ix2 r n)).trans ?_
  rw [← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 r n) ((contrEquiv1 dot_S1024x128_S1024x128_S1024x1024_1_1_0_0_n_n 128 rfl rfl).symm k) = ix2 r k := funext fun a => Fin.ext (by
    match a with
    | ⟨0, _⟩ => exact lhs_pay9_0 _ _
    | ⟨1, _⟩ => exact (lhs_pay9_1 _ _).trans hk)
  have er : dot_S1024x128_S1024x128_S1024x1024_1_1_0_0_n_n.rhsIdx (ix2 r n) ((contrEquiv1 dot_S1024x128_S1024x128_S1024x1024_1_1_0_0_n_n 128 rfl rfl).symm k) = ix2 n k := funext fun a => Fin.ext (by
    match a with
    | ⟨0, _⟩ => exact rhs_pay9_0 _ _
    | ⟨1, _⟩ => exact (rhs_pay9_1 _ _).trans hk)
  rw [el, er, pay8_apply]

/-! ## Two column forms of layout operations, read at coordinates -/

/-- A vector `[a]` cast to a column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along `b` lanes reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the lanes of a `1024 × 1024` array, at row `r` -/

/-- Row `r` with lane `n` put back is the index `(r, n)`. -/
theorem lift_row (r n : Fin 1024) : reduces_S1024x1024_S1024.lift (ix1 r) n = ix2 r n :=
  funext fun a => Fin.ext (by match a with | ⟨0, _⟩ => rfl | ⟨1, _⟩ => rfl)

/-- The lane maximum of row `r`, started from the accumulator's value, as a fold over the 1024 lanes. -/
theorem rowmax_apply (src : FVec Ideal S1024x1024 .f32) (r : Fin 1024) :
    multiReduction (F := Ideal) .maximumf [1] S1024 src 0xFF800000#32 reduces_S1024x1024_S1024 (.inl rfl) rfl (ix1 r)
      = (Finset.univ : Finset (Fin 1024)).fold max (Ideal.ofBits .f32 0xFF800000#32) (fun n => src (ix2 r n)) := by
  refine (Ideal.multiReduction_maximumf_single src 0xFF800000#32 reduces_S1024x1024_S1024 (.inl rfl) rfl (ix1 r)).trans ?_
  exact congrArg (fun f => (Finset.univ : Finset (Fin 1024)).fold max (Ideal.ofBits .f32 0xFF800000#32) f)
    (funext fun n => congrArg src (lift_row r n))

/-- The lane sum of row `r`. -/
theorem rowsum_apply (src : FVec Ideal S1024x1024 .f32) (r : Fin 1024) :
    multiReduction (F := Ideal) .add [1] S1024 src 0x00000000#32 reduces_S1024x1024_S1024 (.inl rfl) rfl (ix1 r)
      = ∑ n : Fin 1024, src (ix2 r n) := by
  refine (Ideal.multiReduction_add_single src 0x00000000#32 reduces_S1024x1024_S1024 (.inl rfl) rfl (ix1 r)).trans ?_
  exact Finset.sum_congr rfl fun n _ => congrArg src (lift_row r n)

/-! ## The running shift, the rescaling factor, the weights, the normaliser -/

theorem pay10_apply (v6 : Vec Ideal S1x1024x128 .bf16) (v8 : Vec Ideal S1024x128 .bf16) (v10 : Vec Ideal S1024x1 .f32) (r : Fin 1024) (u : Fin 1) :
    k1_pay10 v6 v8 v10 (ix2 r u)
      = max (v10 (ix2 r u)) ((Finset.univ : Finset (Fin 1024)).fold max (Ideal.ofBits .f32 0xFF800000#32) (fun n => k1_pay9 v6 v8 (ix2 r n))) := by
  unfold k1_pay10
  refine (maximumf_apply _ _ _).trans ?_
  refine congrArg (max (v10 (ix2 r u))) ?_
  refine (shapeCast_a_a1_apply _ shapeCasts_S1024_S1024x1 r u).trans ?_
  exact rowmax_apply (k1_pay9 v6 v8) r

theorem pay11_apply (v6 : Vec Ideal S1x1024x128 .bf16) (v8 : Vec Ideal S1024x128 .bf16) (v10 : Vec Ideal S1024x1 .f32) (r : Fin 1024) (u : Fin 1) :
    k1_pay11 v6 v8 v10 (ix2 r u) = Ideal.exp (v10 (ix2 r u) - k1_pay10 v6 v8 v10 (ix2 r u)) := rfl

theorem pay12_apply (v6 : Vec Ideal S1x1024x128 .bf16) (v8 : Vec Ideal S1024x128 .bf16) (v10 : Vec Ideal S1024x1 .f32) (r n : Fin 1024) :
    k1_pay12 v6 v8 v10 (ix2 r n) = Ideal.exp (k1_pay9 v6 v8 (ix2 r n) - k1_pay10 v6 v8 v10 (ix2 r (0 : Fin 1))) := by
  unfold k1_pay12
  exact congrArg (fun z => Ideal.exp (k1_pay9 v6 v8 (ix2 r n) - z))
    (broadcastTo_a1_ab_apply (k1_pay10 v6 v8 v10) broadcasts_S1024x1_S1024x1024 r n)

theorem pay13_apply (v6 : Vec Ideal S1x1024x128 .bf16) (v8 : Vec Ideal S1024x128 .bf16) (v10 v19 : Vec Ideal S1024x1 .f32) (r : Fin 1024) (u : Fin 1) :
    k1_pay13 v6 v8 v10 v19 (ix2 r u)
      = k1_pay11 v6 v8 v10 (ix2 r u) * v19 (ix2 r u) + ∑ n : Fin 1024, k1_pay12 v6 v8 v10 (ix2 r n) := by
  unfold k1_pay13
  refine (congrFun (shapeCast_self _ shapeCasts_S1024x1_S1024x1) (ix2 r u)).trans ?_
  refine (addf_apply _ _ _).trans ?_
  refine congrArg₂ (· + ·) (mulf_apply _ _ _) ?_
  refine (shapeCast_a_a1_apply _ shapeCasts_S1024_S1024x1 r u).trans ?_
  exact rowsum_apply (k1_pay12 v6 v8 v10) r

/-! ## The weights times the tile: a contraction of the lanes with the tile's rows -/

theorem lhs_pay14_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_pay14_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_pay14_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_pay14_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- Entry `(r, c)` of weights times tile: the sum over the tile's 1024 rows. -/
theorem pv_apply (p : FVec Ideal S1024x1024 .bf16) (t : FVec Ideal S1024x128 .bf16) (r : Fin 1024) (c : Fin 128) :
    matmul dot_S1024x1024_S1024x128_S1024x128_1_0_0_1_n_n none p t (constant (F := Ideal) S1024x128 .f32 0x00000000#32) (ix2 r c)
      = ∑ n : Fin 1024, p (ix2 r n) * t (ix2 n c) := by
  refine (Ideal.matmul_constant_zero_apply dot_S1024x1024_S1024x128_S1024x128_1_0_0_1_n_n none p t (ix2 r c)).trans ?_
  rw [← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 r c) ((contrEquiv1 dot_S1024x1024_S1024x128_S1024x128_1_0_0_1_n_n 1024 rfl rfl).symm k) = ix2 r k := funext fun a => Fin.ext (by
    match a with
    | ⟨0, _⟩ => exact lhs_pay14_0 _ _
    | ⟨1, _⟩ => exact (lhs_pay14_1 _ _).trans hk)
  have er : dot_S1024x1024_S1024x128_S1024x128_1_0_0_1_n_n.rhsIdx (ix2 r c) ((contrEquiv1 dot_S1024x1024_S1024x128_S1024x128_1_0_0_1_n_n 1024 rfl rfl).symm k) = ix2 k c := funext fun a => Fin.ext (by
    match a with
    | ⟨0, _⟩ => exact (rhs_pay14_0 _ _).trans hk
    | ⟨1, _⟩ => exact rhs_pay14_1 _ _)
  rw [el, er]

theorem pay14_apply (v6 : Vec Ideal S1x1024x128 .bf16) (v8 : Vec Ideal S1024x128 .bf16) (v10 : Vec Ideal S1024x1 .f32) (v27 : Vec Ideal S1024x128 .f32)
    (r : Fin 1024) (c : Fin 128) :
    k1_pay14 v6 v8 v10 v27 (ix2 r c)
      = k1_pay11 v6 v8 v10 (ix2 r (0 : Fin 1)) * v27 (ix2 r c) + ∑ n : Fin 1024, k1_pay12 v6 v8 v10 (ix2 r n) * v6 (ix3 (0 : Fin 1) n c) := by
  unfold k1_pay14
  refine (addf_apply _ _ _).trans ?_
  refine congrArg₂ (· + ·) ?_ ?_
  · refine (mulf_apply _ _ _).trans ?_
    exact congrArg (· * v27 (ix2 r c)) (broadcastTo_a1_ab_apply (k1_pay11 v6 v8 v10) broadcasts_S1024x1_S1024x128 r c)
  · refine (pv_apply (truncf .bf16 (k1_pay12 v6 v8 v10) bitsLt_bf16_f32) (k1_pay8 v6) r c).trans ?_
    exact Finset.sum_congr rfl fun n _ => congrArg (k1_pay12 v6 v8 v10 (ix2 r n) * ·) (pay8_apply v6 n c)

/-! ## The query projection: a contraction of the query block's lanes with the weight's rows -/

theorem lhs_pay4_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem lhs_pay4_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem rhs_pay4_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem rhs_pay4_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- Entry `(r, dq)` of query block times weight: the sum over the 256 input lanes. -/
theorem xw_apply (a : FVec Ideal S1024x256 .bf16) (b : FVec Ideal S256x128 .bf16) (r : Fin 1024) (dq : Fin 128) :
    matmul dot_S1024x256_S256x128_S1024x128_1_0_0_1_n_n none a b (constant (F := Ideal) S1024x128 .f32 0x00000000#32) (ix2 r dq)
      = ∑ i : Fin 256, a (ix2 r i) * b (ix2 i dq) := by
  refine (Ideal.matmul_constant_zero_apply dot_S1024x256_S256x128_S1024x128_1_0_0_1_n_n none a b (ix2 r dq)).trans ?_
  rw [← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  have el : dot_S1024x256_S256x128_S1024x128_1_0_0_1_n_n.lhsIdx (ix2 r dq) ((contrEquiv1 dot_S1024x256_S256x128_S1024x128_1_0_0_1_n_n 256 rfl rfl).symm k) = ix2 r k := funext fun a => Fin.ext (by
    match a with
    | ⟨0, _⟩ => exact lhs_pay4_0 _ _
    | ⟨1, _⟩ => exact (lhs_pay4_1 _ _).trans hk)
  have er : dot_S1024x256_S256x128_S1024x128_1_0_0_1_n_n.rhsIdx (ix2 r dq) ((contrEquiv1 dot_S1024x256_S256x128_S1024x128_1_0_0_1_n_n 256 rfl rfl).symm k) = ix2 k dq := funext fun a => Fin.ext (by
    match a with
    | ⟨0, _⟩ => exact (rhs_pay4_0 _ _).trans hk
    | ⟨1, _⟩ => exact rhs_pay4_1 _ _)
  rw [el, er]

/-- The reset query at `(r, dq)`: the projection times the scale constant. -/
theorem pay4_apply (v42 : Vec Ideal S1x1024x256 .f32) (v45 : Vec Ideal S256x128 .f32) (r : Fin 1024) (dq : Fin 128) :
    k1_pay4 v42 v45 (ix2 r dq)
      = (∑ i : Fin 256, v42 (ix3 (0 : Fin 1) r i) * v45 (ix2 i dq)) * Ideal.ofBits .f32 0x3E000000#32 := by
  unfold k1_pay4
  refine (congrFun (shapeCast_self _ shapeCasts_S1024x128_S1024x128) (ix2 r dq)).trans ?_
  refine (mulf_apply _ _ _).trans ?_
  refine congrArg₂ (· * ·) ?_ rfl
  refine (xw_apply _ _ r dq).trans ?_
  refine Finset.sum_congr rfl fun i _ => congrArg₂ (· * ·) ?_ ?_
  · exact shapeCast_1ab_ab_apply v42 shapeCasts_S1x1024x256_S1024x256 r i
  · exact congrFun (shapeCast_self v45 shapeCasts_S256x128_S256x128) (ix2 i dq)

/-! ## The output: the numerator's value half times the reciprocal of the normaliser -/

theorem pay3_apply (v42 : Vec Ideal S1024x128 .f32) (v43 : Vec Ideal S1024x1 .f32) (r : Fin 1024) (d : Fin 64) :
    k1_pay3 v42 v43 (ix3 (0 : Fin 1) r d)
      = v42 (ix2 r (valCol d)) * Ideal.div (Ideal.ofBits .f32 0x3F800000#32) (v43 (ix2 r (0 : Fin 1))) := by
  unfold k1_pay3
  refine (shapeCast_ab_1ab_apply _ shapeCasts_S1024x64_S1x1024x64 (0 : Fin 1) r d).trans ?_
  refine (mulf_apply _ _ _).trans ?_
  refine congrArg₂ (· * ·) ?_ ?_
  · exact slice2_axis1_apply 64 v42 slices_S1024x128_o0_64_S1024x64 r d (valCol d) rfl
  · exact broadcastTo_a1_ab_apply _ broadcasts_S1024x1_S1024x64 r d

/-! ## The reset constants, and the stores that change nothing -/

theorem pay1_eq (v : FVec Ideal S1024x128 .f32) : k1_pay1 (F := Ideal) v = v := shapeCast_self v shapeCasts_S1024x128_S1024x128
theorem pay2_eq (v : FVec Ideal S1024x1 .f32) : k1_pay2 (F := Ideal) v = v := shapeCast_self v shapeCasts_S1024x1_S1024x1
theorem pay5_apply (i : S1024x1.Idx) : k1_pay5 (F := Ideal) i = Ideal.ofBits .f32 0xFF333332#32 := by
  unfold k1_pay5
  exact congrFun (shapeCast_self (broadcast S1024x1 (Scalar.ofBits (F := Ideal) .f32 0xFF333332#32)) shapeCasts_S1024x1_S1024x1) i
theorem pay6_apply (i : S1024x1.Idx) : k1_pay6 (F := Ideal) i = Ideal.ofBits .f32 0x00000000#32 := by
  unfold k1_pay6
  exact congrFun (shapeCast_self (broadcast S1024x1 (Scalar.ofBits (F := Ideal) .f32 0x00000000#32)) shapeCasts_S1024x1_S1024x1) i
theorem pay7_apply (i : S1024x128.Idx) : k1_pay7 (F := Ideal) i = Ideal.ofBits .f32 0x00000000#32 := by
  unfold k1_pay7
  exact congrFun (shapeCast_self (broadcast S1024x128 (Scalar.ofBits (F := Ideal) .f32 0x00000000#32)) shapeCasts_S1024x128_S1024x128) i

/-! ## The loads: whole buffers, and tile `j` of the key|value block -/

theorem zero2 : (![0, 0] : Fin 2 → Nat) = fun _ => 0 := funext fun a => by match a with | ⟨0, _⟩ => rfl | ⟨1, _⟩ => rfl
theorem zero3 : (![0, 0, 0] : Fin 3 → Nat) = fun _ => 0 := funext fun a => by match a with | ⟨0, _⟩ => rfl | ⟨1, _⟩ => rfl | ⟨2, _⟩ => rfl

theorem ld_rx1 (X : Vec Ideal S1x1024x256 .f32) : View.ld X rx1 = X := View.ld_unit_zero (S := S1x1024x256) zero3 _ X
theorem ld_rwq1 (X : Vec Ideal S256x128 .f32) : View.ld X rwq1 = X := View.ld_unit_zero (S := S256x128) zero2 _ X
theorem ld_rq1 {e : EltTy} (X : Vec Ideal S1024x128 e) : View.ld X rq1 = X := View.ld_unit_zero (S := S1024x128) zero2 _ X
theorem ld_rm1 (X : Vec Ideal S1024x1 .f32) : View.ld X rm1 = X := View.ld_unit_zero (S := S1024x1) zero2 _ X

/-- The tile the point with innermost coordinate `j` loads: rows `1024 j … 1024 j + 1023` of the key|value block. -/
theorem ld_rkv1 (i : grid1.Coords) (j : Fin 4) (hj : (i 2).val = j.val) (kvb : Vec Ideal S1x4096x128 .bf16) (n : Fin 1024) (c : Fin 128) :
    View.ld kvb (rkv1 i) (ix3 (0 : Fin 1) n c) = kvb (ix3 (0 : Fin 1) (tileCol j n) c) := by
  refine congrArg kvb (funext fun a => Fin.ext ?_)
  have e0 : k1_off1 i 0 = 0 := congrFun (k1_off1_eq i) 0
  have e1 : k1_off1 i 1 = 1024 * (i 2).val := congrFun (k1_off1_eq i) 1
  have e2 : k1_off1 i 2 = 0 := congrFun (k1_off1_eq i) 2
  match a with
  | ⟨0, _⟩ => show k1_off1 i 0 + 1 * 0 = 0; omega
  | ⟨1, _⟩ => show k1_off1 i 1 + 1 * n.val = 1024 * j.val + n.val; omega
  | ⟨2, _⟩ => show k1_off1 i 2 + 1 * c.val = c.val; omega

/-! ## Extended reals that are real numbers; the constants; the padded lanes -/

theorem ofBits_eighth : Ideal.ofBits .f32 0x3E000000#32 = ((1 / 8 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

theorem ofBits_shift0 : ∃ m0 : ℝ, Ideal.ofBits .f32 0xFF333332#32 = ((m0 : ℝ) : EReal) := by
  refine ⟨-(11744050 * 2 ^ 104), ?_⟩
  simp [Ideal.ofBits, Ideal.ieee, -EReal.coe_mul]

theorem sum_coe {ι : Type} (s : Finset ι) (f : ι → ℝ) : ∑ i ∈ s, ((f i : ℝ) : EReal) = ((∑ i ∈ s, f i : ℝ) : EReal) := by
  classical
  refine Finset.induction_on s (by rw [Finset.sum_empty, Finset.sum_empty, EReal.coe_zero]) (fun a s ha ih => ?_)
  rw [Finset.sum_insert ha, Finset.sum_insert ha, ih, EReal.coe_add]

theorem fold_max_real {ι : Type} (s : Finset ι) (hs : s.Nonempty) (f : ι → ℝ) :
    ∃ M : ℝ, s.fold max (⊥ : EReal) (fun i => ((f i : ℝ) : EReal)) = ((M : ℝ) : EReal) := by
  induction hs using Finset.Nonempty.cons_induction with
  | singleton a => exact ⟨f a, by rw [Finset.fold_singleton, max_eq_left bot_le]⟩
  | cons a s ha hs ih =>
    obtain ⟨M, hM⟩ := ih
    exact ⟨max (f a) M, by rw [Finset.fold_cons, hM]; exact (EReal.coe_strictMono.monotone.map_max).symm⟩

theorem sum_lower_lanes (f : Fin 128 → ℝ) (hf : ∀ dq : Fin 128, 64 ≤ dq.val → f dq = 0) :
    ∑ dq : Fin 128, f dq = ∑ h : Fin 64, f (keyCol h) := by
  refine (Fin.sum_univ_add (a := 64) (b := 64) f).trans ?_
  have h2 : ∑ i : Fin 64, f (Fin.natAdd 64 i) = 0 := Finset.sum_eq_zero fun i _ => hf _ (Nat.le_add_right 64 i.val)
  rw [h2, add_zero]
  exact Finset.sum_congr rfl fun h _ => congrArg f (Fin.ext rfl)

theorem score_lanes (xr : Fin 256 → ℝ) (wp : Fin 256 → Fin 128 → ℝ) (hwz : ∀ i (h : Fin 128), 64 ≤ h.val → wp i h = 0)
    (kvrow : Fin 128 → ℝ) :
    ∑ dq : Fin 128, ((∑ i, xr i * wp i dq) * (1 / 8)) * kvrow dq
      = (∑ h : Fin 64, (∑ i, xr i * wp i (keyCol h)) * kvrow (keyCol h)) / 8 := by
  rw [sum_lower_lanes _ (fun dq hdq => by
    have hz : ∑ i, xr i * wp i dq = 0 := Finset.sum_eq_zero fun i _ => by rw [hwz i dq hdq, mul_zero]
    rw [hz, zero_mul, zero_mul]), Finset.sum_div]
  exact Finset.sum_congr rfl fun h _ => by ring

/-! ## One tile folded into the running quantities, at a row where everything is a real number -/

/-- With the tile's entries, the query row, the running shift, normaliser and numerator real at row `r`, and `sc n` the
    contraction of the query row with the tile's row `n`: the new shift is SOME real `m'`, and the new normaliser and
    numerator are `lnext` and `anext` of the old ones under the move of the shift from `mm` to `m'`. -/
theorem tile_real (T : Vec Ideal S1x1024x128 .bf16) (q : Vec Ideal S1024x128 .bf16) (m l : Vec Ideal S1024x1 .f32)
    (a : Vec Ideal S1024x128 .f32) (r : Fin 1024) (qre : Fin 128 → ℝ) (tv : Fin 1024 → Fin 128 → ℝ) (sc : Fin 1024 → ℝ)
    (mm ll : ℝ) (aa : Fin 128 → ℝ)
    (hT : ∀ n c, T (ix3 (0 : Fin 1) n c) = ((tv n c : ℝ) : EReal))
    (hsc : ∀ n, ∑ dq : Fin 128, qre dq * tv n dq = sc n)
    (hq : ∀ dq, q (ix2 r dq) = ((qre dq : ℝ) : EReal)) (hm : m (ix2 r (0 : Fin 1)) = ((mm : ℝ) : EReal))
    (hl : l (ix2 r (0 : Fin 1)) = ((ll : ℝ) : EReal)) (ha : ∀ c, a (ix2 r c) = ((aa c : ℝ) : EReal)) :
    ∃ m' : ℝ, k1_pay10 T q m (ix2 r (0 : Fin 1)) = ((m' : ℝ) : EReal)
      ∧ k1_pay13 T q m l (ix2 r (0 : Fin 1)) = ((lnext mm m' ll sc : ℝ) : EReal)
      ∧ ∀ c, k1_pay14 T q m a (ix2 r c) = ((anext mm m' (aa c) sc (fun n => tv n c) : ℝ) : EReal) := by
  -- the scores of row r are real
  have hs : ∀ n, k1_pay9 T q (ix2 r n) = ((sc n : ℝ) : EReal) := fun n => by
    rw [pay9_apply, ← hsc n, ← sum_coe]
    exact Finset.sum_congr rfl fun dq _ => by rw [hq, hT, EReal.coe_mul]
  -- their maximum over the tile, started from -∞, is a real; so is its maximum with the old shift
  obtain ⟨M, hM⟩ := fold_max_real (Finset.univ : Finset (Fin 1024)) Finset.univ_nonempty sc
  have h10 : k1_pay10 T q m (ix2 r (0 : Fin 1)) = ((max mm M : ℝ) : EReal) := by
    rw [pay10_apply, hm, ofBits_neg_inf, show (fun n => k1_pay9 T q (ix2 r n)) = fun n => ((sc n : ℝ) : EReal) from funext hs, hM]
    exact (EReal.coe_strictMono.monotone.map_max).symm
  have h11 : k1_pay11 T q m (ix2 r (0 : Fin 1)) = ((Real.exp (mm - max mm M) : ℝ) : EReal) := by
    rw [pay11_apply, hm, h10, ← EReal.coe_sub, Ideal.exp_coe]
  have h12 : ∀ n, k1_pay12 T q m (ix2 r n) = ((Real.exp (sc n - max mm M) : ℝ) : EReal) := fun n => by
    rw [pay12_apply, hs, h10, ← EReal.coe_sub, Ideal.exp_coe]
  refine ⟨max mm M, h10, ?_, fun c => ?_⟩
  · rw [pay13_apply, h11, hl, ← EReal.coe_mul, Finset.sum_congr rfl fun n _ => h12 n, sum_coe, ← EReal.coe_add]
    rfl
  · rw [pay14_apply, h11, ha, ← EReal.coe_mul,
      Finset.sum_congr rfl fun n _ => show k1_pay12 T q m (ix2 r n) * T (ix3 (0 : Fin 1) n c)
        = ((Real.exp (sc n - max mm M) * tv n c : ℝ) : EReal) by rw [h12, hT, EReal.coe_mul],
      sum_coe, ← EReal.coe_add]
    rfl

/-- The same for the three updates a point makes, which read tile `j` of the resident key|value block. -/
theorem fold_real (i : grid1.Coords) (j : Fin 4) (hj : (i 2).val = j.val) (kvb : Vec Ideal S1x4096x128 .bf16)
    (kv : Fin 4096 → Fin 128 → ℝ) (hkv : ∀ n cc, kvb (ix3 (0 : Fin 1) n cc) = ((kv n cc : ℝ) : EReal))
    (q : Vec Ideal S1024x128 .bf16) (m l : Vec Ideal S1024x1 .f32) (a : Vec Ideal S1024x128 .f32)
    (r : Fin 1024) (qre : Fin 128 → ℝ) (S : Fin 4096 → ℝ) (hS : ∀ n, ∑ dq : Fin 128, qre dq * kv n dq = S n)
    (mm ll : ℝ) (aa : Fin 128 → ℝ)
    (hq : ∀ dq, q (ix2 r dq) = ((qre dq : ℝ) : EReal)) (hm : m (ix2 r (0 : Fin 1)) = ((mm : ℝ) : EReal))
    (hl : l (ix2 r (0 : Fin 1)) = ((ll : ℝ) : EReal)) (ha : ∀ c, a (ix2 r c) = ((aa c : ℝ) : EReal)) :
    ∃ m' : ℝ, stepM i kvb q m (ix2 r (0 : Fin 1)) = ((m' : ℝ) : EReal)
      ∧ stepL i kvb q m l (ix2 r (0 : Fin 1)) = ((lnext mm m' ll (fun n : Fin 1024 => S (tileCol j n)) : ℝ) : EReal)
      ∧ ∀ c, stepA i kvb q m a (ix2 r c)
          = ((anext mm m' (aa c) (fun n : Fin 1024 => S (tileCol j n)) (fun n => kv (tileCol j n) c) : ℝ) : EReal) := by
  unfold stepM stepL stepA
  rw [ld_rq1 q, ld_rm1 m, ld_rm1 l, ld_rq1 a, pay1_eq, pay2_eq]
  exact tile_real (View.ld kvb (rkv1 i)) q m l a r qre (fun n c => kv (tileCol j n) c) (fun n => S (tileCol j n)) mm ll aa
    (fun n c => (ld_rkv1 i j hj kvb n c).trans (hkv _ _)) (fun n => hS (tileCol j n)) hq hm hl ha

/-! ## The scratch at row `r`, across the points of a query tile -/

/-- The four scratch buffers read at row `r`: the query row `qre`, the shift `mm`, the normaliser `ll`, the numerator `aa`. -/
structure RowReal (s : Scr Ideal) (r : Fin 1024) (qre : Fin 128 → ℝ) (mm ll : ℝ) (aa : Fin 128 → ℝ) : Prop where
  q : ∀ dq, s.q (ix2 r dq) = ((qre dq : ℝ) : EReal)
  m : s.m (ix2 r (0 : Fin 1)) = ((mm : ℝ) : EReal)
  l : s.l (ix2 r (0 : Fin 1)) = ((ll : ℝ) : EReal)
  a : ∀ c, s.a (ix2 r c) = ((aa c : ℝ) : EReal)

/-- The reset query at row `r`: the projection of the query row, scaled by 1/8. -/
theorem stepQ_real (xb : Vec Ideal S1x1024x256 .f32) (wq : Vec Ideal S256x128 .f32)
    (xrow : Fin 1024 → Fin 256 → ℝ) (wp : Fin 256 → Fin 128 → ℝ)
    (hx : ∀ r i, xb (ix3 (0 : Fin 1) r i) = ((xrow r i : ℝ) : EReal)) (hw : ∀ i h, wq (ix2 i h) = ((wp i h : ℝ) : EReal))
    (r : Fin 1024) (dq : Fin 128) :
    stepQ xb wq (ix2 r dq) = (((∑ i, xrow r i * wp i dq) * (1 / 8) : ℝ) : EReal) := by
  unfold stepQ
  rw [ld_rx1 xb, ld_rwq1 wq, pay4_apply, ofBits_eighth, EReal.coe_mul, ← sum_coe]
  exact congrArg (· * (((1 / 8 : ℝ)) : EReal)) (Finset.sum_congr rfl fun i _ => by rw [hx, hw, EReal.coe_mul])

/-- The first point of a query tile, from any scratch contents: the reset, then tile 0 folded in from zero. -/
theorem first_real (i : grid1.Coords) (h0 : (i 2).val = 0) (xb : Vec Ideal S1x1024x256 .f32) (wq : Vec Ideal S256x128 .f32)
    (kvb : Vec Ideal S1x4096x128 .bf16) (s : Scr Ideal)
    (xrow : Fin 1024 → Fin 256 → ℝ) (wp : Fin 256 → Fin 128 → ℝ) (kv : Fin 4096 → Fin 128 → ℝ)
    (hx : ∀ r i, xb (ix3 (0 : Fin 1) r i) = ((xrow r i : ℝ) : EReal)) (hw : ∀ i h, wq (ix2 i h) = ((wp i h : ℝ) : EReal))
    (hkv : ∀ n cc, kvb (ix3 (0 : Fin 1) n cc) = ((kv n cc : ℝ) : EReal))
    (r : Fin 1024) (S : Fin 4096 → ℝ)
    (hS : ∀ n, ∑ dq : Fin 128, ((∑ i, xrow r i * wp i dq) * (1 / 8)) * kv n dq = S n) :
    ∃ m0 m1 : ℝ, RowReal (stepScr i xb wq kvb s) r (fun dq => (∑ i, xrow r i * wp i dq) * (1 / 8)) m1
      (lnext m0 m1 0 (fun n : Fin 1024 => S (tileCol 0 n)))
      (fun c => anext m0 m1 0 (fun n : Fin 1024 => S (tileCol 0 n)) (fun n => kv (tileCol 0 n) c)) := by
  obtain ⟨m0, hm0⟩ := ofBits_shift0
  have hq := stepQ_real xb wq xrow wp hx hw r
  obtain ⟨m1, hM, hL, hA⟩ := fold_real i 0 h0 kvb kv hkv (stepQ xb wq) (k1_pay5 (F := Ideal)) (k1_pay6 (F := Ideal)) (k1_pay7 (F := Ideal))
    r (fun dq => (∑ i, xrow r i * wp i dq) * (1 / 8)) S hS m0 0 (fun _ => 0) hq
    ((pay5_apply _).trans hm0) ((pay6_apply _).trans (Ideal.ofBits_zero_f32.trans EReal.coe_zero.symm))
    (fun c => (pay7_apply _).trans (Ideal.ofBits_zero_f32.trans EReal.coe_zero.symm))
  refine ⟨m0, m1, ?_⟩
  unfold stepScr
  rw [if_pos h0]
  exact ⟨hq, hM, hL, hA⟩

/-- A later point of a query tile: the query kept, tile `j` folded in. -/
theorem next_real (i : grid1.Coords) (j : Fin 4) (hj : (i 2).val = j.val) (hj0 : j.val ≠ 0) (xb : Vec Ideal S1x1024x256 .f32)
    (wq : Vec Ideal S256x128 .f32) (kvb : Vec Ideal S1x4096x128 .bf16) (s : Scr Ideal)
    (kv : Fin 4096 → Fin 128 → ℝ) (hkv : ∀ n cc, kvb (ix3 (0 : Fin 1) n cc) = ((kv n cc : ℝ) : EReal))
    (r : Fin 1024) (qre : Fin 128 → ℝ) (S : Fin 4096 → ℝ) (hS : ∀ n, ∑ dq : Fin 128, qre dq * kv n dq = S n)
    (mm ll : ℝ) (aa : Fin 128 → ℝ) (hs : RowReal s r qre mm ll aa) :
    ∃ m' : ℝ, RowReal (stepScr i xb wq kvb s) r qre m'
      (lnext mm m' ll (fun n : Fin 1024 => S (tileCol j n)))
      (fun c => anext mm m' (aa c) (fun n : Fin 1024 => S (tileCol j n)) (fun n => kv (tileCol j n) c)) := by
  obtain ⟨m', hM, hL, hA⟩ := fold_real i j hj kvb kv hkv s.q s.m s.l s.a r qre S hS mm ll aa hs.q hs.m hs.l hs.a
  refine ⟨m', ?_⟩
  unfold stepScr
  rw [if_neg (by omega)]
  exact ⟨hs.q, hM, hL, hA⟩

end Num

open Num

/-- Four points of one query tile run from any scratch contents, then the output block, read at row `r` and channel `d`. -/
theorem out_value (i0 i1 i2 i3 : grid1.Coords) (h0 : (i0 2).val = 0) (h1 : (i1 2).val = 1) (h2 : (i2 2).val = 2) (h3 : (i3 2).val = 3)
    (xb x1 x2 x3 : Vec Ideal S1x1024x256 .f32) (wq w1 w2 w3 : Vec Ideal S256x128 .f32)
    (kvb0 kvb1 kvb2 kvb3 : Vec Ideal S1x4096x128 .bf16) (s0 : Scr Ideal)
    (xrow : Fin 1024 → Fin 256 → ℝ) (wp : Fin 256 → Fin 128 → ℝ) (kv : Fin 4096 → Fin 128 → ℝ)
    (hx : ∀ r i, xb (ix3 (0 : Fin 1) r i) = ((xrow r i : ℝ) : EReal))
    (hw : ∀ i h, wq (ix2 i h) = ((wp i h : ℝ) : EReal)) (hwz : ∀ i (h : Fin 128), 64 ≤ h.val → wp i h = 0)
    (hkv0 : ∀ n cc, kvb0 (ix3 (0 : Fin 1) n cc) = ((kv n cc : ℝ) : EReal))
    (hkv1 : ∀ n cc, kvb1 (ix3 (0 : Fin 1) n cc) = ((kv n cc : ℝ) : EReal))
    (hkv2 : ∀ n cc, kvb2 (ix3 (0 : Fin 1) n cc) = ((kv n cc : ℝ) : EReal))
    (hkv3 : ∀ n cc, kvb3 (ix3 (0 : Fin 1) n cc) = ((kv n cc : ℝ) : EReal))
    (r : Fin 1024) (d : Fin 64) :
    stepO (stepScr i3 x3 w3 kvb3 (stepScr i2 x2 w2 kvb2 (stepScr i1 x1 w1 kvb1 (stepScr i0 xb wq kvb0 s0)))).a
          (stepScr i3 x3 w3 kvb3 (stepScr i2 x2 w2 kvb2 (stepScr i1 x1 w1 kvb1 (stepScr i0 xb wq kvb0 s0)))).l
        (ix3 (0 : Fin 1) r d)
      = ((wmean (fun n : Fin 4096 => (∑ h : Fin 64, (∑ i, xrow r i * wp i (keyCol h)) * kv n (keyCol h)) / 8)
          (fun n => kv n (valCol d)) : ℝ) : EReal) := by
  -- the score of row r against key n, and the 128-lane contraction that computes it
  let S : Fin 4096 → ℝ := fun n => (∑ h : Fin 64, (∑ i, xrow r i * wp i (keyCol h)) * kv n (keyCol h)) / 8
  have hS : ∀ n, ∑ dq : Fin 128, ((∑ i, xrow r i * wp i dq) * (1 / 8)) * kv n dq = S n :=
    fun n => score_lanes (xrow r) wp hwz (kv n)
  -- the scratch at row r after each of the four points: real, with SOME real shifts m0 … m4
  obtain ⟨m0, m1, H0⟩ := first_real i0 h0 xb wq kvb0 s0 xrow wp kv hx hw hkv0 r S hS
  obtain ⟨m2, H1⟩ := next_real i1 1 h1 (by decide) x1 w1 kvb1 _ kv hkv1 r _ S hS _ _ _ H0
  obtain ⟨m3, H2⟩ := next_real i2 2 h2 (by decide) x2 w2 kvb2 _ kv hkv2 r _ S hS _ _ _ H1
  obtain ⟨m4, H3⟩ := next_real i3 3 h3 (by decide) x3 w3 kvb3 _ kv hkv3 r _ S hS _ _ _ H2
  generalize stepScr i3 x3 w3 kvb3 (stepScr i2 x2 w2 kvb2 (stepScr i1 x1 w1 kvb1 (stepScr i0 xb wq kvb0 s0))) = sF at H3 ⊢
  -- the normaliser is positive after every tile
  have hL1 := lnext_pos m0 m1 0 le_rfl (fun n : Fin 1024 => S (tileCol 0 n))
  have hL2 := lnext_pos m1 m2 _ hL1.le (fun n : Fin 1024 => S (tileCol 1 n))
  have hL3 := lnext_pos m2 m3 _ hL2.le (fun n : Fin 1024 => S (tileCol 2 n))
  have hL4 := lnext_pos m3 m4 _ hL3.le (fun n : Fin 1024 => S (tileCol 3 n))
  -- the output: the numerator's value lane times the real reciprocal of the normaliser
  unfold stepO
  rw [ld_rq1 sF.a, ld_rm1 sF.l, pay3_apply, H3.a, H3.l, ofBits_one, Ideal.div_coe hL4.ne', ← EReal.coe_mul, ← EReal.coe_mul, one_mul]
  refine congrArg (fun z : ℝ => (z : EReal)) ?_
  -- four tiles accumulated under arbitrary shifts give the exp-weighted mean over all 4096 keys
  refine (online4 (C := Fin 1024) (fun (j : Fin 4) c => S (tileCol j c)) (fun (j : Fin 4) c => kv (tileCol j c) (valCol d)) m0 m1 m2 m3 m4).trans ?_
  unfold wmean
  rw [sum_tiles (fun n => Real.exp (S n) * kv n (valCol d)), sum_tiles (fun n => Real.exp (S n))]

end Cert.KernelIdeal.Hand

end
-- ==== Proof.KernelValue.lean ====
/-
  The idealized kernel's result, read at an index. Every argument entry a real number: entry `(b, 1024·i1 + r, d)` of the
  array the second region leaves is the output block the last point of query tile `(b, i1)` left, at `(0, r, d)`; that
  block is the output function of the scratch after the tile's four points; the blocks those points load read the
  query rows of `x`, the padded query weight and batch `b` of the key|value projection; and the four updates followed by
  the output are, over the reals, the exp-weighted mean of the values under the scores `(q · k) / 8`: `Cert.Attn.att`.
-/
import proofs.«423627_j86199993631020_3_alg».proof.Proof.Entry1
import proofs.«423627_j86199993631020_3_alg».proof.Proof.Out1Struct
import proofs.«423627_j86199993631020_3_alg».proof.Proof.Out1Num

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Attn
open scoped BigOperators

/-- Every row of the 4096 is row `r` of a query tile `i1`. -/
theorem exists_rowOf (r : Fin 4096) : ∃ (i1 : Fin 4) (r' : Fin 1024), r = rowOf i1 r' :=
  ⟨⟨r.val / 1024, by omega⟩, ⟨r.val % 1024, Nat.mod_lt _ (by norm_num)⟩, Fin.ext (by
    show r.val = 1024 * (r.val / 1024) + r.val % 1024
    omega)⟩

/-- The array the second region leaves, at entry `(b, r, d)`, is the coerced attention output. -/
theorem kernel_value (m : (ℓ : Loc nD τ sig) → Buf (Elt Ideal) ℓ) (c : Dev nD)
    (xr cr : Fin 4 → Fin 4096 → Fin 256 → ℝ) (wqr : Fin 256 → Fin 64 → ℝ) (wkvr : Fin 256 → Fin 128 → ℝ)
    (hx : ∀ b r i, (m ((c : Thread nD τ).loc main_arg0) : S4x4096x256.Idx → EReal) (ix3 b r i) = ((xr b r i : ℝ) : EReal))
    (hc : ∀ b n i, (m ((c : Thread nD τ).loc main_arg1) : S4x4096x256.Idx → EReal) (ix3 b n i) = ((cr b n i : ℝ) : EReal))
    (hq : ∀ i h, (m ((c : Thread nD τ).loc main_arg2) : S256x64.Idx → EReal) (ix2 i h) = ((wqr i h : ℝ) : EReal))
    (hkv : ∀ i cc, (m ((c : Thread nD τ).loc main_arg3) : S256x128.Idx → EReal) (ix2 i cc) = ((wkvr i cc : ℝ) : EReal))
    (b : Fin 4) (r : Fin 4096) (d : Fin 64) :
    ((dat1 (VE1 m) c).arrAt 3 cfg1.N : S4x4096x64.Idx → EReal) (ix3 b r d) = ((att xr cr wqr wkvr b r d : ℝ) : EReal) := by
  obtain ⟨i1, r', rfl⟩ := exists_rowOf r
  rw [arrAt1_3_apply (VE1 m) c b i1 r' d, scrAt_tile (VE1 m) c (scr0 (F := Ideal)) b i1]
  refine (out_value _ _ _ _ (coords_pt b i1 0) (coords_pt b i1 1) (coords_pt b i1 2) (coords_pt b i1 3)
    _ _ _ _ _ _ _ _ _ _ _ _ _ (fun r i => xr b (rowOf i1 r) i) (wpad wqr) (fun n cc => kvv cr wkvr b n cc)
    ?_ ?_ ?_ ?_ ?_ ?_ ?_ r' d).trans ?_
  · intro r i; rw [xblk1_apply, VE1_main_arg0]; exact hx b (rowOf i1 r) i
  · intro i h; rw [wblk1_apply]; exact VE1_main_v1 m c wqr hq i h
  · exact fun i h hh => wpad_upper wqr i h hh
  · intro n cc; rw [kvblk1_apply]; exact VE1_main_v0 m c cr wkvr hc hkv b n cc
  · intro n cc; rw [kvblk1_apply]; exact VE1_main_v0 m c cr wkvr hc hkv b n cc
  · intro n cc; rw [kvblk1_apply]; exact VE1_main_v0 m c cr wkvr hc hkv b n cc
  · intro n cc; rw [kvblk1_apply]; exact VE1_main_v0 m c cr wkvr hc hkv b n cc
  · unfold att score qv
    simp only [wpad_key]

end Cert.KernelIdeal.Hand

end
-- ==== Proof.RefValue.lean ====
/-
  The reference's result, read at an index. With every argument entry a real number, the reference computes, for batch
  `b`, query row `r` and channel `d`: the projections `q = x · Wq` and `k | v = cond · Wkv`, the scores
  `(q · k) / sqrt 64`, their row maximum `M`, the weights `exp (score - M)`, their row sum, the normalised weights, and the
  weighted sum of the values. The square root of 64 is 8, every intermediate is a real number, and a softmax row shifted by
  any real and normalised is the exp-weighted mean: the result is `Cert.Attn.att`.
-/
import proofs.«423627_j86199993631020_3_alg».proof.Proof.Gen.ReferenceIdeal.Read
import proofs.«423627_j86199993631020_3_alg».proof.Proof.Spec

noncomputable section

namespace Cert.ReferenceIdeal.RefValue

open Cert.ReferenceIdeal Cert.ReferenceIdeal.Read Idealize.ShloMosaic Idealize.ShloMosaic.ValueIdx Cert.Attn
open scoped BigOperators

/-! ## Extended reals that are real numbers -/

/-- A finite sum of real numbers, taken in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The maximum, started from `⊥`, of real numbers over a nonempty finite set is a real number. -/
theorem fold_max_coe {ι : Type} (s : Finset ι) (hs : s.Nonempty) (f : ι → EReal)
    (hf : ∀ i, ∃ x : ℝ, f i = (x : EReal)) : ∃ M : ℝ, s.fold max (⊥ : EReal) f = (M : EReal) := by
  induction hs using Finset.Nonempty.cons_induction with
  | singleton a =>
    obtain ⟨x, hx⟩ := hf a
    exact ⟨x, by rw [Finset.fold_singleton, hx, max_eq_left bot_le]⟩
  | cons a s ha hs ih =>
    obtain ⟨M, hM⟩ := ih
    obtain ⟨x, hx⟩ := hf a
    refine ⟨max x M, ?_⟩
    rw [Finset.fold_cons, hM, hx]
    exact (EReal.coe_strictMono.monotone.map_max).symm

/-- The square root of 64 is 8. -/
theorem sqrt_64 : Real.sqrt 64 = 8 := by
  rw [show (64 : ℝ) = 8 ^ 2 by norm_num, Real.sqrt_sq (by norm_num)]

/-- The single-precision pattern `0x42800000` is the real 64 = 2⁶. -/
theorem ofBits_64 : Ideal.ofBits .f32 0x42800000#32 = ((64 : ℝ) : EReal) := by
  simp [Ideal.ofBits, Ideal.ieee, -EReal.coe_mul]; norm_num

/-- The single-precision pattern `0xFF800000` is `-∞`. -/
theorem ofBits_neg_inf : Ideal.ofBits .f32 0xFF800000#32 = (⊥ : EReal) := by
  simp [Ideal.ofBits, Ideal.ieee]

/-! ## The stages, bottom up, each a real number at every index -/

section Stages

variable (x0 x1 : (⟨S4x4096x256, .f32⟩ : BufTy).Contents (Elt Ideal)) (x2 : (⟨S256x64, .f32⟩ : BufTy).Contents (Elt Ideal))
  (x3 : (⟨S256x128, .f32⟩ : BufTy).Contents (Elt Ideal))
  (xr cr : Fin 4 → Fin 4096 → Fin 256 → ℝ) (wqr : Fin 256 → Fin 64 → ℝ) (wkvr : Fin 256 → Fin 128 → ℝ)

/-- The query projection: entry `(b, r, h)` is `∑ i, x b r i · Wq i h`. -/
theorem v0_val (hx : ∀ b r i, x0 (ix3 b r i) = ((xr b r i : ℝ) : EReal)) (hq : ∀ i h, x2 (ix2 i h) = ((wqr i h : ℝ) : EReal))
    (b : Fin 4) (r : Fin 4096) (h : Fin 64) :
    val_main_v0 (F := Ideal) x0 x2 (ix3 b r h) = ((qv xr wqr b r h : ℝ) : EReal) := by
  rw [val_main_v0_apply]
  unfold qv
  rw [← coe_sum]
  refine Finset.sum_congr rfl fun k _ => ?_
  have hl : lidx_main_v0 (ix3 b r h) k = ix3 b r k := funext fun a => Fin.ext (by
    match a with | ⟨0, _⟩ => rfl | ⟨1, _⟩ => rfl | ⟨2, _⟩ => rfl)
  have hr : ridx_main_v0 (ix3 b r h) k = ix2 k h := funext fun a => Fin.ext (by
    match a with | ⟨0, _⟩ => rfl | ⟨1, _⟩ => rfl)
  rw [hl, hr, hx, hq, EReal.coe_mul]

/-- The joint key|value projection: entry `(b, n, c)` is `∑ i, cond b n i · Wkv i c`. -/
theorem v1_val (hc : ∀ b n i, x1 (ix3 b n i) = ((cr b n i : ℝ) : EReal)) (hkv : ∀ i c, x3 (ix2 i c) = ((wkvr i c : ℝ) : EReal))
    (b : Fin 4) (n : Fin 4096) (c : Fin 128) :
    val_main_v1 (F := Ideal) x1 x3 (ix3 b n c) = ((kvv cr wkvr b n c : ℝ) : EReal) := by
  rw [val_main_v1_apply]
  unfold kvv
  rw [← coe_sum]
  refine Finset.sum_congr rfl fun k _ => ?_
  have hl : lidx_main_v1 (ix3 b n c) k = ix3 b n k := funext fun a => Fin.ext (by
    match a with | ⟨0, _⟩ => rfl | ⟨1, _⟩ => rfl | ⟨2, _⟩ => rfl)
  have hr : ridx_main_v1 (ix3 b n c) k = ix2 k c := funext fun a => Fin.ext (by
    match a with | ⟨0, _⟩ => rfl | ⟨1, _⟩ => rfl)
  rw [hl, hr, hc, hkv, EReal.coe_mul]

/-- The keys: columns 0 to 63 of the joint projection. -/
theorem v2_val (hc : ∀ b n i, x1 (ix3 b n i) = ((cr b n i : ℝ) : EReal)) (hkv : ∀ i c, x3 (ix2 i c) = ((wkvr i c : ℝ) : EReal))
    (b : Fin 4) (n : Fin 4096) (h : Fin 64) :
    val_main_v2 (F := Ideal) x1 x3 (ix3 b n h) = ((kvv cr wkvr b n (keyCol h) : ℝ) : EReal) := by
  rw [val_main_v2_apply]
  have hi : idx_main_v2 (ix3 b n h) = ix3 b n (keyCol h) := funext fun a => Fin.ext (by
    match a with | ⟨0, _⟩ => rfl | ⟨1, _⟩ => rfl | ⟨2, _⟩ => rfl)
  rw [hi]
  exact v1_val x1 x3 cr wkvr hc hkv b n (keyCol h)

/-- The values: columns 64 to 127 of the joint projection. -/
theorem v3_val (hc : ∀ b n i, x1 (ix3 b n i) = ((cr b n i : ℝ) : EReal)) (hkv : ∀ i c, x3 (ix2 i c) = ((wkvr i c : ℝ) : EReal))
    (b : Fin 4) (n : Fin 4096) (d : Fin 64) :
    val_main_v3 (F := Ideal) x1 x3 (ix3 b n d) = ((kvv cr wkvr b n (valCol d) : ℝ) : EReal) := by
  rw [val_main_v3_apply]
  have hi : idx_main_v3 (ix3 b n d) = ix3 b n (valCol d) := funext fun a => Fin.ext (by
    match a with | ⟨0, _⟩ => rfl | ⟨1, _⟩ => rfl | ⟨2, _⟩ => rfl)
  rw [hi]
  exact v1_val x1 x3 cr wkvr hc hkv b n (valCol d)

end Stages

section Scores

variable (x0 x1 : (⟨S4x4096x256, .f32⟩ : BufTy).Contents (Elt Ideal)) (x2 : (⟨S256x64, .f32⟩ : BufTy).Contents (Elt Ideal))
  (x3 : (⟨S256x128, .f32⟩ : BufTy).Contents (Elt Ideal))
  (xr cr : Fin 4 → Fin 4096 → Fin 256 → ℝ) (wqr : Fin 256 → Fin 64 → ℝ) (wkvr : Fin 256 → Fin 128 → ℝ)
  (hx : ∀ b r i, x0 (ix3 b r i) = ((xr b r i : ℝ) : EReal)) (hc : ∀ b n i, x1 (ix3 b n i) = ((cr b n i : ℝ) : EReal))
  (hq : ∀ i h, x2 (ix2 i h) = ((wqr i h : ℝ) : EReal)) (hkv : ∀ i c, x3 (ix2 i c) = ((wkvr i c : ℝ) : EReal))

include hx hc hq hkv

/-- The unscaled score: entry `(b, r, n)` is `∑ h, q b r h · k b n h`. -/
theorem v4_val (b : Fin 4) (r n : Fin 4096) :
    val_main_v4 (F := Ideal) x0 x1 x2 x3 (ix3 b r n)
      = ((∑ h : Fin 64, qv xr wqr b r h * kvv cr wkvr b n (keyCol h) : ℝ) : EReal) := by
  rw [val_main_v4_apply, ← coe_sum]
  refine Finset.sum_congr rfl fun k _ => ?_
  have hl : lidx_main_v4 (ix3 b r n) k = ix3 b r k := funext fun a => Fin.ext (by
    match a with | ⟨0, _⟩ => rfl | ⟨1, _⟩ => rfl | ⟨2, _⟩ => rfl)
  have hr : ridx_main_v4 (ix3 b r n) k = ix3 b n k := funext fun a => Fin.ext (by
    match a with | ⟨0, _⟩ => rfl | ⟨1, _⟩ => rfl | ⟨2, _⟩ => rfl)
  rw [hl, hr, v0_val x0 x2 xr wqr hx hq, v2_val x1 x3 cr wkvr hc hkv, EReal.coe_mul]

omit hx hc hq hkv in
/-- The scale: the square root of the constant 64, which is 8, at every index. -/
theorem v6_val (i : S4x4096x4096.Idx) : val_main_v6 (F := Ideal) i = ((8 : ℝ) : EReal) := by
  rw [val_main_v6_apply, val_main_v5_apply, val_main_cst_apply, Ideal.hostUnary_sqrt_def, Ideal.ofBits_def, ofBits_64,
    Ideal.sqrt_coe, if_neg (by norm_num), sqrt_64]

/-- The scaled score. -/
theorem v7_val (b : Fin 4) (r n : Fin 4096) :
    val_main_v7 (F := Ideal) x0 x1 x2 x3 (ix3 b r n) = ((score xr cr wqr wkvr b r n : ℝ) : EReal) := by
  rw [val_main_v7_apply, v4_val x0 x1 x2 x3 xr cr wqr wkvr hx hc hq hkv, v6_val, Ideal.hostDivf_def,
    Ideal.div_coe (by norm_num : (8 : ℝ) ≠ 0), ← EReal.coe_mul]
  unfold score
  rw [mul_one_div]

/-- Every scaled score is a real number. -/
theorem v7_real (i : S4x4096x4096.Idx) : ∃ s : ℝ, val_main_v7 (F := Ideal) x0 x1 x2 x3 i = (s : EReal) :=
  ⟨_, (congrArg (val_main_v7 (F := Ideal) x0 x1 x2 x3) (eq_ix3 i)).trans
    (v7_val x0 x1 x2 x3 xr cr wqr wkvr hx hc hq hkv (i 0) (i 1) (i 2))⟩

/-- The row maximum of the scaled scores, started from `-∞` over the 4096 keys, is a real number. -/
theorem v8_real (b : Fin 4) (r : Fin 4096) :
    ∃ M : ℝ, val_main_v8 (F := Ideal) x0 x1 x2 x3 (ix2 b r) = (M : EReal) := by
  have hy := v7_real x0 x1 x2 x3 xr cr wqr wkvr hx hc hq hkv
  unfold val_main_v8
  generalize val_main_v7 (F := Ideal) x0 x1 x2 x3 = y at hy ⊢
  have hfold := Host.reduce_eq_fold_single (FloatOps.maximumf (F := Ideal) (φ := .f32)) y (val_main_cst_0 (F := Ideal))
    Gen.reducesTo_S4x4096x4096_S4x4096_d2 (by decide) Gen.h_S_ (ix2 b r)
  rw [val_main_cst_0_apply, Ideal.ofBits_def, ofBits_neg_inf] at hfold
  refine Exists.imp (fun M hM => hfold.trans hM) ?_
  exact fold_max_coe _ ⟨⟨0, by decide⟩, Finset.mem_univ _⟩ _ (fun k => hy _)

end Scores

section Softmax

variable (x0 x1 : (⟨S4x4096x256, .f32⟩ : BufTy).Contents (Elt Ideal)) (x2 : (⟨S256x64, .f32⟩ : BufTy).Contents (Elt Ideal))
  (x3 : (⟨S256x128, .f32⟩ : BufTy).Contents (Elt Ideal))
  (xr cr : Fin 4 → Fin 4096 → Fin 256 → ℝ) (wqr : Fin 256 → Fin 64 → ℝ) (wkvr : Fin 256 → Fin 128 → ℝ)
  (hx : ∀ b r i, x0 (ix3 b r i) = ((xr b r i : ℝ) : EReal)) (hc : ∀ b n i, x1 (ix3 b n i) = ((cr b n i : ℝ) : EReal))
  (hq : ∀ i h, x2 (ix2 i h) = ((wqr i h : ℝ) : EReal)) (hkv : ∀ i c, x3 (ix2 i c) = ((wkvr i c : ℝ) : EReal))
  (b : Fin 4) (r : Fin 4096) (M : ℝ) (hM : val_main_v8 (F := Ideal) x0 x1 x2 x3 (ix2 b r) = (M : EReal))

include hM

/-- The maximum with `-∞` changes nothing: the shift of row `(b, r)` is `M`. -/
theorem v10_val : val_main_v10 (F := Ideal) x0 x1 x2 x3 (ix2 b r) = (M : EReal) := by
  rw [val_main_v10_apply, val_main_v9_apply, val_main_cst_1_apply, hM, Ideal.maximumf_def, Ideal.ofBits_def, ofBits_neg_inf,
    max_eq_right bot_le]

/-- The shift broadcast along the keys. -/
theorem v12_val (n : Fin 4096) : val_main_v12 (F := Ideal) x0 x1 x2 x3 (ix3 b r n) = (M : EReal) := by
  rw [val_main_v12_apply, val_main_v11_apply]
  have hi : idx_main_v11 (idx_main_v12 (ix3 b r n)) = ix2 b r := funext fun a => Fin.ext (by
    match a with | ⟨0, _⟩ => rfl | ⟨1, _⟩ => rfl)
  rw [hi]
  exact v10_val x0 x1 x2 x3 b r M hM

include hx hc hq hkv

/-- The weight of key `n`: `exp (score - M)`. -/
theorem v14_val (n : Fin 4096) :
    val_main_v14 (F := Ideal) x0 x1 x2 x3 (ix3 b r n) = ((Real.exp (score xr cr wqr wkvr b r n - M) : ℝ) : EReal) := by
  rw [val_main_v14_apply, val_main_v13_apply, v7_val x0 x1 x2 x3 xr cr wqr wkvr hx hc hq hkv, v12_val x0 x1 x2 x3 b r M hM,
    Ideal.subf_def, ← EReal.coe_sub, Ideal.hostUnary_exp_def, Ideal.exp_coe]

/-- The normaliser of row `(b, r)`: the sum of the weights. -/
theorem v15_val :
    val_main_v15 (F := Ideal) x0 x1 x2 x3 (ix2 b r)
      = ((∑ n : Fin 4096, Real.exp (score xr cr wqr wkvr b r n - M) : ℝ) : EReal) := by
  rw [val_main_v15_apply, val_main_cst_2_apply, Ideal.ofBits_def, Ideal.ofBits_zero_f32, zero_add, ← coe_sum]
  refine Finset.sum_congr rfl fun k _ => ?_
  have hi : idx_main_v15 (ix2 b r) k = ix3 b r k := funext fun a => Fin.ext (by
    match a with | ⟨0, _⟩ => rfl | ⟨1, _⟩ => rfl | ⟨2, _⟩ => rfl)
  rw [hi, v14_val x0 x1 x2 x3 xr cr wqr wkvr hx hc hq hkv b r M hM]

/-- The normaliser broadcast along the keys. -/
theorem v17_val (n : Fin 4096) :
    val_main_v17 (F := Ideal) x0 x1 x2 x3 (ix3 b r n)
      = ((∑ n : Fin 4096, Real.exp (score xr cr wqr wkvr b r n - M) : ℝ) : EReal) := by
  rw [val_main_v17_apply, val_main_v16_apply]
  have hi : idx_main_v16 (idx_main_v17 (ix3 b r n)) = ix2 b r := funext fun a => Fin.ext (by
    match a with | ⟨0, _⟩ => rfl | ⟨1, _⟩ => rfl)
  rw [hi]
  exact v15_val x0 x1 x2 x3 xr cr wqr wkvr hx hc hq hkv b r M hM

/-- The normalised weight of key `n`; the normaliser is a sum of positive reals, so it is not zero. -/
theorem v18_val (n : Fin 4096) :
    val_main_v18 (F := Ideal) x0 x1 x2 x3 (ix3 b r n)
      = ((Real.exp (score xr cr wqr wkvr b r n - M) / ∑ n' : Fin 4096, Real.exp (score xr cr wqr wkvr b r n' - M) : ℝ) : EReal) := by
  have hZ : (∑ n' : Fin 4096, Real.exp (score xr cr wqr wkvr b r n' - M)) ≠ 0 :=
    (Finset.sum_pos (fun n' _ => Real.exp_pos _) Finset.univ_nonempty).ne'
  rw [val_main_v18_apply, v14_val x0 x1 x2 x3 xr cr wqr wkvr hx hc hq hkv b r M hM,
    v17_val x0 x1 x2 x3 xr cr wqr wkvr hx hc hq hkv b r M hM, Ideal.hostDivf_def, Ideal.div_coe hZ, ← EReal.coe_mul, mul_one_div]

end Softmax

/-- The reference's last stage at index `(b, r, d)`, the four argument arrays being coerced reals, is the coerced attention
    output. -/
theorem ref_value
    (x0 x1 : (⟨S4x4096x256, .f32⟩ : BufTy).Contents (Elt Ideal)) (x2 : (⟨S256x64, .f32⟩ : BufTy).Contents (Elt Ideal))
    (x3 : (⟨S256x128, .f32⟩ : BufTy).Contents (Elt Ideal))
    (xr cr : Fin 4 → Fin 4096 → Fin 256 → ℝ) (wqr : Fin 256 → Fin 64 → ℝ) (wkvr : Fin 256 → Fin 128 → ℝ)
    (hx : ∀ b r i, x0 (ix3 b r i) = ((xr b r i : ℝ) : EReal)) (hc : ∀ b n i, x1 (ix3 b n i) = ((cr b n i : ℝ) : EReal))
    (hq : ∀ i h, x2 (ix2 i h) = ((wqr i h : ℝ) : EReal)) (hkv : ∀ i c, x3 (ix2 i c) = ((wkvr i c : ℝ) : EReal))
    (b : Fin 4) (r : Fin 4096) (d : Fin 64) :
    val_main_v19 (F := Ideal) x0 x1 x2 x3 (ix3 b r d) = ((att xr cr wqr wkvr b r d : ℝ) : EReal) := by
  -- the row's shift is some real number M; a softmax row shifted by any real and normalised is the exp-weighted mean
  obtain ⟨M, hM⟩ := v8_real x0 x1 x2 x3 xr cr wqr wkvr hx hc hq hkv b r
  have hw := wmean_shift (fun n : Fin 4096 => score xr cr wqr wkvr b r n) (fun n => kvv cr wkvr b n (valCol d)) M
  unfold att
  rw [val_main_v19_apply, ← hw, ← coe_sum]
  refine Finset.sum_congr rfl fun k _ => ?_
  have hl : lidx_main_v19 (ix3 b r d) k = ix3 b r k := funext fun a => Fin.ext (by
    match a with | ⟨0, _⟩ => rfl | ⟨1, _⟩ => rfl | ⟨2, _⟩ => rfl)
  have hr : ridx_main_v19 (ix3 b r d) k = ix3 b k d := funext fun a => Fin.ext (by
    match a with | ⟨0, _⟩ => rfl | ⟨1, _⟩ => rfl | ⟨2, _⟩ => rfl)
  rw [hl, hr, v18_val x0 x1 x2 x3 xr cr wqr wkvr hx hc hq hkv b r M hM, v3_val x1 x3 cr wkvr hc hkv, EReal.coe_mul]

end Cert.ReferenceIdeal.RefValue

end
-- ==== Proof.Finite.lean ====
/-
  What the precondition says at the ideal instance. The printed predicate compares the absolute value of every entry of
  each of the four argument arrays with +infinity, conjoins the comparisons of an array by an and-reduction and the four
  results by `and`. If it evaluates to all ones then every entry of every array is an extended real strictly between the
  two infinities, that is, a real number.
-/
import proofs.«423627_j86199993631020_3_alg».proof.Proof.Gen.Pre_finite_inputs
import Idealize.ShloMosaic.PureOps.Ideal
import Idealize.ShloMosaic.Lib.ReduceAll
import Idealize.ShloMosaic.Lib.ValueIdx

noncomputable section

namespace Cert.Attn

open Idealize.ShloMosaic Cert.Pre_finite_inputs

namespace Finite

/-- The binary32 pattern with all exponent bits set and a zero fraction denotes the top element. -/
theorem ofBits_posInf : Ideal.ofBits .f32 0x7F800000#32 = (⊤ : EReal) := by
  simp [Ideal.ofBits, Ideal.ieee]

/-- The element fact. In the extended reals `|x| = max x (-x)`; at either infinity this is `⊤`, which is not strictly
    below `⊤`. So an `x` whose absolute value compares strictly below `⊤` is neither infinity: it is a real. -/
theorem real_of_abs_lt_top (x : EReal) (h : Ideal.cmp .olt (max x (-x)) (⊤ : EReal) = 1#1) :
    ∃ r : ℝ, x = ((r : ℝ) : EReal) := by
  induction x using EReal.rec with
  | bot => simp [Ideal.cmp] at h
  | top => simp [Ideal.cmp] at h
  | coe r => exact ⟨r, rfl⟩

/-- One array, of any shape `S`. If the and-reduction over all axes of the entrywise comparison `|a i| < +inf` is one,
    then each comparison is one (a conjunction that holds has only true conjuncts; the result has a single index, so
    every entry reduces into it), and the element fact makes each entry a real. -/
theorem all_real {S : Shape} {axes : List (Fin S.rank)} (hb : S_.BroadcastsInDim S (![] : Fin 0 → Fin S.rank))
    (hr : S.ReducesTo axes S_) (hu : 0 < S_.numel) (a : FVec Ideal S .f32)
    (h : Host.reduce IntOp.andi
          (cmpf .olt (Host.absf a) (broadcastInDim S ![] hb (constant (F := Ideal) S_ .f32 0x7F800000#32)))
          (constantI S_ 1 1#1) hr hu ValueIdx.ix0 = 1#1)
    (i : S.Idx) : ∃ r : ℝ, a i = ((r : ℝ) : EReal) := by
  haveI : Subsingleton S_.Idx := ⟨fun _ _ => funext fun d => d.elim0⟩
  have e := Host.reduce_andi_all _ _ hr hu ValueIdx.ix0 h i
  refine real_of_abs_lt_top (a i) ?_
  rw [← ofBits_posInf]
  exact e

end Finite

/-- The precondition, evaluated at the ideal instance to all ones, makes every entry of the four arrays a real. -/
theorem real_of_pre [Cert.Pre_finite_inputs.Facts]
    (a0 a1 : FVec Ideal Cert.Pre_finite_inputs.S4x4096x256 .f32) (a2 : FVec Ideal Cert.Pre_finite_inputs.S256x64 .f32)
    (a3 : FVec Ideal Cert.Pre_finite_inputs.S256x128 .f32)
    (h : Cert.Pre_finite_inputs.fn (F := Ideal) a0 a1 a2 a3 = (fun _ => 1#1)) :
    (∀ i, ∃ r : ℝ, a0 i = ((r : ℝ) : EReal)) ∧ (∀ i, ∃ r : ℝ, a1 i = ((r : ℝ) : EReal))
      ∧ (∀ i, ∃ r : ℝ, a2 i = ((r : ℝ) : EReal)) ∧ (∀ i, ∃ r : ℝ, a3 i = ((r : ℝ) : EReal)) := by
  -- The predicate's value at its one index is ((r0 ∧ r1) ∧ r2) ∧ r3, each `r` the and-reduction of one array's comparisons.
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨Finite.all_real _ _ _ a0 h0', Finite.all_real _ _ _ a1 h1, Finite.all_real _ _ _ a2 h2,
    Finite.all_real _ _ _ a3 h3⟩

end Cert.Attn

end
-- ==== Proof.lean ====
/-
  The certificate's five claims.

  Both programs compute attention: queries `q = x · Wq`, keys and values the two halves of `cond · Wkv`, scores
  `(q · k) / 8` (8 the square root of the head width 64), and per query row the exp-weighted mean of the values.
  The reference does it in one pass over all 4096 keys, shifting the scores by their row maximum before exponentiating and
  normalising term by term. The kernel projects keys and values in a first region, then per query tile of 1024 rows takes
  the keys in four tiles of 1024, keeping a running shift, a running normaliser and a running numerator in scratch and
  rescaling them when the shift moves, and divides at the end. Over the reals the shift — the row maximum there, a
  running maximum started from a large negative constant here — cancels from numerator and denominator, so both are the
  same exp-weighted mean (`Cert.Attn.att`); the precondition makes every input entry, and so every intermediate, a real
  number, which is what the cancellation and the splitting of the sums need.

  The frames: each kernel program's run is assembled from its two regions' runs and the host operations between them, the
  same text at the word-level and the ideal instance; the reference's is its list of host operations run in order. The
  ideal pass rewrote nothing, so the idealization claim is empty.
-/
import proofs.«423627_j86199993631020_3_alg».proof.Defs
import proofs.«423627_j86199993631020_3_alg».proof.Proof.Gen.Kernel
import proofs.«423627_j86199993631020_3_alg».proof.Proof.Gen.KernelIdeal
import proofs.«423627_j86199993631020_3_alg».proof.Proof.Gen.ReferenceIdeal
import proofs.«423627_j86199993631020_3_alg».proof.Proof.Gen.Pre_finite_inputs
import proofs.«423627_j86199993631020_3_alg».proof.Proof.BitsRun
import proofs.«423627_j86199993631020_3_alg».proof.Proof.Run
import proofs.«423627_j86199993631020_3_alg».proof.Proof.KernelValue
import proofs.«423627_j86199993631020_3_alg».proof.Proof.RefValue
import proofs.«423627_j86199993631020_3_alg».proof.Proof.Finite

noncomputable section

namespace Cert.Proof

open Idealize.ShloMosaic Idealize.ShloMosaic.TcCoe Idealize.ShloMosaic.ValueIdx Idealize.SL.Sem

/-- The word-level kernel program runs and leaves its arguments as launched. -/
theorem frame_k : Cert.frame_Kernel := fun m ρ _ =>
  (θ_run Cert.Kernel.defs _ _).mono (fun _ h c => (h c).2) (Cert.Kernel.Hand.run (F := Bits) m ρ)

/-- So does the idealized kernel program, -/
theorem frame_ki : Cert.frame_KernelIdeal := fun m ρ _ =>
  (θ_run Cert.KernelIdeal.defs _ _).mono (fun _ h c => (h c).2) (Cert.KernelIdeal.Hand.run (F := Ideal) m ρ)

/-- and the idealized reference. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments, every entry of which the precondition makes a real number, the idealized
    kernel's result array and the idealized reference's are entry by entry the coerced attention output. -/
theorem algebraic : Cert.algebraic_KernelIdeal_ReferenceIdeal := by
  intro m ρ m' ρ' hpre hagree
  refine ⟨fun c => (Cert.KernelIdeal.Hand.dat1 (Cert.KernelIdeal.Hand.VE1 m) c).arrAt 3 Cert.KernelIdeal.cfg1.N,
    Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v19_eq _ _ _ _).trans ?_
  obtain ⟨h0, h1, h2, h3⟩ := Cert.Attn.real_of_pre _ _ _ _ (hpre c)
  choose x0 hx0 using h0
  choose x1 hx1 using h1
  choose x2 hx2 using h2
  choose x3 hx3 using h3
  funext i
  obtain ⟨b, r, d, rfl⟩ : ∃ (b : Fin 4) (r : Fin 4096) (d : Fin 64), i = ix3 b r d := ⟨i 0, i 1, i 2, eq_ix3 i⟩
  exact (Cert.ReferenceIdeal.RefValue.ref_value _ _ _ _
      (fun b r i => x0 (ix3 b r i)) (fun b n i => x1 (ix3 b n i)) (fun i h => x2 (ix2 i h)) (fun i cc => x3 (ix2 i cc))
      (fun _ _ _ => hx0 _) (fun _ _ _ => hx1 _) (fun _ _ => hx2 _) (fun _ _ => hx3 _) b r d).trans
    (Cert.KernelIdeal.Hand.kernel_value m c
      (fun b r i => x0 (ix3 b r i)) (fun b n i => x1 (ix3 b n i)) (fun i h => x2 (ix2 i h)) (fun i cc => x3 (ix2 i cc))
      (fun _ _ _ => hx0 _) (fun _ _ _ => hx1 _) (fun _ _ => hx2 _) (fun _ _ => hx3 _) b r d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
